-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9)) (m ((c.tc : Thread Cert.Kernel.nD Cert.Kernel.τ).loc Cert.Kernel.main_arg10))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)) →
    ∃ (v0 : (c : Dev Cert.KernelIdeal.nD) → Buf (Elt Ideal) ((c.tc : Thread Cert.KernelIdeal.nD Cert.KernelIdeal.τ).loc Cert.KernelIdeal.main_v59)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v59) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v87) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S50000x256 : Shape := ⟨2, ![50000, 256]⟩
abbrev S2x800000 : Shape := ⟨2, ![2, 800000]⟩
abbrev S256x256 : Shape := ⟨2, ![256, 256]⟩
abbrev S256 : Shape := ⟨1, ![256]⟩
abbrev S47x256 : Shape := ⟨2, ![47, 256]⟩
abbrev S47 : Shape := ⟨1, ![47]⟩
abbrev S_ : Shape := ⟨0, ![]⟩

class Facts : Prop where
  bcast_S_S50000x256 : S_.BroadcastsInDim S50000x256 (![] : Fin 0 → Fin S50000x256.rank)
  reducesTo_S50000x256_S_d0_1 : S50000x256.ReducesTo [0, 1] S_
  h_S_ : 0 < S_.numel
  bcast_S_S256x256 : S_.BroadcastsInDim S256x256 (![] : Fin 0 → Fin S256x256.rank)
  reducesTo_S256x256_S_d0_1 : S256x256.ReducesTo [0, 1] S_
  bcast_S_S256 : S_.BroadcastsInDim S256 (![] : Fin 0 → Fin S256.rank)
  reducesTo_S256_S_d0 : S256.ReducesTo [0] S_
  bcast_S_S47x256 : S_.BroadcastsInDim S47x256 (![] : Fin 0 → Fin S47x256.rank)
  reducesTo_S47x256_S_d0_1 : S47x256.ReducesTo [0, 1] S_
  bcast_S_S47 : S_.BroadcastsInDim S47 (![] : Fin 0 → Fin S47.rank)
  reducesTo_S47_S_d0 : S47.ReducesTo [0] S_

variable [Facts]

def fn_part2 {F : FTy → Type} [FloatOps F] (main_arg8 : FVec F S47x256 .f32) (main_arg9 : FVec F S47 .f32) (main_arg10 : FVec F S47x256 .f32) (main_v33 : IVec S_ 1) : IVec S_ 1 :=
  let main_v34 : FVec F S47x256 .f32 := Host.absf main_arg8
  let main_cst_12 : FVec F S_ .f32 := constant S_ .f32 0x7F800000#32
  let main_v35 : FVec F S47x256 .f32 := broadcastInDim S47x256 ![] bcast_S_S47x256 main_cst_12
  let main_v36 : IVec S47x256 1 := cmpf .olt main_v34 main_v35
  let main_c_13 : IVec S_ 1 := constantI S_ 1 1#1
  let main_v37 : IVec S_ 1 := (fun x v => Host.reduce IntOp.andi x v reducesTo_S47x256_S_d0_1 h_S_) main_v36 main_c_13
  let main_v38 : IVec S_ 1 := andi main_v33 main_v37
  let main_v39 : FVec F S47 .f32 := Host.absf main_arg9
  let main_cst_14 : FVec F S_ .f32 := constant S_ .f32 0x7F800000#32
  let main_v40 : FVec F S47 .f32 := broadcastInDim S47 ![] bcast_S_S47 main_cst_14
  let main_v41 : IVec S47 1 := cmpf .olt main_v39 main_v40
  let main_c_15 : IVec S_ 1 := constantI S_ 1 1#1
  let main_v42 : IVec S_ 1 := (fun x v => Host.reduce IntOp.andi x v reducesTo_S47_S_d0 h_S_) main_v41 main_c_15
  let main_v43 : IVec S_ 1 := andi main_v38 main_v42
  let main_v44 : FVec F S47x256 .f32 := Host.absf main_arg10
  let main_cst_16 : FVec F S_ .f32 := constant S_ .f32 0x7F800000#32
  let main_v45 : FVec F S47x256 .f32 := broadcastInDim S47x256 ![] bcast_S_S47x256 main_cst_16
  let main_v46 : IVec S47x256 1 := cmpf .olt main_v44 main_v45
  let main_c_17 : IVec S_ 1 := constantI S_ 1 1#1
  let main_v47 : IVec S_ 1 := (fun x v => Host.reduce IntOp.andi x v reducesTo_S47x256_S_d0_1 h_S_) main_v46 main_c_17
  let main_v48 : IVec S_ 1 := andi main_v43 main_v47
  main_v48

def fn_part1 {F : FTy → Type} [FloatOps F] (main_arg5 : FVec F S256x256 .f32) (main_arg6 : FVec F S256 .f32) (main_arg7 : FVec F S256x256 .f32) (main_arg8 : FVec F S47x256 .f32) (main_arg9 : FVec F S47 .f32) (main_arg10 : FVec F S47x256 .f32) (main_v13 : IVec S_ 1) (main_v16 : IVec S256x256 1) : IVec S_ 1 :=
  let main_c_5 : IVec S_ 1 := constantI S_ 1 1#1
  let main_v17 : IVec S_ 1 := (fun x v => Host.reduce IntOp.andi x v reducesTo_S256x256_S_d0_1 h_S_) main_v16 main_c_5
  let main_v18 : IVec S_ 1 := andi main_v13 main_v17
  let main_v19 : FVec F S256x256 .f32 := Host.absf main_arg5
  let main_cst_6 : FVec F S_ .f32 := constant S_ .f32 0x7F800000#32
  let main_v20 : FVec F S256x256 .f32 := broadcastInDim S256x256 ![] bcast_S_S256x256 main_cst_6
  let main_v21 : IVec S256x256 1 := cmpf .olt main_v19 main_v20
  let main_c_7 : IVec S_ 1 := constantI S_ 1 1#1
  let main_v22 : IVec S_ 1 := (fun x v => Host.reduce IntOp.andi x v reducesTo_S256x256_S_d0_1 h_S_) main_v21 main_c_7
  let main_v23 : IVec S_ 1 := andi main_v18 main_v22
  let main_v24 : FVec F S256 .f32 := Host.absf main_arg6
  let main_cst_8 : FVec F S_ .f32 := constant S_ .f32 0x7F800000#32
  let main_v25 : FVec F S256 .f32 := broadcastInDim S256 ![] bcast_S_S256 main_cst_8
  let main_v26 : IVec S256 1 := cmpf .olt main_v24 main_v25
  let main_c_9 : IVec S_ 1 := constantI S_ 1 1#1
  let main_v27 : IVec S_ 1 := (fun x v => Host.reduce IntOp.andi x v reducesTo_S256_S_d0 h_S_) main_v26 main_c_9
  let main_v28 : IVec S_ 1 := andi main_v23 main_v27
  let main_v29 : FVec F S256x256 .f32 := Host.absf main_arg7
  let main_cst_10 : FVec F S_ .f32 := constant S_ .f32 0x7F800000#32
  let main_v30 : FVec F S256x256 .f32 := broadcastInDim S256x256 ![] bcast_S_S256x256 main_cst_10
  let main_v31 : IVec S256x256 1 := cmpf .olt main_v29 main_v30
  let main_c_11 : IVec S_ 1 := constantI S_ 1 1#1
  let main_v32 : IVec S_ 1 := (fun x v => Host.reduce IntOp.andi x v reducesTo_S256x256_S_d0_1 h_S_) main_v31 main_c_11
  let main_v33 : IVec S_ 1 := andi main_v28 main_v32
  fn_part2 (F := F) main_arg8 main_arg9 main_arg10 main_v33

def fn {F : FTy → Type} [FloatOps F] (main_arg0 : FVec F S50000x256 .f32) (main_arg1 : IVec S2x800000 32) (main_arg2 : FVec F S256x256 .f32) (main_arg3 : FVec F S256 .f32) (main_arg4 : FVec F S256x256 .f32) (main_arg5 : FVec F S256x256 .f32) (main_arg6 : FVec F S256 .f32) (main_arg7 : FVec F S256x256 .f32) (main_arg8 : FVec F S47x256 .f32) (main_arg9 : FVec F S47 .f32) (main_arg10 : FVec F S47x256 .f32) : IVec S_ 1 :=
  let main_v0 : FVec F S50000x256 .f32 := Host.absf main_arg0
  let main_cst : FVec F S_ .f32 := constant S_ .f32 0x7F800000#32
  let main_v1 : FVec F S50000x256 .f32 := broadcastInDim S50000x256 ![] bcast_S_S50000x256 main_cst
  let main_v2 : IVec S50000x256 1 := cmpf .olt main_v0 main_v1
  let main_c : IVec S_ 1 := constantI S_ 1 1#1
  let main_v3 : IVec S_ 1 := (fun x v => Host.reduce IntOp.andi x v reducesTo_S50000x256_S_d0_1 h_S_) main_v2 main_c
  let main_v4 : FVec F S256x256 .f32 := Host.absf main_arg2
  let main_cst_0 : FVec F S_ .f32 := constant S_ .f32 0x7F800000#32
  let main_v5 : FVec F S256x256 .f32 := broadcastInDim S256x256 ![] bcast_S_S256x256 main_cst_0
  let main_v6 : IVec S256x256 1 := cmpf .olt main_v4 main_v5
  let main_c_1 : IVec S_ 1 := constantI S_ 1 1#1
  let main_v7 : IVec S_ 1 := (fun x v => Host.reduce IntOp.andi x v reducesTo_S256x256_S_d0_1 h_S_) main_v6 main_c_1
  let main_v8 : IVec S_ 1 := andi main_v3 main_v7
  let main_v9 : FVec F S256 .f32 := Host.absf main_arg3
  let main_cst_2 : FVec F S_ .f32 := constant S_ .f32 0x7F800000#32
  let main_v10 : FVec F S256 .f32 := broadcastInDim S256 ![] bcast_S_S256 main_cst_2
  let main_v11 : IVec S256 1 := cmpf .olt main_v9 main_v10
  let main_c_3 : IVec S_ 1 := constantI S_ 1 1#1
  let main_v12 : IVec S_ 1 := (fun x v => Host.reduce IntOp.andi x v reducesTo_S256_S_d0 h_S_) main_v11 main_c_3
  let main_v13 : IVec S_ 1 := andi main_v8 main_v12
  let main_v14 : FVec F S256x256 .f32 := Host.absf main_arg4
  let main_cst_4 : FVec F S_ .f32 := constant S_ .f32 0x7F800000#32
  let main_v15 : FVec F S256x256 .f32 := broadcastInDim S256x256 ![] bcast_S_S256x256 main_cst_4
  let main_v16 : IVec S256x256 1 := cmpf .olt main_v14 main_v15
  fn_part1 (F := F) main_arg5 main_arg6 main_arg7 main_arg8 main_arg9 main_arg10 main_v13 main_v16
-- ==== Kernel.lean ====
abbrev S50000x256 : Shape := ⟨2, ![50000, 256]⟩
abbrev S2x800000 : Shape := ⟨2, ![2, 800000]⟩
abbrev S256x256 : Shape := ⟨2, ![256, 256]⟩
abbrev S256 : Shape := ⟨1, ![256]⟩
abbrev S47x256 : Shape := ⟨2, ![47, 256]⟩
abbrev S47 : Shape := ⟨1, ![47]⟩
abbrev S1x800000 : Shape := ⟨2, ![1, 800000]⟩
abbrev S800000 : Shape := ⟨1, ![800000]⟩
abbrev S_ : Shape := ⟨0, ![]⟩
abbrev S50000 : Shape := ⟨1, ![50000]⟩
abbrev S800000x1 : Shape := ⟨2, ![800000, 1]⟩
abbrev S256x47 : Shape := ⟨2, ![256, 47]⟩
abbrev S800000x256 : Shape := ⟨2, ![800000, 256]⟩
abbrev S50000x1 : Shape := ⟨2, ![50000, 1]⟩
abbrev S1000x256 : Shape := ⟨2, ![1000, 256]⟩
abbrev S1x256 : Shape := ⟨2, ![1, 256]⟩
abbrev S50000x47 : Shape := ⟨2, ![50000, 47]⟩
abbrev S1000x47 : Shape := ⟨2, ![1000, 47]⟩
abbrev S1x47 : Shape := ⟨2, ![1, 47]⟩
abbrev S1000 : Shape := ⟨1, ![1000]⟩
abbrev S1000x1 : Shape := ⟨2, ![1000, 1]⟩

abbrev nBuf : Space → Nat
  | .hbm => 84
  | .vmem => 27
  | .smem => 0
  | _ => 0

abbrev bufTy : (tb : Table) → Fin (tcTables nBuf tb) → BufTy
  | .hbm, ⟨0, _⟩ => ⟨S50000x256, .f32⟩
  | .hbm, ⟨1, _⟩ => ⟨S2x800000, .i32⟩
  | .hbm, ⟨2, _⟩ => ⟨S256x256, .f32⟩
  | .hbm, ⟨3, _⟩ => ⟨S256, .f32⟩
  | .hbm, ⟨4, _⟩ => ⟨S256x256, .f32⟩
  | .hbm, ⟨5, _⟩ => ⟨S256x256, .f32⟩
  | .hbm, ⟨6, _⟩ => ⟨S256, .f32⟩
  | .hbm, ⟨7, _⟩ => ⟨S256x256, .f32⟩
  | .hbm, ⟨8, _⟩ => ⟨S47x256, .f32⟩
  | .hbm, ⟨9, _⟩ => ⟨S47, .f32⟩
  | .hbm, ⟨10, _⟩ => ⟨S47x256, .f32⟩
  | .hbm, ⟨11, _⟩ => ⟨S1x800000, .i32⟩
  | .hbm, ⟨12, _⟩ => ⟨S800000, .i32⟩
  | .hbm, ⟨13, _⟩ => ⟨S1x800000, .i32⟩
  | .hbm, ⟨14, _⟩ => ⟨S800000, .i32⟩
  | .hbm, ⟨15, _⟩ => ⟨S_, .f32⟩
  | .hbm, ⟨16, _⟩ => ⟨S800000, .f32⟩
  | .hbm, ⟨17, _⟩ => ⟨S_, .f32⟩
  | .hbm, ⟨18, _⟩ => ⟨S50000, .f32⟩
  | .hbm, ⟨19, _⟩ => ⟨S800000x1, .i32⟩
  | .hbm, ⟨20, _⟩ => ⟨S50000, .f32⟩
  | .hbm, ⟨21, _⟩ => ⟨S_, .f32⟩
  | .hbm, ⟨22, _⟩ => ⟨S50000, .f32⟩
  | .hbm, ⟨23, _⟩ => ⟨S50000, .f32⟩
  | .hbm, ⟨24, _⟩ => ⟨S_, .f32⟩
  | .hbm, ⟨25, _⟩ => ⟨S50000, .f32⟩
  | .hbm, ⟨26, _⟩ => ⟨S50000, .f32⟩
  | .hbm, ⟨27, _⟩ => ⟨S256x256, .f32⟩
  | .hbm, ⟨28, _⟩ => ⟨S256x256, .f32⟩
  | .hbm, ⟨29, _⟩ => ⟨S256x256, .f32⟩
  | .hbm, ⟨30, _⟩ => ⟨S256x256, .f32⟩
  | .hbm, ⟨31, _⟩ => ⟨S256x47, .f32⟩
  | .hbm, ⟨32, _⟩ => ⟨S256x47, .f32⟩
  | .hbm, ⟨33, _⟩ => ⟨S_, .i32⟩
  | .hbm, ⟨34, _⟩ => ⟨S800000, .i32⟩
  | .hbm, ⟨35, _⟩ => ⟨S800000, .i1⟩
  | .hbm, ⟨36, _⟩ => ⟨S_, .i32⟩
  | .hbm, ⟨37, _⟩ => ⟨S800000, .i32⟩
  | .hbm, ⟨38, _⟩ => ⟨S800000, .i32⟩
  | .hbm, ⟨39, _⟩ => ⟨S800000, .i32⟩
  | .hbm, ⟨40, _⟩ => ⟨S800000x1, .i32⟩
  | .hbm, ⟨41, _⟩ => ⟨S800000x256, .f32⟩
  | .hbm, ⟨42, _⟩ => ⟨S_, .f32⟩
  | .hbm, ⟨43, _⟩ => ⟨S50000x256, .f32⟩
  | .hbm, ⟨44, _⟩ => ⟨S800000x1, .i32⟩
  | .hbm, ⟨45, _⟩ => ⟨S50000x256, .f32⟩
  | .hbm, ⟨46, _⟩ => ⟨S50000x1, .f32⟩
  | .hbm, ⟨47, _⟩ => ⟨S50000x256, .f32⟩
  | .hbm, ⟨48, _⟩ => ⟨S50000x256, .f32⟩
  | .hbm, ⟨49, _⟩ => ⟨S50000x256, .f32⟩
  | .hbm, ⟨50, _⟩ => ⟨S_, .i32⟩
  | .hbm, ⟨51, _⟩ => ⟨S800000, .i32⟩
  | .hbm, ⟨52, _⟩ => ⟨S800000, .i1⟩
  | .hbm, ⟨53, _⟩ => ⟨S_, .i32⟩
  | .hbm, ⟨54, _⟩ => ⟨S800000, .i32⟩
  | .hbm, ⟨55, _⟩ => ⟨S800000, .i32⟩
  | .hbm, ⟨56, _⟩ => ⟨S800000, .i32⟩
  | .hbm, ⟨57, _⟩ => ⟨S800000x1, .i32⟩
  | .hbm, ⟨58, _⟩ => ⟨S800000x256, .f32⟩
  | .hbm, ⟨59, _⟩ => ⟨S_, .f32⟩
  | .hbm, ⟨60, _⟩ => ⟨S50000x256, .f32⟩
  | .hbm, ⟨61, _⟩ => ⟨S800000x1, .i32⟩
  | .hbm, ⟨62, _⟩ => ⟨S50000x256, .f32⟩
  | .hbm, ⟨63, _⟩ => ⟨S50000x1, .f32⟩
  | .hbm, ⟨64, _⟩ => ⟨S50000x256, .f32⟩
  | .hbm, ⟨65, _⟩ => ⟨S50000x256, .f32⟩
  | .hbm, ⟨66, _⟩ => ⟨S50000x256, .f32⟩
  | .hbm, ⟨67, _⟩ => ⟨S_, .i32⟩
  | .hbm, ⟨68, _⟩ => ⟨S800000, .i32⟩
  | .hbm, ⟨69, _⟩ => ⟨S800000, .i1⟩
  | .hbm, ⟨70, _⟩ => ⟨S_, .i32⟩
  | .hbm, ⟨71, _⟩ => ⟨S800000, .i32⟩
  | .hbm, ⟨72, _⟩ => ⟨S800000, .i32⟩
  | .hbm, ⟨73, _⟩ => ⟨S800000, .i32⟩
  | .hbm, ⟨74, _⟩ => ⟨S800000x1, .i32⟩
  | .hbm, ⟨75, _⟩ => ⟨S800000x256, .f32⟩
  | .hbm, ⟨76, _⟩ => ⟨S_, .f32⟩
  | .hbm, ⟨77, _⟩ => ⟨S50000x256, .f32⟩
  | .hbm, ⟨78, _⟩ => ⟨S800000x1, .i32⟩
  | .hbm, ⟨79, _⟩ => ⟨S50000x256, .f32⟩
  | .hbm, ⟨80, _⟩ => ⟨S50000x1, .f32⟩
  | .hbm, ⟨81, _⟩ => ⟨S50000x256, .f32⟩
  | .hbm, ⟨82, _⟩ => ⟨S50000x256, .f32⟩
  | .hbm, ⟨83, _⟩ => ⟨S50000x47, .f32⟩
  | .local _ .vmem, ⟨0, _⟩ => ⟨S1000x256, .f32⟩
  | .local _ .vmem, ⟨1, _⟩ => ⟨S1000x256, .f32⟩
  | .local _ .vmem, ⟨2, _⟩ => ⟨S1000x256, .f32⟩
  | .local _ .vmem, ⟨3, _⟩ => ⟨S1000x256, .f32⟩
  | .local _ .vmem, ⟨4, _⟩ => ⟨S256x256, .f32⟩
  | .local _ .vmem, ⟨5, _⟩ => ⟨S256, .f32⟩
  | .local _ .vmem, ⟨6, _⟩ => ⟨S256x256, .f32⟩
  | .local _ .vmem, ⟨7, _⟩ => ⟨S1000x256, .f32⟩
  | .local _ .vmem, ⟨8, _⟩ => ⟨S1000x256, .f32⟩
  | .local _ .vmem, ⟨9, _⟩ => ⟨S1000x256, .f32⟩
  | .local _ .vmem, ⟨10, _⟩ => ⟨S1000x256, .f32⟩
  | .local _ .vmem, ⟨11, _⟩ => ⟨S1000x256, .f32⟩
  | .local _ .vmem, ⟨12, _⟩ => ⟨S1000x256, .f32⟩
  | .local _ .vmem, ⟨13, _⟩ => ⟨S256x256, .f32⟩
  | .local _ .vmem, ⟨14, _⟩ => ⟨S256, .f32⟩
  | .local _ .vmem, ⟨15, _⟩ => ⟨S256x256, .f32⟩
  | .local _ .vmem, ⟨16, _⟩ => ⟨S1000x256, .f32⟩
  | .local _ .vmem, ⟨17, _⟩ => ⟨S1000x256, .f32⟩
  | .local _ .vmem, ⟨18, _⟩ => ⟨S1000x256, .f32⟩
  | .local _ .vmem, ⟨19, _⟩ => ⟨S1000x256, .f32⟩
  | .local _ .vmem, ⟨20, _⟩ => ⟨S1000x256, .f32⟩
  | .local _ .vmem, ⟨21, _⟩ => ⟨S1000x256, .f32⟩
  | .local _ .vmem, ⟨22, _⟩ => ⟨S256x47, .f32⟩
  | .local _ .vmem, ⟨23, _⟩ => ⟨S47, .f32⟩
  | .local _ .vmem, ⟨24, _⟩ => ⟨S256x47, .f32⟩
  | .local _ .vmem, ⟨25, _⟩ => ⟨S1000x47, .f32⟩
  | .local _ .vmem, ⟨26, _⟩ => ⟨S1000x47, .f32⟩
  | _, _ => ⟨S50000x256, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | _, _ => false

abbrev semScoped : Fin 0 → Bool
  | ⟨_, h⟩ => absurd h (Nat.not_lt_zero _)

abbrev dmaSemScoped : Fin 27 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | _ => false

abbrev sig : RefSig :=
  ofTc nBuf bufTy 0 27 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_v0 : Ref sig .tc := ⟨.hbm, 11, rfl⟩
abbrev main_v1 : Ref sig .tc := ⟨.hbm, 12, rfl⟩
abbrev main_v2 : Ref sig .tc := ⟨.hbm, 13, rfl⟩
abbrev main_v3 : Ref sig .tc := ⟨.hbm, 14, rfl⟩
abbrev main_cst : Ref sig .tc := ⟨.hbm, 15, rfl⟩
abbrev main_v4 : Ref sig .tc := ⟨.hbm, 16, rfl⟩
abbrev main_cst_0 : Ref sig .tc := ⟨.hbm, 17, rfl⟩
abbrev main_v5 : Ref sig .tc := ⟨.hbm, 18, rfl⟩
abbrev main_v6 : Ref sig .tc := ⟨.hbm, 19, rfl⟩
abbrev main_v7 : Ref sig .tc := ⟨.hbm, 20, rfl⟩
abbrev main_cst_1 : Ref sig .tc := ⟨.hbm, 21, rfl⟩
abbrev main_v8 : Ref sig .tc := ⟨.hbm, 22, rfl⟩
abbrev main_v9 : Ref sig .tc := ⟨.hbm, 23, rfl⟩
abbrev main_cst_2 : Ref sig .tc := ⟨.hbm, 24, rfl⟩
abbrev main_v10 : Ref sig .tc := ⟨.hbm, 25, rfl⟩
abbrev main_v11 : Ref sig .tc := ⟨.hbm, 26, rfl⟩
abbrev main_v12 : Ref sig .tc := ⟨.hbm, 27, rfl⟩
abbrev main_v13 : Ref sig .tc := ⟨.hbm, 28, rfl⟩
abbrev main_v14 : Ref sig .tc := ⟨.hbm, 29, rfl⟩
abbrev main_v15 : Ref sig .tc := ⟨.hbm, 30, rfl⟩
abbrev main_v16 : Ref sig .tc := ⟨.hbm, 31, rfl⟩
abbrev main_v17 : Ref sig .tc := ⟨.hbm, 32, rfl⟩
abbrev main_c : Ref sig .tc := ⟨.hbm, 33, rfl⟩
abbrev main_v18 : Ref sig .tc := ⟨.hbm, 34, rfl⟩
abbrev main_v19 : Ref sig .tc := ⟨.hbm, 35, rfl⟩
abbrev main_c_3 : Ref sig .tc := ⟨.hbm, 36, rfl⟩
abbrev main_v20 : Ref sig .tc := ⟨.hbm, 37, rfl⟩
abbrev main_v21 : Ref sig .tc := ⟨.hbm, 38, rfl⟩
abbrev main_v22 : Ref sig .tc := ⟨.hbm, 39, rfl⟩
abbrev main_v23 : Ref sig .tc := ⟨.hbm, 40, rfl⟩
abbrev main_v24 : Ref sig .tc := ⟨.hbm, 41, rfl⟩
abbrev main_cst_4 : Ref sig .tc := ⟨.hbm, 42, rfl⟩
abbrev main_v25 : Ref sig .tc := ⟨.hbm, 43, rfl⟩
abbrev main_v26 : Ref sig .tc := ⟨.hbm, 44, rfl⟩
abbrev main_v27 : Ref sig .tc := ⟨.hbm, 45, rfl⟩
abbrev main_v28 : Ref sig .tc := ⟨.hbm, 46, rfl⟩
abbrev main_v29 : Ref sig .tc := ⟨.hbm, 47, rfl⟩
abbrev main_v30 : Ref sig .tc := ⟨.hbm, 48, rfl⟩
abbrev main_v31 : Ref sig .tc := ⟨.hbm, 49, rfl⟩
abbrev main_c_5 : Ref sig .tc := ⟨.hbm, 50, rfl⟩
abbrev main_v32 : Ref sig .tc := ⟨.hbm, 51, rfl⟩
abbrev main_v33 : Ref sig .tc := ⟨.hbm, 52, rfl⟩
abbrev main_c_6 : Ref sig .tc := ⟨.hbm, 53, rfl⟩
abbrev main_v34 : Ref sig .tc := ⟨.hbm, 54, rfl⟩
abbrev main_v35 : Ref sig .tc := ⟨.hbm, 55, rfl⟩
abbrev main_v36 : Ref sig .tc := ⟨.hbm, 56, rfl⟩
abbrev main_v37 : Ref sig .tc := ⟨.hbm, 57, rfl⟩
abbrev main_v38 : Ref sig .tc := ⟨.hbm, 58, rfl⟩
abbrev main_cst_7 : Ref sig .tc := ⟨.hbm, 59, rfl⟩
abbrev main_v39 : Ref sig .tc := ⟨.hbm, 60, rfl⟩
abbrev main_v40 : Ref sig .tc := ⟨.hbm, 61, rfl⟩
abbrev main_v41 : Ref sig .tc := ⟨.hbm, 62, rfl⟩
abbrev main_v42 : Ref sig .tc := ⟨.hbm, 63, rfl⟩
abbrev main_v43 : Ref sig .tc := ⟨.hbm, 64, rfl⟩
abbrev main_v44 : Ref sig .tc := ⟨.hbm, 65, rfl⟩
abbrev main_v45 : Ref sig .tc := ⟨.hbm, 66, rfl⟩
abbrev main_c_8 : Ref sig .tc := ⟨.hbm, 67, rfl⟩
abbrev main_v46 : Ref sig .tc := ⟨.hbm, 68, rfl⟩
abbrev main_v47 : Ref sig .tc := ⟨.hbm, 69, rfl⟩
abbrev main_c_9 : Ref sig .tc := ⟨.hbm, 70, rfl⟩
abbrev main_v48 : Ref sig .tc := ⟨.hbm, 71, rfl⟩
abbrev main_v49 : Ref sig .tc := ⟨.hbm, 72, rfl⟩
abbrev main_v50 : Ref sig .tc := ⟨.hbm, 73, rfl⟩
abbrev main_v51 : Ref sig .tc := ⟨.hbm, 74, rfl⟩
abbrev main_v52 : Ref sig .tc := ⟨.hbm, 75, rfl⟩
abbrev main_cst_10 : Ref sig .tc := ⟨.hbm, 76, rfl⟩
abbrev main_v53 : Ref sig .tc := ⟨.hbm, 77, rfl⟩
abbrev main_v54 : Ref sig .tc := ⟨.hbm, 78, rfl⟩
abbrev main_v55 : Ref sig .tc := ⟨.hbm, 79, rfl⟩
abbrev main_v56 : Ref sig .tc := ⟨.hbm, 80, rfl⟩
abbrev main_v57 : Ref sig .tc := ⟨.hbm, 81, rfl⟩
abbrev main_v58 : Ref sig .tc := ⟨.hbm, 82, rfl⟩
abbrev main_v59 : Ref sig .tc := ⟨.hbm, 83, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg5_0 : Ref sig .tc := ⟨.vmem, 7, rfl⟩
abbrev cc0_stg5_1 : Ref sig .tc := ⟨.vmem, 8, rfl⟩
abbrev cc1_stg0_0 : Ref sig .tc := ⟨.vmem, 9, rfl⟩
abbrev cc1_stg0_1 : Ref sig .tc := ⟨.vmem, 10, rfl⟩
abbrev cc1_stg1_0 : Ref sig .tc := ⟨.vmem, 11, rfl⟩
abbrev cc1_stg1_1 : Ref sig .tc := ⟨.vmem, 12, rfl⟩
abbrev cc1_stg2_0 : Ref sig .tc := ⟨.vmem, 13, rfl⟩
abbrev cc1_stg3_0 : Ref sig .tc := ⟨.vmem, 14, rfl⟩
abbrev cc1_stg4_0 : Ref sig .tc := ⟨.vmem, 15, rfl⟩
abbrev cc1_stg5_0 : Ref sig .tc := ⟨.vmem, 16, rfl⟩
abbrev cc1_stg5_1 : Ref sig .tc := ⟨.vmem, 17, rfl⟩
abbrev cc2_stg0_0 : Ref sig .tc := ⟨.vmem, 18, rfl⟩
abbrev cc2_stg0_1 : Ref sig .tc := ⟨.vmem, 19, rfl⟩
abbrev cc2_stg1_0 : Ref sig .tc := ⟨.vmem, 20, rfl⟩
abbrev cc2_stg1_1 : Ref sig .tc := ⟨.vmem, 21, rfl⟩
abbrev cc2_stg2_0 : Ref sig .tc := ⟨.vmem, 22, rfl⟩
abbrev cc2_stg3_0 : Ref sig .tc := ⟨.vmem, 23, rfl⟩
abbrev cc2_stg4_0 : Ref sig .tc := ⟨.vmem, 24, rfl⟩
abbrev cc2_stg5_0 : Ref sig .tc := ⟨.vmem, 25, rfl⟩
abbrev cc2_stg5_1 : Ref sig .tc := ⟨.vmem, 26, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem5_0 : DmaSem sig := 7
abbrev cc0_sem5_1 : DmaSem sig := 8
abbrev cc1_sem0_0 : DmaSem sig := 9
abbrev cc1_sem0_1 : DmaSem sig := 10
abbrev cc1_sem1_0 : DmaSem sig := 11
abbrev cc1_sem1_1 : DmaSem sig := 12
abbrev cc1_sem2_0 : DmaSem sig := 13
abbrev cc1_sem3_0 : DmaSem sig := 14
abbrev cc1_sem4_0 : DmaSem sig := 15
abbrev cc1_sem5_0 : DmaSem sig := 16
abbrev cc1_sem5_1 : DmaSem sig := 17
abbrev cc2_sem0_0 : DmaSem sig := 18
abbrev cc2_sem0_1 : DmaSem sig := 19
abbrev cc2_sem1_0 : DmaSem sig := 20
abbrev cc2_sem1_1 : DmaSem sig := 21
abbrev cc2_sem2_0 : DmaSem sig := 22
abbrev cc2_sem3_0 : DmaSem sig := 23
abbrev cc2_sem4_0 : DmaSem sig := 24
abbrev cc2_sem5_0 : DmaSem sig := 25
abbrev cc2_sem5_1 : DmaSem sig := 26

abbrev nD : Nat := 1
abbrev τ : Topo := Topo.v7x

variable {F : FTy → Type} [FloatOps F]

abbrev grid0 : Pipeline.Grid := ⟨1, ![50], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S1000x256 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S1000x256 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S256x256 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S256 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S256x256 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 2 → Memref sig .tc .vmem S1000x256 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev grid1 : Pipeline.Grid := ⟨1, ![50], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_2 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_3 (i : grid1.Coords) : Fin 1 → Nat :=
  let arg0 : BitVec 32 := BitVec.ofNat 32 (i 0).val
  let c0_i32 : BitVec 32 := 0#32
  let c0_i32_0 : BitVec 32 := 0#32
  ![c0_i32.toNat]

def cc1_transform_4 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_5 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S1000x256 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 2 → Memref sig .tc .vmem S1000x256 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true]

abbrev stage1_2 : Fin 1 → Memref sig .tc .vmem S256x256 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false]

abbrev stage1_3 : Fin 1 → Memref sig .tc .vmem S256 .f32 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))
abbrev reads1_3 : Fin grid1.rank → Bool := ![false]

abbrev stage1_4 : Fin 1 → Memref sig .tc .vmem S256x256 .f32 := fun | 0 => Memref.whole cc1_stg4_0 | ⟨_ + 1, h⟩ => absurd h (Nat.not_lt.2 (Nat.le_add_left _ _))
abbrev sem1_4 : Fin 1 → DmaSem sig := fun | 0 => cc1_sem4_0 | ⟨_ + 1, h⟩ => absurd h (Nat.not_lt.2 (Nat.le_add_left _ _))
abbrev reads1_4 : Fin grid1.rank → Bool := ![false]

abbrev stage1_5 : Fin 2 → Memref sig .tc .vmem S1000x256 .f32 := fun | 0 => Memref.whole cc1_stg5_0 | 1 => Memref.whole cc1_stg5_1 | ⟨_ + 2, h⟩ => absurd h (Nat.not_lt.2 (Nat.le_add_left _ _))
abbrev sem1_5 : Fin 2 → DmaSem sig := fun | 0 => cc1_sem5_0 | 1 => cc1_sem5_1 | ⟨_ + 2, h⟩ => absurd h (Nat.not_lt.2 (Nat.le_add_left _ _))
abbrev reads1_5 : Fin grid1.rank → Bool := ![true]

abbrev grid2 : Pipeline.Grid := ⟨1, ![50], ![false]⟩

def cc2_transform_0 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_1 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_2 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_3 (i : grid2.Coords) : Fin 1 → Nat :=
  let arg0 : BitVec 32 := BitVec.ofNat 32 (i 0).val
  let c0_i32 : BitVec 32 := 0#32
  let c0_i32_0 : BitVec 32 := 0#32
  ![c0_i32.toNat]

def cc2_transform_4 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_5 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage2_0 : Fin 2 → Memref sig .tc .vmem S1000x256 .f32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true]

abbrev stage2_1 : Fin 2 → Memref sig .tc .vmem S1000x256 .f32 := fun | 0 => Memref.whole cc2_stg1_0 | 1 => Memref.whole cc2_stg1_1 | ⟨_ + 2, h⟩ => absurd h (Nat.not_lt.2 (Nat.le_add_left _ _))
abbrev sem2_1 : Fin 2 → DmaSem sig := fun | 0 => cc2_sem1_0 | 1 => cc2_sem1_1 | ⟨_ + 2, h⟩ => absurd h (Nat.not_lt.2 (Nat.le_add_left _ _))
abbrev reads2_1 : Fin grid2.rank → Bool := ![true]

abbrev stage2_2 : Fin 1 → Memref sig .tc .vmem S256x47 .f32 := fun | 0 => Memref.whole cc2_stg2_0 | ⟨_ + 1, h⟩ => absurd h (Nat.not_lt.2 (Nat.le_add_left _ _))
abbrev sem2_2 : Fin 1 → DmaSem sig := fun | 0 => cc2_sem2_0 | ⟨_ + 1, h⟩ => absurd h (Nat.not_lt.2 (Nat.le_add_left _ _))
abbrev reads2_2 : Fin grid2.rank → Bool := ![false]

abbrev stage2_3 : Fin 1 → Memref sig .tc .vmem S47 .f32 := fun | 0 => Memref.whole cc2_stg3_0 | ⟨_ + 1, h⟩ => absurd h (Nat.not_lt.2 (Nat.le_add_left _ _))
abbrev sem2_3 : Fin 1 → DmaSem sig := fun | 0 => cc2_sem3_0 | ⟨_ + 1, h⟩ => absurd h (Nat.not_lt.2 (Nat.le_add_left _ _))
abbrev reads2_3 : Fin grid2.rank → Bool := ![false]

abbrev stage2_4 : Fin 1 → Memref sig .tc .vmem S256x47 .f32 := fun | 0 => Memref.whole cc2_stg4_0 | ⟨_ + 1, h⟩ => absurd h (Nat.not_lt.2 (Nat.le_add_left _ _))
abbrev sem2_4 : Fin 1 → DmaSem sig := fun | 0 => cc2_sem4_0 | ⟨_ + 1, h⟩ => absurd h (Nat.not_lt.2 (Nat.le_add_left _ _))
abbrev reads2_4 : Fin grid2.rank → Bool := ![false]

abbrev stage2_5 : Fin 2 → Memref sig .tc .vmem S1000x47 .f32 := fun | 0 => Memref.whole cc2_stg5_0 | 1 => Memref.whole cc2_stg5_1 | ⟨_ + 2, h⟩ => absurd h (Nat.not_lt.2 (Nat.le_add_left _ _))
abbrev sem2_5 : Fin 2 → DmaSem sig := fun | 0 => cc2_sem5_0 | 1 => cc2_sem5_1 | ⟨_ + 2, h⟩ => absurd h (Nat.not_lt.2 (Nat.le_add_left _ _))
abbrev reads2_5 : Fin grid2.rank → Bool := ![true]

class Facts₀ : Prop where
  slices_S2x800000_S1x800000_0_0 : S2x800000.Slices ![0, 0] S1x800000
  shapeCasts_S1x800000_S800000 : S1x800000.ShapeCasts S800000
  slices_S2x800000_S1x800000_1_0 : S2x800000.Slices ![1, 0] S1x800000
  bcast_S_S800000 : S_.BroadcastsInDim S800000 (![] : Fin 0 → Fin S800000.rank)
  bcast_S_S50000 : S_.BroadcastsInDim S50000 (![] : Fin 0 → Fin S50000.rank)
  bcast_S800000_S800000x1_0 : S800000.BroadcastsInDim S800000x1 (![0] : Fin 1 → Fin S800000x1.rank)
  transposes_S256x256_S256x256_1_0 : S256x256.Transposes [1, 0] S256x256
  transposes_S47x256_S256x47_1_0 : S47x256.Transposes [1, 0] S256x47
  bcast_S_S50000x256 : S_.BroadcastsInDim S50000x256 (![] : Fin 0 → Fin S50000x256.rank)
  bcast_S50000_S50000x1_0 : S50000.BroadcastsInDim S50000x1 (![0] : Fin 1 → Fin S50000x1.rank)
  bcast_S50000x1_S50000x256_0_1 : S50000x1.BroadcastsInDim S50000x256 (![0, 1] : Fin 2 → Fin S50000x256.rank)
  inb_S1000x256_S1000x256_0_0 : ∀ a, (![0, 0] : Fin 2 → Nat) a + S1000x256.size a ≤ S1000x256.size a
  h_S1000x256 : 0 < S1000x256.numel
  shapeCasts_S1000x256_S1000x256 : S1000x256.ShapeCasts S1000x256
  bitsLt_bf16_f32 : FTy.bits .bf16 < FTy.bits .f32
  inb_S256x256_S256x256_0_0 : ∀ a, (![0, 0] : Fin 2 → Nat) a + S256x256.size a ≤ S256x256.size a
  h_S256x256 : 0 < S256x256.numel
  shapeCasts_S256x256_S256x256 : S256x256.ShapeCasts S256x256
  inb_S256_S256_0 : ∀ a, (![0] : Fin 1 → Nat) a + S256.size a ≤ S256.size a
  h_S256 : 0 < S256.numel
  shapeCasts_S256_S1x256 : S256.ShapeCasts S1x256
  broadcasts_S1x256_S1000x256 : S1x256.Broadcasts S1000x256
  inb_S256x47_S256x47_0_0 : ∀ a, (![0, 0] : Fin 2 → Nat) a + S256x47.size a ≤ S256x47.size a
  h_S256x47 : 0 < S256x47.numel
  shapeCasts_S256x47_S256x47 : S256x47.ShapeCasts S256x47
  inb_S47_S47_0 : ∀ a, (![0] : Fin 1 → Nat) a + S47.size a ≤ S47.size a
  h_S47 : 0 < S47.numel
  shapeCasts_S47_S1x47 : S47.ShapeCasts S1x47
  broadcasts_S1x47_S1000x47 : S1x47.Broadcasts S1000x47
  reduces_S1000x47_S1000 : S1000x47.Reduces [1] S1000
  shapeCasts_S1000_S1000x1 : S1000.ShapeCasts S1000x1
  broadcasts_S1000x1_S1000x47 : S1000x1.Broadcasts S1000x47
  inb_S1000x47_S1000x47_0_0 : ∀ a, (![0, 0] : Fin 2 → Nat) a + S1000x47.size a ≤ S1000x47.size a
  h_S1000x47 : 0 < S1000x47.numel
  scatter_S50000_S800000x1_S800000_n_0_0_1_wf : ScatterDims.WF S50000 S800000x1 S800000 [] [0] [0] 1
  gather_S50000x256_S800000x1_S800000x256_1_0_n_n_0_1_1256_wf : GatherDims.WF S50000x256 S800000x1 S800000x256 [1] [0] [] [0] [] 1 ![1, 256]
  scatter_S50000x256_S800000x1_S800000x256_1_0_0_1_wf : ScatterDims.WF S50000x256 S800000x1 S800000x256 [1] [0] [0] 1
  dot_S1000x256_S256x256_S1000x256_1_0_0_1_n_n_wf : DotDims.WF S1000x256 S256x256 S1000x256 [1] [0] [0] [1] [] []
  dot_S1000x256_S256x47_S1000x47_1_0_0_1_n_n_wf : DotDims.WF S1000x256 S256x47 S1000x47 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1000x256.size a ≤ S50000x256.size a
  hwx0_0 : ∀ i : grid0.Coords, EltTy.bits .f32 = 32 ∨ (Rect.block (s := S50000x256) S1000x256.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S1000x256.size a ≤ S50000x256.size a
  hwx0_1 : ∀ i : grid0.Coords, EltTy.bits .f32 = 32 ∨ (Rect.block (s := S50000x256) S1000x256.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S256x256.size a ≤ S256x256.size a
  hwx0_2 : ∀ i : grid0.Coords, EltTy.bits .f32 = 32 ∨ (Rect.block (s := S256x256) S256x256.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S256.size a ≤ S256.size a
  hwx0_3 : ∀ i : grid0.Coords, EltTy.bits .f32 = 32 ∨ (Rect.block (s := S256) S256.size (cc0_transform_3 i) (hinb0_3 i)).WholeWords (EltTy.packing .f32)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S256x256.size a ≤ S256x256.size a
  hwx0_4 : ∀ i : grid0.Coords, EltTy.bits .f32 = 32 ∨ (Rect.block (s := S256x256) S256x256.size (cc0_transform_4 i) (hinb0_4 i)).WholeWords (EltTy.packing .f32)
  hstage0_5 : ∀ j, (stage0_5 j).IsWhole
  nbuf0_5 : grid0.bufCount reads0_5 false = 2
  hreads0_5 : ∀ i i' : grid0.Coords, (∀ a, reads0_5 a = true → i a = i' a) → cc0_transform_5 i = cc0_transform_5 i'
  hinb0_5 : ∀ (i : grid0.Coords) a, (cc0_transform_5 i a + 1) * S1000x256.size a ≤ S50000x256.size a
  hwx0_5 : ∀ i : grid0.Coords, EltTy.bits .f32 = 32 ∨ (Rect.block (s := S50000x256) S1000x256.size (cc0_transform_5 i) (hinb0_5 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S1000x256.size a ≤ S50000x256.size a
  hwx1_0 : ∀ i : grid1.Coords, EltTy.bits .f32 = 32 ∨ (Rect.block (s := S50000x256) S1000x256.size (cc1_transform_0 i) (hinb1_0 i)).WholeWords (EltTy.packing .f32)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S1000x256.size a ≤ S50000x256.size a
  hwx1_1 : ∀ i : grid1.Coords, EltTy.bits .f32 = 32 ∨ (Rect.block (s := S50000x256) S1000x256.size (cc1_transform_1 i) (hinb1_1 i)).WholeWords (EltTy.packing .f32)
  hstage1_2 : ∀ j, (stage1_2 j).IsWhole
  nbuf1_2 : grid1.bufCount reads1_2 true = 1
  hreads1_2 : ∀ i i' : grid1.Coords, (∀ a, reads1_2 a = true → i a = i' a) → cc1_transform_2 i = cc1_transform_2 i'
  hinb1_2 : ∀ (i : grid1.Coords) a, (cc1_transform_2 i a + 1) * S256x256.size a ≤ S256x256.size a
  hwx1_2 : ∀ i : grid1.Coords, EltTy.bits .f32 = 32 ∨ (Rect.block (s := S256x256) S256x256.size (cc1_transform_2 i) (hinb1_2 i)).WholeWords (EltTy.packing .f32)
  hstage1_3 : ∀ j, (stage1_3 j).IsWhole
  nbuf1_3 : grid1.bufCount reads1_3 true = 1
  hreads1_3 : ∀ i i' : grid1.Coords, (∀ a, reads1_3 a = true → i a = i' a) → cc1_transform_3 i = cc1_transform_3 i'
  hinb1_3 : ∀ (i : grid1.Coords) a, (cc1_transform_3 i a + 1) * S256.size a ≤ S256.size a
  hwx1_3 : ∀ i : grid1.Coords, EltTy.bits .f32 = 32 ∨ (Rect.block (s := S256) S256.size (cc1_transform_3 i) (hinb1_3 i)).WholeWords (EltTy.packing .f32)
  hstage1_4 : ∀ j, (stage1_4 j).IsWhole
  nbuf1_4 : grid1.bufCount reads1_4 true = 1
  hreads1_4 : ∀ i i' : grid1.Coords, (∀ a, reads1_4 a = true → i a = i' a) → cc1_transform_4 i = cc1_transform_4 i'
  hinb1_4 : ∀ (i : grid1.Coords) a, (cc1_transform_4 i a + 1) * S256x256.size a ≤ S256x256.size a
  hwx1_4 : ∀ i : grid1.Coords, EltTy.bits .f32 = 32 ∨ (Rect.block (s := S256x256) S256x256.size (cc1_transform_4 i) (hinb1_4 i)).WholeWords (EltTy.packing .f32)
  hstage1_5 : ∀ j, (stage1_5 j).IsWhole
  nbuf1_5 : grid1.bufCount reads1_5 false = 2
  hreads1_5 : ∀ i i' : grid1.Coords, (∀ a, reads1_5 a = true → i a = i' a) → cc1_transform_5 i = cc1_transform_5 i'
  hinb1_5 : ∀ (i : grid1.Coords) a, (cc1_transform_5 i a + 1) * S1000x256.size a ≤ S50000x256.size a
  hwx1_5 : ∀ i : grid1.Coords, EltTy.bits .f32 = 32 ∨ (Rect.block (s := S50000x256) S1000x256.size (cc1_transform_5 i) (hinb1_5 i)).WholeWords (EltTy.packing .f32)
  hrank2 : 0 < grid2.rank
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S1000x256.size a ≤ S50000x256.size a
  hwx2_0 : ∀ i : grid2.Coords, EltTy.bits .f32 = 32 ∨ (Rect.block (s := S50000x256) S1000x256.size (cc2_transform_0 i) (hinb2_0 i)).WholeWords (EltTy.packing .f32)
  hstage2_1 : ∀ j, (stage2_1 j).IsWhole
  nbuf2_1 : grid2.bufCount reads2_1 false = 2
  hreads2_1 : ∀ i i' : grid2.Coords, (∀ a, reads2_1 a = true → i a = i' a) → cc2_transform_1 i = cc2_transform_1 i'
  hinb2_1 : ∀ (i : grid2.Coords) a, (cc2_transform_1 i a + 1) * S1000x256.size a ≤ S50000x256.size a
  hwx2_1 : ∀ i : grid2.Coords, EltTy.bits .f32 = 32 ∨ (Rect.block (s := S50000x256) S1000x256.size (cc2_transform_1 i) (hinb2_1 i)).WholeWords (EltTy.packing .f32)
  hstage2_2 : ∀ j, (stage2_2 j).IsWhole
  nbuf2_2 : grid2.bufCount reads2_2 true = 1
  hreads2_2 : ∀ i i' : grid2.Coords, (∀ a, reads2_2 a = true → i a = i' a) → cc2_transform_2 i = cc2_transform_2 i'
  hinb2_2 : ∀ (i : grid2.Coords) a, (cc2_transform_2 i a + 1) * S256x47.size a ≤ S256x47.size a
  hwx2_2 : ∀ i : grid2.Coords, EltTy.bits .f32 = 32 ∨ (Rect.block (s := S256x47) S256x47.size (cc2_transform_2 i) (hinb2_2 i)).WholeWords (EltTy.packing .f32)
  hstage2_3 : ∀ j, (stage2_3 j).IsWhole
  nbuf2_3 : grid2.bufCount reads2_3 true = 1
  hreads2_3 : ∀ i i' : grid2.Coords, (∀ a, reads2_3 a = true → i a = i' a) → cc2_transform_3 i = cc2_transform_3 i'
  hinb2_3 : ∀ (i : grid2.Coords) a, (cc2_transform_3 i a + 1) * S47.size a ≤ S47.size a
  hwx2_3 : ∀ i : grid2.Coords, EltTy.bits .f32 = 32 ∨ (Rect.block (s := S47) S47.size (cc2_transform_3 i) (hinb2_3 i)).WholeWords (EltTy.packing .f32)
  hstage2_4 : ∀ j, (stage2_4 j).IsWhole
  nbuf2_4 : grid2.bufCount reads2_4 true = 1
  hreads2_4 : ∀ i i' : grid2.Coords, (∀ a, reads2_4 a = true → i a = i' a) → cc2_transform_4 i = cc2_transform_4 i'
  hinb2_4 : ∀ (i : grid2.Coords) a, (cc2_transform_4 i a + 1) * S256x47.size a ≤ S256x47.size a
  hwx2_4 : ∀ i : grid2.Coords, EltTy.bits .f32 = 32 ∨ (Rect.block (s := S256x47) S256x47.size (cc2_transform_4 i) (hinb2_4 i)).WholeWords (EltTy.packing .f32)
  hstage2_5 : ∀ j, (stage2_5 j).IsWhole
  nbuf2_5 : grid2.bufCount reads2_5 false = 2
  hreads2_5 : ∀ i i' : grid2.Coords, (∀ a, reads2_5 a = true → i a = i' a) → cc2_transform_5 i = cc2_transform_5 i'
  hinb2_5 : ∀ (i : grid2.Coords) a, (cc2_transform_5 i a + 1) * S1000x47.size a ≤ S50000x47.size a
  hwx2_5 : ∀ i : grid2.Coords, EltTy.bits .f32 = 32 ∨ (Rect.block (s := S50000x47) S1000x47.size (cc2_transform_5 i) (hinb2_5 i)).WholeWords (EltTy.packing .f32)

variable [Facts₀]

def scatter_S50000_S800000x1_S800000_n_0_0_1 : ScatterDims S50000 S800000x1 S800000 where
  updateWindowDims := []
  insertedWindowDims := [0]
  scatterDimsToOperandDims := [0]
  indexVectorDim := 1
  wf := scatter_S50000_S800000x1_S800000_n_0_0_1_wf
def gather_S50000x256_S800000x1_S800000x256_1_0_n_n_0_1_1256 : GatherDims S50000x256 S800000x1 S800000x256 where
  offsetDims := [1]
  collapsedSliceDims := [0]
  operandBatchingDims := []
  startIndicesBatchingDims := []
  startIndexMap := [0]
  indexVectorDim := 1
  sliceSizes := ![1, 256]
  wf := gather_S50000x256_S800000x1_S800000x256_1_0_n_n_0_1_1256_wf
def scatter_S50000x256_S800000x1_S800000x256_1_0_0_1 : ScatterDims S50000x256 S800000x1 S800000x256 where
  updateWindowDims := [1]
  insertedWindowDims := [0]
  scatterDimsToOperandDims := [0]
  indexVectorDim := 1
  wf := scatter_S50000x256_S800000x1_S800000x256_1_0_0_1_wf
def dot_S1000x256_S256x256_S1000x256_1_0_0_1_n_n : DotDims S1000x256 S256x256 S1000x256 where
  lhsContracting := [1]
  rhsContracting := [0]
  lhsNonContracting := [0]
  rhsNonContracting := [1]
  lhsBatch := []
  rhsBatch := []
  wf := dot_S1000x256_S256x256_S1000x256_1_0_0_1_n_n_wf
def dot_S1000x256_S256x47_S1000x47_1_0_0_1_n_n : DotDims S1000x256 S256x47 S1000x47 where
  lhsContracting := [1]
  rhsContracting := [0]
  lhsNonContracting := [0]
  rhsNonContracting := [1]
  lhsBatch := []
  rhsBatch := []
  wf := dot_S1000x256_S256x47_S1000x47_1_0_0_1_n_n_wf

abbrev win0_0 : Pipeline.Window sig grid0 :=
  Pipeline.Window.ofSpec (Memref.whole main_v30) S1000x256.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg0) S1000x256.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v12) S256x256.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_arg3) S256.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_v13) S256x256.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_v31) S1000x256.size cc0_transform_5 reads0_5 true false 2 stage0_5 sem0_5
    hrank0 hreads0_5 hinb0_5 nbuf0_5 (Memref.isWhole_whole _) hwx0_5 hstage0_5

abbrev win0 : Fin 6 → Pipeline.Window sig grid0 := fun | 0 => win0_0 | 1 => win0_1 | 2 => win0_2 | 3 => win0_3 | 4 => win0_4 | 5 => win0_5 | ⟨_ + 6, h⟩ => absurd h (Nat.not_lt.2 (Nat.le_add_left _ _))
abbrev spec0 : Fin 6 → Pipeline.WinSpec sig grid0.rank := fun w => (win0 w).toWinSpec

abbrev win1_0 : Pipeline.Window sig grid1 :=
  Pipeline.Window.ofSpec (Memref.whole main_v44) S1000x256.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v31) S1000x256.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_v14) S256x256.size cc1_transform_2 reads1_2 false true 1 stage1_2 sem1_2
    hrank1 hreads1_2 hinb1_2 nbuf1_2 (Memref.isWhole_whole _) hwx1_2 hstage1_2

abbrev win1_3 : Pipeline.Window sig grid1 :=
  Pipeline.Window.ofSpec (Memref.whole main_arg6) S256.size cc1_transform_3 reads1_3 false true 1 stage1_3 sem1_3
    hrank1 hreads1_3 hinb1_3 nbuf1_3 (Memref.isWhole_whole _) hwx1_3 hstage1_3

abbrev win1_4 : Pipeline.Window sig grid1 :=
  Pipeline.Window.ofSpec (Memref.whole main_v15) S256x256.size cc1_transform_4 reads1_4 false true 1 stage1_4 sem1_4
    hrank1 hreads1_4 hinb1_4 nbuf1_4 (Memref.isWhole_whole _) hwx1_4 hstage1_4

abbrev win1_5 : Pipeline.Window sig grid1 :=
  Pipeline.Window.ofSpec (Memref.whole main_v45) S1000x256.size cc1_transform_5 reads1_5 true false 2 stage1_5 sem1_5
    hrank1 hreads1_5 hinb1_5 nbuf1_5 (Memref.isWhole_whole _) hwx1_5 hstage1_5

abbrev win1 : Fin 6 → Pipeline.Window sig grid1 := fun | 0 => win1_0 | 1 => win1_1 | 2 => win1_2 | 3 => win1_3 | 4 => win1_4 | 5 => win1_5 | ⟨_ + 6, h⟩ => absurd h (Nat.not_lt.2 (Nat.le_add_left _ _))
abbrev spec1 : Fin 6 → Pipeline.WinSpec sig grid1.rank := fun w => (win1 w).toWinSpec

abbrev win2_0 : Pipeline.Window sig grid2 :=
  Pipeline.Window.ofSpec (Memref.whole main_v58) S1000x256.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_v45) S1000x256.size cc2_transform_1 reads2_1 false false 2 stage2_1 sem2_1
    hrank2 hreads2_1 hinb2_1 nbuf2_1 (Memref.isWhole_whole _) hwx2_1 hstage2_1

abbrev win2_2 : Pipeline.Window sig grid2 :=
  Pipeline.Window.ofSpec (Memref.whole main_v16) S256x47.size cc2_transform_2 reads2_2 false true 1 stage2_2 sem2_2
    hrank2 hreads2_2 hinb2_2 nbuf2_2 (Memref.isWhole_whole _) hwx2_2 hstage2_2

abbrev win2_3 : Pipeline.Window sig grid2 :=
  Pipeline.Window.ofSpec (Memref.whole main_arg9) S47.size cc2_transform_3 reads2_3 false true 1 stage2_3 sem2_3
    hrank2 hreads2_3 hinb2_3 nbuf2_3 (Memref.isWhole_whole _) hwx2_3 hstage2_3

abbrev win2_4 : Pipeline.Window sig grid2 :=
  Pipeline.Window.ofSpec (Memref.whole main_v17) S256x47.size cc2_transform_4 reads2_4 false true 1 stage2_4 sem2_4
    hrank2 hreads2_4 hinb2_4 nbuf2_4 (Memref.isWhole_whole _) hwx2_4 hstage2_4

abbrev win2_5 : Pipeline.Window sig grid2 :=
  Pipeline.Window.ofSpec (Memref.whole main_v59) S1000x47.size cc2_transform_5 reads2_5 true false 2 stage2_5 sem2_5
    hrank2 hreads2_5 hinb2_5 nbuf2_5 (Memref.isWhole_whole _) hwx2_5 hstage2_5

abbrev win2 : Fin 6 → Pipeline.Window sig grid2 := fun | 0 => win2_0 | 1 => win2_1 | 2 => win2_2 | 3 => win2_3 | 4 => win2_4 | 5 => win2_5 | ⟨_ + 6, h⟩ => absurd h (Nat.not_lt.2 (Nat.le_add_left _ _))
abbrev spec2 : Fin 6 → Pipeline.WinSpec sig grid2.rank := fun w => (win2 w).toWinSpec

class Facts : Prop extends Facts₀ where

variable [Facts]
-- ==== ReferenceIdeal.lean ====
abbrev S50000x256 : Shape := ⟨2, ![50000, 256]⟩
abbrev S2x800000 : Shape := ⟨2, ![2, 800000]⟩
abbrev S256x256 : Shape := ⟨2, ![256, 256]⟩
abbrev S256 : Shape := ⟨1, ![256]⟩
abbrev S47x256 : Shape := ⟨2, ![47, 256]⟩
abbrev S47 : Shape := ⟨1, ![47]⟩
abbrev S1x800000 : Shape := ⟨2, ![1, 800000]⟩
abbrev S800000 : Shape := ⟨1, ![800000]⟩
abbrev S_ : Shape := ⟨0, ![]⟩
abbrev S800000x1 : Shape := ⟨2, ![800000, 1]⟩
abbrev S800000x256 : Shape := ⟨2, ![800000, 256]⟩
abbrev S50000 : Shape := ⟨1, ![50000]⟩
abbrev S50000x1 : Shape := ⟨2, ![50000, 1]⟩
abbrev S1x256 : Shape := ⟨2, ![1, 256]⟩
abbrev S256x47 : Shape := ⟨2, ![256, 47]⟩
abbrev S50000x47 : Shape := ⟨2, ![50000, 47]⟩
abbrev S1x47 : Shape := ⟨2, ![1, 47]⟩

abbrev nBuf : Space → Nat
  | .hbm => 135
  | .vmem => 0
  | .smem => 0
  | _ => 0

abbrev hbmTy0_0 (i : Nat) : BufTy := match i % 128 with
  | 0 => ⟨S50000x256, .f32⟩
  | 1 => ⟨S2x800000, .i32⟩
  | 2 => ⟨S256x256, .f32⟩
  | 3 => ⟨S256, .f32⟩
  | 4 => ⟨S256x256, .f32⟩
  | 5 => ⟨S256x256, .f32⟩
  | 6 => ⟨S256, .f32⟩
  | 7 => ⟨S256x256, .f32⟩
  | 8 => ⟨S47x256, .f32⟩
  | 9 => ⟨S47, .f32⟩
  | 10 => ⟨S47x256, .f32⟩
  | 11 => ⟨S1x800000, .i32⟩
  | 12 => ⟨S800000, .i32⟩
  | 13 => ⟨S1x800000, .i32⟩
  | 14 => ⟨S800000, .i32⟩
  | 15 => ⟨S_, .i32⟩
  | 16 => ⟨S800000, .i32⟩
  | 17 => ⟨S800000, .i1⟩
  | 18 => ⟨S_, .i32⟩
  | 19 => ⟨S800000, .i32⟩
  | 20 => ⟨S800000, .i32⟩
  | 21 => ⟨S800000, .i32⟩
  | 22 => ⟨S800000x1, .i32⟩
  | 23 => ⟨S800000x256, .f32⟩
  | 24 => ⟨S_, .f32⟩
  | 25 => ⟨S50000x256, .f32⟩
  | 26 => ⟨S800000x1, .i32⟩
  | 27 => ⟨S50000x256, .f32⟩
  | 28 => ⟨S_, .f32⟩
  | 29 => ⟨S800000, .f32⟩
  | 30 => ⟨S_, .f32⟩
  | 31 => ⟨S50000, .f32⟩
  | 32 => ⟨S800000x1, .i32⟩
  | 33 => ⟨S50000, .f32⟩
  | 34 => ⟨S_, .f32⟩
  | 35 => ⟨S50000, .f32⟩
  | 36 => ⟨S50000, .f32⟩
  | 37 => ⟨S50000x1, .f32⟩
  | 38 => ⟨S50000x256, .f32⟩
  | 39 => ⟨S50000x256, .f32⟩
  | 40 => ⟨S256x256, .f32⟩
  | 41 => ⟨S50000x256, .f32⟩
  | 42 => ⟨S1x256, .f32⟩
  | 43 => ⟨S50000x256, .f32⟩
  | 44 => ⟨S50000x256, .f32⟩
  | 45 => ⟨S256x256, .f32⟩
  | 46 => ⟨S50000x256, .f32⟩
  | 47 => ⟨S50000x256, .f32⟩
  | 48 => ⟨S_, .f32⟩
  | 49 => ⟨S50000x256, .f32⟩
  | 50 => ⟨S50000x256, .f32⟩
  | 51 => ⟨S_, .i32⟩
  | 52 => ⟨S800000, .i32⟩
  | 53 => ⟨S800000, .i1⟩
  | 54 => ⟨S_, .i32⟩
  | 55 => ⟨S800000, .i32⟩
  | 56 => ⟨S800000, .i32⟩
  | 57 => ⟨S800000, .i32⟩
  | 58 => ⟨S800000x1, .i32⟩
  | 59 => ⟨S800000x256, .f32⟩
  | 60 => ⟨S_, .f32⟩
  | 61 => ⟨S50000x256, .f32⟩
  | 62 => ⟨S800000x1, .i32⟩
  | 63 => ⟨S50000x256, .f32⟩
  | 64 => ⟨S_, .f32⟩
  | 65 => ⟨S800000, .f32⟩
  | 66 => ⟨S_, .f32⟩
  | 67 => ⟨S50000, .f32⟩
  | 68 => ⟨S800000x1, .i32⟩
  | 69 => ⟨S50000, .f32⟩
  | 70 => ⟨S_, .f32⟩
  | 71 => ⟨S50000, .f32⟩
  | 72 => ⟨S50000, .f32⟩
  | 73 => ⟨S50000x1, .f32⟩
  | 74 => ⟨S50000x256, .f32⟩
  | 75 => ⟨S50000x256, .f32⟩
  | 76 => ⟨S256x256, .f32⟩
  | 77 => ⟨S50000x256, .f32⟩
  | 78 => ⟨S1x256, .f32⟩
  | 79 => ⟨S50000x256, .f32⟩
  | 80 => ⟨S50000x256, .f32⟩
  | 81 => ⟨S256x256, .f32⟩
  | 82 => ⟨S50000x256, .f32⟩
  | 83 => ⟨S50000x256, .f32⟩
  | 84 => ⟨S_, .f32⟩
  | 85 => ⟨S50000x256, .f32⟩
  | 86 => ⟨S50000x256, .f32⟩
  | 87 => ⟨S_, .i32⟩
  | 88 => ⟨S800000, .i32⟩
  | 89 => ⟨S800000, .i1⟩
  | 90 => ⟨S_, .i32⟩
  | 91 => ⟨S800000, .i32⟩
  | 92 => ⟨S800000, .i32⟩
  | 93 => ⟨S800000, .i32⟩
  | 94 => ⟨S800000x1, .i32⟩
  | 95 => ⟨S800000x256, .f32⟩
  | 96 => ⟨S_, .f32⟩
  | 97 => ⟨S50000x256, .f32⟩
  | 98 => ⟨S800000x1, .i32⟩
  | 99 => ⟨S50000x256, .f32⟩
  | 100 => ⟨S_, .f32⟩
  | 101 => ⟨S800000, .f32⟩
  | 102 => ⟨S_, .f32⟩
  | 103 => ⟨S50000, .f32⟩
  | 104 => ⟨S800000x1, .i32⟩
  | 105 => ⟨S50000, .f32⟩
  | 106 => ⟨S_, .f32⟩
  | 107 => ⟨S50000, .f32⟩
  | 108 => ⟨S50000, .f32⟩
  | 109 => ⟨S50000x1, .f32⟩
  | 110 => ⟨S50000x256, .f32⟩
  | 111 => ⟨S50000x256, .f32⟩
  | 112 => ⟨S256x47, .f32⟩
  | 113 => ⟨S50000x47, .f32⟩
  | 114 => ⟨S1x47, .f32⟩
  | 115 => ⟨S50000x47, .f32⟩
  | 116 => ⟨S50000x47, .f32⟩
  | 117 => ⟨S256x47, .f32⟩
  | 118 => ⟨S50000x47, .f32⟩
  | 119 => ⟨S50000x47, .f32⟩
  | 120 => ⟨S_, .f32⟩
  | 121 => ⟨S50000, .f32⟩
  | 122 => ⟨S_, .f32⟩
  | 123 => ⟨S50000, .f32⟩
  | 124 => ⟨S50000, .f32⟩
  | 125 => ⟨S50000x1, .f32⟩
  | 126 => ⟨S50000x47, .f32⟩
  | 127 => ⟨S50000x47, .f32⟩
  | _ => ⟨S50000x256, .f32⟩

abbrev hbmTy0_1 (i : Nat) : BufTy := match i % 128 with
  | 0 => ⟨S50000x47, .f32⟩
  | 1 => ⟨S_, .f32⟩
  | 2 => ⟨S50000, .f32⟩
  | 3 => ⟨S50000x1, .f32⟩
  | 4 => ⟨S50000x1, .f32⟩
  | 5 => ⟨S50000x47, .f32⟩
  | 6 => ⟨S50000x47, .f32⟩
  | _ => ⟨S50000x256, .f32⟩

abbrev hbmTy (i : Nat) : BufTy := match i / 128 with
  | 0 => hbmTy0_0 i
  | 1 => hbmTy0_1 i
  | _ => ⟨S50000x256, .f32⟩

abbrev bufTy : (tb : Table) → Fin (tcTables nBuf tb) → BufTy
  | .hbm, ⟨i, _⟩ => hbmTy i
  | _, _ => ⟨S50000x256, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_v0 : Ref sig .tc := ⟨.hbm, 11, rfl⟩
abbrev main_v1 : Ref sig .tc := ⟨.hbm, 12, rfl⟩
abbrev main_v2 : Ref sig .tc := ⟨.hbm, 13, rfl⟩
abbrev main_v3 : Ref sig .tc := ⟨.hbm, 14, rfl⟩
abbrev main_c : Ref sig .tc := ⟨.hbm, 15, rfl⟩
abbrev main_v4 : Ref sig .tc := ⟨.hbm, 16, rfl⟩
abbrev main_v5 : Ref sig .tc := ⟨.hbm, 17, rfl⟩
abbrev main_c_0 : Ref sig .tc := ⟨.hbm, 18, rfl⟩
abbrev main_v6 : Ref sig .tc := ⟨.hbm, 19, rfl⟩
abbrev main_v7 : Ref sig .tc := ⟨.hbm, 20, rfl⟩
abbrev main_v8 : Ref sig .tc := ⟨.hbm, 21, rfl⟩
abbrev main_v9 : Ref sig .tc := ⟨.hbm, 22, rfl⟩
abbrev main_v10 : Ref sig .tc := ⟨.hbm, 23, rfl⟩
abbrev main_cst : Ref sig .tc := ⟨.hbm, 24, rfl⟩
abbrev main_v11 : Ref sig .tc := ⟨.hbm, 25, rfl⟩
abbrev main_v12 : Ref sig .tc := ⟨.hbm, 26, rfl⟩
abbrev main_v13 : Ref sig .tc := ⟨.hbm, 27, rfl⟩
abbrev main_cst_1 : Ref sig .tc := ⟨.hbm, 28, rfl⟩
abbrev main_v14 : Ref sig .tc := ⟨.hbm, 29, rfl⟩
abbrev main_cst_2 : Ref sig .tc := ⟨.hbm, 30, rfl⟩
abbrev main_v15 : Ref sig .tc := ⟨.hbm, 31, rfl⟩
abbrev main_v16 : Ref sig .tc := ⟨.hbm, 32, rfl⟩
abbrev main_v17 : Ref sig .tc := ⟨.hbm, 33, rfl⟩
abbrev main_cst_3 : Ref sig .tc := ⟨.hbm, 34, rfl⟩
abbrev main_v18 : Ref sig .tc := ⟨.hbm, 35, rfl⟩
abbrev main_v19 : Ref sig .tc := ⟨.hbm, 36, rfl⟩
abbrev main_v20 : Ref sig .tc := ⟨.hbm, 37, rfl⟩
abbrev main_v21 : Ref sig .tc := ⟨.hbm, 38, rfl⟩
abbrev main_v22 : Ref sig .tc := ⟨.hbm, 39, rfl⟩
abbrev main_v23 : Ref sig .tc := ⟨.hbm, 40, rfl⟩
abbrev main_v24 : Ref sig .tc := ⟨.hbm, 41, rfl⟩
abbrev main_v25 : Ref sig .tc := ⟨.hbm, 42, rfl⟩
abbrev main_v26 : Ref sig .tc := ⟨.hbm, 43, rfl⟩
abbrev main_v27 : Ref sig .tc := ⟨.hbm, 44, rfl⟩
abbrev main_v28 : Ref sig .tc := ⟨.hbm, 45, rfl⟩
abbrev main_v29 : Ref sig .tc := ⟨.hbm, 46, rfl⟩
abbrev main_v30 : Ref sig .tc := ⟨.hbm, 47, rfl⟩
abbrev main_call0_cst : Ref sig .tc := ⟨.hbm, 48, rfl⟩
abbrev main_call0_v0 : Ref sig .tc := ⟨.hbm, 49, rfl⟩
abbrev main_v31 : Ref sig .tc := ⟨.hbm, 50, rfl⟩
abbrev main_c_4 : Ref sig .tc := ⟨.hbm, 51, rfl⟩
abbrev main_v32 : Ref sig .tc := ⟨.hbm, 52, rfl⟩
abbrev main_v33 : Ref sig .tc := ⟨.hbm, 53, rfl⟩
abbrev main_c_5 : Ref sig .tc := ⟨.hbm, 54, rfl⟩
abbrev main_v34 : Ref sig .tc := ⟨.hbm, 55, rfl⟩
abbrev main_v35 : Ref sig .tc := ⟨.hbm, 56, rfl⟩
abbrev main_v36 : Ref sig .tc := ⟨.hbm, 57, rfl⟩
abbrev main_v37 : Ref sig .tc := ⟨.hbm, 58, rfl⟩
abbrev main_v38 : Ref sig .tc := ⟨.hbm, 59, rfl⟩
abbrev main_cst_6 : Ref sig .tc := ⟨.hbm, 60, rfl⟩
abbrev main_v39 : Ref sig .tc := ⟨.hbm, 61, rfl⟩
abbrev main_v40 : Ref sig .tc := ⟨.hbm, 62, rfl⟩
abbrev main_v41 : Ref sig .tc := ⟨.hbm, 63, rfl⟩
abbrev main_cst_7 : Ref sig .tc := ⟨.hbm, 64, rfl⟩
abbrev main_v42 : Ref sig .tc := ⟨.hbm, 65, rfl⟩
abbrev main_cst_8 : Ref sig .tc := ⟨.hbm, 66, rfl⟩
abbrev main_v43 : Ref sig .tc := ⟨.hbm, 67, rfl⟩
abbrev main_v44 : Ref sig .tc := ⟨.hbm, 68, rfl⟩
abbrev main_v45 : Ref sig .tc := ⟨.hbm, 69, rfl⟩
abbrev main_cst_9 : Ref sig .tc := ⟨.hbm, 70, rfl⟩
abbrev main_v46 : Ref sig .tc := ⟨.hbm, 71, rfl⟩
abbrev main_v47 : Ref sig .tc := ⟨.hbm, 72, rfl⟩
abbrev main_v48 : Ref sig .tc := ⟨.hbm, 73, rfl⟩
abbrev main_v49 : Ref sig .tc := ⟨.hbm, 74, rfl⟩
abbrev main_v50 : Ref sig .tc := ⟨.hbm, 75, rfl⟩
abbrev main_v51 : Ref sig .tc := ⟨.hbm, 76, rfl⟩
abbrev main_v52 : Ref sig .tc := ⟨.hbm, 77, rfl⟩
abbrev main_v53 : Ref sig .tc := ⟨.hbm, 78, rfl⟩
abbrev main_v54 : Ref sig .tc := ⟨.hbm, 79, rfl⟩
abbrev main_v55 : Ref sig .tc := ⟨.hbm, 80, rfl⟩
abbrev main_v56 : Ref sig .tc := ⟨.hbm, 81, rfl⟩
abbrev main_v57 : Ref sig .tc := ⟨.hbm, 82, rfl⟩
abbrev main_v58 : Ref sig .tc := ⟨.hbm, 83, rfl⟩
abbrev main_call1_cst : Ref sig .tc := ⟨.hbm, 84, rfl⟩
abbrev main_call1_v0 : Ref sig .tc := ⟨.hbm, 85, rfl⟩
abbrev main_v59 : Ref sig .tc := ⟨.hbm, 86, rfl⟩
abbrev main_c_10 : Ref sig .tc := ⟨.hbm, 87, rfl⟩
abbrev main_v60 : Ref sig .tc := ⟨.hbm, 88, rfl⟩
abbrev main_v61 : Ref sig .tc := ⟨.hbm, 89, rfl⟩
abbrev main_c_11 : Ref sig .tc := ⟨.hbm, 90, rfl⟩
abbrev main_v62 : Ref sig .tc := ⟨.hbm, 91, rfl⟩
abbrev main_v63 : Ref sig .tc := ⟨.hbm, 92, rfl⟩
abbrev main_v64 : Ref sig .tc := ⟨.hbm, 93, rfl⟩
abbrev main_v65 : Ref sig .tc := ⟨.hbm, 94, rfl⟩
abbrev main_v66 : Ref sig .tc := ⟨.hbm, 95, rfl⟩
abbrev main_cst_12 : Ref sig .tc := ⟨.hbm, 96, rfl⟩
abbrev main_v67 : Ref sig .tc := ⟨.hbm, 97, rfl⟩
abbrev main_v68 : Ref sig .tc := ⟨.hbm, 98, rfl⟩
abbrev main_v69 : Ref sig .tc := ⟨.hbm, 99, rfl⟩
abbrev main_cst_13 : Ref sig .tc := ⟨.hbm, 100, rfl⟩
abbrev main_v70 : Ref sig .tc := ⟨.hbm, 101, rfl⟩
abbrev main_cst_14 : Ref sig .tc := ⟨.hbm, 102, rfl⟩
abbrev main_v71 : Ref sig .tc := ⟨.hbm, 103, rfl⟩
abbrev main_v72 : Ref sig .tc := ⟨.hbm, 104, rfl⟩
abbrev main_v73 : Ref sig .tc := ⟨.hbm, 105, rfl⟩
abbrev main_cst_15 : Ref sig .tc := ⟨.hbm, 106, rfl⟩
abbrev main_v74 : Ref sig .tc := ⟨.hbm, 107, rfl⟩
abbrev main_v75 : Ref sig .tc := ⟨.hbm, 108, rfl⟩
abbrev main_v76 : Ref sig .tc := ⟨.hbm, 109, rfl⟩
abbrev main_v77 : Ref sig .tc := ⟨.hbm, 110, rfl⟩
abbrev main_v78 : Ref sig .tc := ⟨.hbm, 111, rfl⟩
abbrev main_v79 : Ref sig .tc := ⟨.hbm, 112, rfl⟩
abbrev main_v80 : Ref sig .tc := ⟨.hbm, 113, rfl⟩
abbrev main_v81 : Ref sig .tc := ⟨.hbm, 114, rfl⟩
abbrev main_v82 : Ref sig .tc := ⟨.hbm, 115, rfl⟩
abbrev main_v83 : Ref sig .tc := ⟨.hbm, 116, rfl⟩
abbrev main_v84 : Ref sig .tc := ⟨.hbm, 117, rfl⟩
abbrev main_v85 : Ref sig .tc := ⟨.hbm, 118, rfl⟩
abbrev main_v86 : Ref sig .tc := ⟨.hbm, 119, rfl⟩
abbrev main_call2_cst : Ref sig .tc := ⟨.hbm, 120, rfl⟩
abbrev main_call2_v0 : Ref sig .tc := ⟨.hbm, 121, rfl⟩
abbrev main_call2_cst_0 : Ref sig .tc := ⟨.hbm, 122, rfl⟩
abbrev main_call2_v1 : Ref sig .tc := ⟨.hbm, 123, rfl⟩
abbrev main_call2_v2 : Ref sig .tc := ⟨.hbm, 124, rfl⟩
abbrev main_call2_v3 : Ref sig .tc := ⟨.hbm, 125, rfl⟩
abbrev main_call2_v4 : Ref sig .tc := ⟨.hbm, 126, rfl⟩
abbrev main_call2_v5 : Ref sig .tc := ⟨.hbm, 127, rfl⟩
abbrev main_call2_v6 : Ref sig .tc := ⟨.hbm, 128, rfl⟩
abbrev main_call2_cst_1 : Ref sig .tc := ⟨.hbm, 129, rfl⟩
abbrev main_call2_v7 : Ref sig .tc := ⟨.hbm, 130, rfl⟩
abbrev main_call2_v8 : Ref sig .tc := ⟨.hbm, 131, rfl⟩
abbrev main_call2_v9 : Ref sig .tc := ⟨.hbm, 132, rfl⟩
abbrev main_call2_v10 : Ref sig .tc := ⟨.hbm, 133, rfl⟩
abbrev main_v87 : Ref sig .tc := ⟨.hbm, 134, rfl⟩

abbrev nD : Nat := 1
abbrev τ : Topo := Topo.v7x

variable {F : FTy → Type} [FloatOps F]

class Facts₀ : Prop where
  slices_S2x800000_S1x800000_0_0 : S2x800000.Slices ![0, 0] S1x800000
  shapeCasts_S1x800000_S800000 : S1x800000.ShapeCasts S800000
  slices_S2x800000_S1x800000_1_0 : S2x800000.Slices ![1, 0] S1x800000
  bcast_S_S800000 : S_.BroadcastsInDim S800000 (![] : Fin 0 → Fin S800000.rank)
  bcast_S800000_S800000x1_0 : S800000.BroadcastsInDim S800000x1 (![0] : Fin 1 → Fin S800000x1.rank)
  bcast_S_S50000x256 : S_.BroadcastsInDim S50000x256 (![] : Fin 0 → Fin S50000x256.rank)
  bcast_S_S50000 : S_.BroadcastsInDim S50000 (![] : Fin 0 → Fin S50000.rank)
  bcast_S50000_S50000x1_0 : S50000.BroadcastsInDim S50000x1 (![0] : Fin 1 → Fin S50000x1.rank)
  bcast_S50000x1_S50000x256_0_1 : S50000x1.BroadcastsInDim S50000x256 (![0, 1] : Fin 2 → Fin S50000x256.rank)
  transposes_S256x256_S256x256_1_0 : S256x256.Transposes [1, 0] S256x256
  bcast_S256_S1x256_1 : S256.BroadcastsInDim S1x256 (![1] : Fin 1 → Fin S1x256.rank)
  bcast_S1x256_S50000x256_0_1 : S1x256.BroadcastsInDim S50000x256 (![0, 1] : Fin 2 → Fin S50000x256.rank)
  transposes_S47x256_S256x47_1_0 : S47x256.Transposes [1, 0] S256x47
  bcast_S47_S1x47_1 : S47.BroadcastsInDim S1x47 (![1] : Fin 1 → Fin S1x47.rank)
  bcast_S1x47_S50000x47_0_1 : S1x47.BroadcastsInDim S50000x47 (![0, 1] : Fin 2 → Fin S50000x47.rank)
  reducesTo_S50000x47_S50000_d1 : S50000x47.ReducesTo [1] S50000
  h_S_ : 0 < S_.numel
  bcast_S50000x1_S50000x47_0_1 : S50000x1.BroadcastsInDim S50000x47 (![0, 1] : Fin 2 → Fin S50000x47.rank)
  gather_S50000x256_S800000x1_S800000x256_1_0_n_n_0_1_1256_wf : GatherDims.WF S50000x256 S800000x1 S800000x256 [1] [0] [] [0] [] 1 ![1, 256]
  scatter_S50000x256_S800000x1_S800000x256_1_0_0_1_wf : ScatterDims.WF S50000x256 S800000x1 S800000x256 [1] [0] [0] 1
  scatter_S50000_S800000x1_S800000_n_0_0_1_wf : ScatterDims.WF S50000 S800000x1 S800000 [] [0] [0] 1
  dot_S50000x256_S256x256_S50000x256_1_0_0_1_n_n_wf : DotDims.WF S50000x256 S256x256 S50000x256 [1] [0] [0] [1] [] []
  dot_S50000x256_S256x47_S50000x47_1_0_0_1_n_n_wf : DotDims.WF S50000x256 S256x47 S50000x47 [1] [0] [0] [1] [] []

variable [Facts₀]

def gather_S50000x256_S800000x1_S800000x256_1_0_n_n_0_1_1256 : GatherDims S50000x256 S800000x1 S800000x256 where
  offsetDims := [1]
  collapsedSliceDims := [0]
  operandBatchingDims := []
  startIndicesBatchingDims := []
  startIndexMap := [0]
  indexVectorDim := 1
  sliceSizes := ![1, 256]
  wf := gather_S50000x256_S800000x1_S800000x256_1_0_n_n_0_1_1256_wf
def scatter_S50000x256_S800000x1_S800000x256_1_0_0_1 : ScatterDims S50000x256 S800000x1 S800000x256 where
  updateWindowDims := [1]
  insertedWindowDims := [0]
  scatterDimsToOperandDims := [0]
  indexVectorDim := 1
  wf := scatter_S50000x256_S800000x1_S800000x256_1_0_0_1_wf
def scatter_S50000_S800000x1_S800000_n_0_0_1 : ScatterDims S50000 S800000x1 S800000 where
  updateWindowDims := []
  insertedWindowDims := [0]
  scatterDimsToOperandDims := [0]
  indexVectorDim := 1
  wf := scatter_S50000_S800000x1_S800000_n_0_0_1_wf
def dot_S50000x256_S256x256_S50000x256_1_0_0_1_n_n : DotDims S50000x256 S256x256 S50000x256 where
  lhsContracting := [1]
  rhsContracting := [0]
  lhsNonContracting := [0]
  rhsNonContracting := [1]
  lhsBatch := []
  rhsBatch := []
  wf := dot_S50000x256_S256x256_S50000x256_1_0_0_1_n_n_wf
def dot_S50000x256_S256x47_S50000x47_1_0_0_1_n_n : DotDims S50000x256 S256x47 S50000x47 where
  lhsContracting := [1]
  rhsContracting := [0]
  lhsNonContracting := [0]
  rhsNonContracting := [1]
  lhsBatch := []
  rhsBatch := []
  wf := dot_S50000x256_S256x47_S50000x47_1_0_0_1_n_n_wf

class Facts : Prop extends Facts₀ where

variable [Facts]
-- ==== Proof.Spec.lean ====
/- One graph-convolution layer and the final row-wise log-softmax, as functions of whole arrays read index by index.

   A layer's affine part at node r and output feature c is
     (Σ_k mean(r,k) · wl(k,c) + Σ_k h(r,k) · wr(k,c)) + b(c),
   the neighbour mean and the node's own features each against its weight matrix (already transposed to
   features × outputs), then the bias. A hidden layer clamps that below at zero. The last layer subtracts from each
   row its maximum and then the logarithm of the row's sum of exponentials. -/
import Idealize.ShloMosaic.PureOps.Ideal
import Idealize.ShloMosaic.PureOps.Ideal.Laws
import Idealize.ShloMosaic.Lib.ValueIdx

noncomputable section

namespace Cert.Sage

open Idealize.ShloMosaic Idealize.ShloMosaic.ValueIdx
open scoped BigOperators

/-- The affine part of a layer at node `r`, output feature `c`. -/
def linAt {C : ℕ} (mean h : (⟨2, ![50000, 256]⟩ : Shape).Idx → EReal) (wl wr : (⟨2, ![256, C]⟩ : Shape).Idx → EReal)
    (b : (⟨1, ![C]⟩ : Shape).Idx → EReal) (r : Fin 50000) (c : Fin C) : EReal :=
  ((∑ k : Fin 256, mean (ix2 r k) * wl (ix2 k c)) + ∑ k : Fin 256, h (ix2 r k) * wr (ix2 k c)) + b (ix1 c)

/-- The affine part of a layer as an array over nodes × outputs. -/
def lin {C : ℕ} (mean h : (⟨2, ![50000, 256]⟩ : Shape).Idx → EReal) (wl wr : (⟨2, ![256, C]⟩ : Shape).Idx → EReal)
    (b : (⟨1, ![C]⟩ : Shape).Idx → EReal) : (⟨2, ![50000, C]⟩ : Shape).Idx → EReal :=
  fun i => linAt mean h wl wr b (i 0) (i 1)

/-- A hidden layer: the affine part clamped below at zero. -/
def hidden (mean h : (⟨2, ![50000, 256]⟩ : Shape).Idx → EReal) (wl wr : (⟨2, ![256, 256]⟩ : Shape).Idx → EReal)
    (b : (⟨1, ![256]⟩ : Shape).Idx → EReal) : (⟨2, ![50000, 256]⟩ : Shape).Idx → EReal :=
  fun i => max (linAt mean h wl wr b (i 0) (i 1)) (Ideal.ofBits .f32 0x00000000#32)

/-- The maximum of row `r` of a nodes × 47 array, folded from minus infinity. -/
def rowMax (o : (⟨2, ![50000, 47]⟩ : Shape).Idx → EReal) (r : Fin 50000) : EReal :=
  (Finset.univ : Finset (Fin 47)).fold max (Ideal.ofBits .f32 0xFF800000#32) (fun k => o (ix2 r k))

/-- Log-softmax of row `r` at column `c`: the entry less the row's maximum, less the logarithm of the row's sum of
    exponentials of entries less that maximum. -/
def lsmAt (o : (⟨2, ![50000, 47]⟩ : Shape).Idx → EReal) (r : Fin 50000) (c : Fin 47) : EReal :=
  (o (ix2 r c) - rowMax o r) - Ideal.log (∑ k : Fin 47, Ideal.exp (o (ix2 r k) - rowMax o r))

/-- Row-wise log-softmax of a nodes × 47 array. -/
def logSoftmax (o : (⟨2, ![50000, 47]⟩ : Shape).Idx → EReal) : (⟨2, ![50000, 47]⟩ : Shape).Idx → EReal :=
  fun i => lsmAt o (i 0) (i 1)

theorem lin_apply {C : ℕ} (mean h : (⟨2, ![50000, 256]⟩ : Shape).Idx → EReal) (wl wr : (⟨2, ![256, C]⟩ : Shape).Idx → EReal)
    (b : (⟨1, ![C]⟩ : Shape).Idx → EReal) (r : Fin 50000) (c : Fin C) :
    lin mean h wl wr b (ix2 r c) = linAt mean h wl wr b r c := rfl

theorem hidden_apply (mean h : (⟨2, ![50000, 256]⟩ : Shape).Idx → EReal) (wl wr : (⟨2, ![256, 256]⟩ : Shape).Idx → EReal)
    (b : (⟨1, ![256]⟩ : Shape).Idx → EReal) (r : Fin 50000) (c : Fin 256) :
    hidden mean h wl wr b (ix2 r c) = max (linAt mean h wl wr b r c) (Ideal.ofBits .f32 0x00000000#32) := rfl

theorem logSoftmax_apply (o : (⟨2, ![50000, 47]⟩ : Shape).Idx → EReal) (r : Fin 50000) (c : Fin 47) :
    logSoftmax o (ix2 r c) = lsmAt o r c := rfl

end Cert.Sage

end
-- ==== Proof.KStages.lean ====
/- The kernel program's host-side stages and its whole result, as functions of the argument arrays.

   From the edge list: the destination of every edge (its second row) and the source of every edge (its first row, a
   negative entry wrapped once by the node count), each as a column of one-entry index vectors. The in-degree of a node
   is the scatter-sum of ones at the destinations; the aggregate of a feature array is the scatter-sum at the
   destinations of its rows gathered at the sources; the neighbour mean is the aggregate times the reciprocal of the
   in-degree clamped below at one. Three layers follow, each from the mean of the previous layer's output and that
   output itself; the last is followed by the row-wise log-softmax. -/
import proofs.«108251_j23055384445756_1_alg».proof.KernelIdeal
import proofs.«108251_j23055384445756_1_alg».proof.Proof.Gen.KernelIdeal
import proofs.«108251_j23055384445756_1_alg».proof.Proof.Spec

noncomputable section

namespace Cert.KernelIdeal.Stages

open Cert.KernelIdeal Cert.KernelIdeal.Gen Idealize.ShloMosaic Idealize.ShloMosaic.TcCoe

/-- Row `1` of the edge list as a flat vector: every edge's destination. -/
def dstFlat (e : (⟨S2x800000, .i32⟩ : BufTy).Contents (Elt Ideal)) : (⟨S800000, .i32⟩ : BufTy).Contents (Elt Ideal) :=
  shapeCast _ (extractStridedSlice S1x800000 ![1, 0] e slices_S2x800000_S1x800000_1_0) shapeCasts_S1x800000_S800000

/-- Row `0` of the edge list as a flat vector: every edge's source as given. -/
def srcFlat (e : (⟨S2x800000, .i32⟩ : BufTy).Contents (Elt Ideal)) : (⟨S800000, .i32⟩ : BufTy).Contents (Elt Ideal) :=
  shapeCast _ (extractStridedSlice S1x800000 ![0, 0] e slices_S2x800000_S1x800000_0_0) shapeCasts_S1x800000_S800000

/-- The destinations as a column of one-entry index vectors. -/
def dstIx (e : (⟨S2x800000, .i32⟩ : BufTy).Contents (Elt Ideal)) : (⟨S800000x1, .i32⟩ : BufTy).Contents (Elt Ideal) :=
  broadcastInDim S800000x1 ![0] bcast_S800000_S800000x1_0 (dstFlat e)

/-- The sources, a negative one wrapped once by the node count, as a column of one-entry index vectors. -/
def srcIx (e : (⟨S2x800000, .i32⟩ : BufTy).Contents (Elt Ideal)) : (⟨S800000x1, .i32⟩ : BufTy).Contents (Elt Ideal) :=
  broadcastInDim S800000x1 ![0] bcast_S800000_S800000x1_0
    (select (cmpi .slt (srcFlat e) (broadcastInDim S800000 ![] bcast_S_S800000 (constantI S_ 32 0#32)))
      (addi (srcFlat e) (broadcastInDim S800000 ![] bcast_S_S800000 (constantI S_ 32 50000#32))) (srcFlat e))

/-- In-degree clamped below at one. -/
def degClamped (e : (⟨S2x800000, .i32⟩ : BufTy).Contents (Elt Ideal)) : (⟨S50000, .f32⟩ : BufTy).Contents (Elt Ideal) :=
  maximumf (F := Ideal) (Host.scatterAdd (F := Ideal) scatter_S50000_S800000x1_S800000_n_0_0_1
      (broadcastInDim S50000 ![] bcast_S_S50000 (constant (F := Ideal) S_ .f32 0x00000000#32)) (dstIx e)
      (broadcastInDim S800000 ![] bcast_S_S800000 (constant (F := Ideal) S_ .f32 0x3F800000#32)))
    (broadcastInDim S50000 ![] bcast_S_S50000 (constant (F := Ideal) S_ .f32 0x3F800000#32))

/-- The reciprocal of the clamped in-degree. -/
def invDeg (e : (⟨S2x800000, .i32⟩ : BufTy).Contents (Elt Ideal)) : (⟨S50000, .f32⟩ : BufTy).Contents (Elt Ideal) :=
  Host.divf (F := Ideal) (broadcastInDim S50000 ![] bcast_S_S50000 (constant (F := Ideal) S_ .f32 0x3F800000#32)) (degClamped e)

/-- The aggregate: rows of `h` gathered at the sources, scatter-summed at the destinations. -/
def agg (e : (⟨S2x800000, .i32⟩ : BufTy).Contents (Elt Ideal)) (h : (⟨S50000x256, .f32⟩ : BufTy).Contents (Elt Ideal)) :
    (⟨S50000x256, .f32⟩ : BufTy).Contents (Elt Ideal) :=
  Host.scatterAdd (F := Ideal) scatter_S50000x256_S800000x1_S800000x256_1_0_0_1
    (broadcastInDim S50000x256 ![] bcast_S_S50000x256 (constant (F := Ideal) S_ .f32 0x00000000#32)) (dstIx e)
    (Host.gather gather_S50000x256_S800000x1_S800000x256_1_0_n_n_0_1_1256 h (srcIx e))

/-- The neighbour mean as the kernel's program forms it: the aggregate times the reciprocal degree along rows. -/
def meanK (e : (⟨S2x800000, .i32⟩ : BufTy).Contents (Elt Ideal)) (h : (⟨S50000x256, .f32⟩ : BufTy).Contents (Elt Ideal)) :
    (⟨S50000x256, .f32⟩ : BufTy).Contents (Elt Ideal) :=
  mulf (F := Ideal) (φ := .f32) (agg e h) (broadcastInDim S50000x256 ![0, 1] bcast_S50000x1_S50000x256_0_1
    (broadcastInDim S50000x1 ![0] bcast_S50000_S50000x1_0 (invDeg e)))

/-- A square weight matrix transposed. -/
def tr256 (w : (⟨S256x256, .f32⟩ : BufTy).Contents (Elt Ideal)) : (⟨S256x256, .f32⟩ : BufTy).Contents (Elt Ideal) :=
  transpose S256x256 [1, 0] w transposes_S256x256_S256x256_1_0

/-- The last layer's weight matrix transposed. -/
def tr47 (w : (⟨S47x256, .f32⟩ : BufTy).Contents (Elt Ideal)) : (⟨S256x47, .f32⟩ : BufTy).Contents (Elt Ideal) :=
  transpose S256x47 [1, 0] w transposes_S47x256_S256x47_1_0

/-- The first hidden layer's output. -/
def h1 (x : (⟨S50000x256, .f32⟩ : BufTy).Contents (Elt Ideal)) (e : (⟨S2x800000, .i32⟩ : BufTy).Contents (Elt Ideal))
    (wl0 : (⟨S256x256, .f32⟩ : BufTy).Contents (Elt Ideal)) (bl0 : (⟨S256, .f32⟩ : BufTy).Contents (Elt Ideal))
    (wr0 : (⟨S256x256, .f32⟩ : BufTy).Contents (Elt Ideal)) : (⟨S50000x256, .f32⟩ : BufTy).Contents (Elt Ideal) :=
  Cert.Sage.hidden (meanK e x) x (tr256 wl0) (tr256 wr0) bl0

/-- The second hidden layer's output, from the first's. -/
def h2 (g : (⟨S50000x256, .f32⟩ : BufTy).Contents (Elt Ideal)) (e : (⟨S2x800000, .i32⟩ : BufTy).Contents (Elt Ideal))
    (wl1 : (⟨S256x256, .f32⟩ : BufTy).Contents (Elt Ideal)) (bl1 : (⟨S256, .f32⟩ : BufTy).Contents (Elt Ideal))
    (wr1 : (⟨S256x256, .f32⟩ : BufTy).Contents (Elt Ideal)) : (⟨S50000x256, .f32⟩ : BufTy).Contents (Elt Ideal) :=
  Cert.Sage.hidden (meanK e g) g (tr256 wl1) (tr256 wr1) bl1

/-- The last layer's output, from the second hidden layer's: affine part, then row-wise log-softmax. -/
def out3 (g : (⟨S50000x256, .f32⟩ : BufTy).Contents (Elt Ideal)) (e : (⟨S2x800000, .i32⟩ : BufTy).Contents (Elt Ideal))
    (wl2 : (⟨S47x256, .f32⟩ : BufTy).Contents (Elt Ideal)) (bl2 : (⟨S47, .f32⟩ : BufTy).Contents (Elt Ideal))
    (wr2 : (⟨S47x256, .f32⟩ : BufTy).Contents (Elt Ideal)) : (⟨S50000x47, .f32⟩ : BufTy).Contents (Elt Ideal) :=
  Cert.Sage.logSoftmax (Cert.Sage.lin (meanK e g) g (tr47 wl2) (tr47 wr2) bl2)

/-- The whole program's result as a function of its eleven arguments. -/
def outK (x : (⟨S50000x256, .f32⟩ : BufTy).Contents (Elt Ideal)) (e : (⟨S2x800000, .i32⟩ : BufTy).Contents (Elt Ideal))
    (wl0 : (⟨S256x256, .f32⟩ : BufTy).Contents (Elt Ideal)) (bl0 : (⟨S256, .f32⟩ : BufTy).Contents (Elt Ideal))
    (wr0 : (⟨S256x256, .f32⟩ : BufTy).Contents (Elt Ideal))
    (wl1 : (⟨S256x256, .f32⟩ : BufTy).Contents (Elt Ideal)) (bl1 : (⟨S256, .f32⟩ : BufTy).Contents (Elt Ideal))
    (wr1 : (⟨S256x256, .f32⟩ : BufTy).Contents (Elt Ideal))
    (wl2 : (⟨S47x256, .f32⟩ : BufTy).Contents (Elt Ideal)) (bl2 : (⟨S47, .f32⟩ : BufTy).Contents (Elt Ideal))
    (wr2 : (⟨S47x256, .f32⟩ : BufTy).Contents (Elt Ideal)) : (⟨S50000x47, .f32⟩ : BufTy).Contents (Elt Ideal) :=
  out3 (h2 (h1 x e wl0 bl0 wr0) e wl1 bl1 wr1) e wl2 bl2 wr2

end Cert.KernelIdeal.Stages

end
-- ==== Proof.LibDotPlain.lean ====
/- A matrix product read at one index, for dimension numbers with no batch axis and one contracted axis.

   Two arrangements: rows times columns (the left operand's second axis against the right operand's first), and
   the transposed-left product (both operands' first axes contracted: the left operand's columns index the result's
   rows). In both the contraction index is one coordinate, and the sum over it is a sum over that coordinate. The
   kernel's product into a zero accumulator and the host's product are that same sum. -/
import Idealize.ShloMosaic.PureOps.Ideal
import Idealize.ShloMosaic.PureOps.Ideal.Laws
import Idealize.ShloMosaic.Lib.ValueIdx

noncomputable section

namespace Cert.DotPlain

open Idealize.ShloMosaic Idealize.ShloMosaic.ValueIdx
open scoped BigOperators

/-! ## One contracted axis, no batch axis: the contraction shape and the operand coordinates -/

/-- A list that is a singleton has its one element at position 0. -/
theorem getElem_zero_of_eq_singleton {α : Type} {l : List α} {c : α} (h : l = [c]) (hp : 0 < l.length) : l[0] = c := by
  subst h; rfl

/-- With one contracted axis the contraction shape has one axis. -/
theorem contr_rank_one {sl sr so : Shape} (d : DotDims sl sr so) {c : Fin sl.rank} (hlc : d.lhsContracting = [c]) :
    d.contr.rank = 1 := by
  rw [d.rank_contr, hlc]; rfl

/-- That one axis has the extent of the left operand's contracted axis. -/
theorem contr_size_zero {sl sr so : Shape} (d : DotDims sl sr so) {c : Fin sl.rank} (hlc : d.lhsContracting = [c]) :
    d.contr.size ⟨0, by rw [contr_rank_one d hlc]; exact Nat.one_pos⟩ = sl.size c := by
  have hp : 0 < d.lhsContracting.length := by rw [hlc]; exact Nat.one_pos
  exact (d.size_contr 0 hp).trans (congrArg sl.size (getElem_zero_of_eq_singleton hlc hp))

/-- Moving along one index changes nothing but the position read. -/
private theorem val_congr {s : Shape} (j : s.Idx) (p q : Nat) (hp : p < s.rank) (hq : q < s.rank) (h : p = q) :
    (j ⟨p, hp⟩).val = (j ⟨q, hq⟩).val := by
  subst h; rfl

/-- No batch axis and one free axis on the left: on that axis the left operand reads the result's first coordinate. -/
theorem lhsIdx_val_nonContr {sl sr so : Shape} (d : DotDims sl sr so) (hlb : d.lhsBatch = [])
    {a : Fin sl.rank} (hln : d.lhsNonContracting = [a]) (j : so.Idx) (k : d.contr.Idx) (h0 : 0 < so.rank) :
    (d.lhsIdx j k a).val = (j ⟨0, h0⟩).val := by
  have hb : a ∉ d.lhsBatch := by rw [hlb]; exact List.not_mem_nil
  have hn : a ∈ d.lhsNonContracting := by rw [hln]; exact List.mem_singleton.mpr rfl
  unfold DotDims.lhsIdx
  rw [dif_neg hb, dif_pos hn]
  simp only [Fin.val_cast]
  exact val_congr j _ _ _ _ (by simp [hlb, hln])

/-- No batch axis and one free axis on each side: on its free axis the right operand reads the result's second
    coordinate (the result lists the left operand's free axis first). -/
theorem rhsIdx_val_nonContr {sl sr so : Shape} (d : DotDims sl sr so) (hlb : d.lhsBatch = []) (hrb : d.rhsBatch = [])
    {al : Fin sl.rank} (hln : d.lhsNonContracting = [al]) {a : Fin sr.rank} (hrn : d.rhsNonContracting = [a])
    (j : so.Idx) (k : d.contr.Idx) (h1 : 1 < so.rank) :
    (d.rhsIdx j k a).val = (j ⟨1, h1⟩).val := by
  have hb : a ∉ d.rhsBatch := by rw [hrb]; exact List.not_mem_nil
  have hn : a ∈ d.rhsNonContracting := by rw [hrn]; exact List.mem_singleton.mpr rfl
  unfold DotDims.rhsIdx
  rw [dif_neg hb, dif_pos hn]
  simp only [Fin.val_cast]
  exact val_congr j _ _ _ _ (by simp [hlb, hln, hrn])

/-! ## The contraction sum as a sum over the contracted coordinate -/

/-- Rows times columns: the contraction sum at (a, b) is the sum over k of l (a, k) · r (k, b). -/
theorem sum_rows_cols {M K N : Nat} (d : DotDims ⟨2, ![M, K]⟩ ⟨2, ![K, N]⟩ ⟨2, ![M, N]⟩)
    (hlb : d.lhsBatch = []) (hrb : d.rhsBatch = []) (hlc : d.lhsContracting = [1]) (hrc : d.rhsContracting = [0])
    (hln : d.lhsNonContracting = [0]) (hrn : d.rhsNonContracting = [1])
    (l : (⟨2, ![M, K]⟩ : Shape).Idx → EReal) (r : (⟨2, ![K, N]⟩ : Shape).Idx → EReal) (a : Fin M) (b : Fin N) :
    (∑ k : d.contr.Idx, l (d.lhsIdx (ix2 a b) k) * r (d.rhsIdx (ix2 a b) k)) = ∑ k : Fin K, l (ix2 a k) * r (ix2 k b) := by
  have hr : d.contr.rank = 1 := contr_rank_one d hlc
  have hs : d.contr.size ⟨0, by omega⟩ = K := contr_size_zero d hlc
  -- re-index the sum by the one contraction coordinate, then identify each operand's index axis by axis
  rw [← Equiv.sum_comp (contrEquiv1 d K hr hs).symm]
  refine Finset.sum_congr rfl fun k _ => ?_
  have hl : d.lhsIdx (ix2 a b) ((contrEquiv1 d K hr hs).symm k) = ix2 a k := by
    funext ax
    match ax with
    | ⟨0, _⟩ => exact Fin.ext (lhsIdx_val_nonContr d hlb hln _ _ Nat.zero_lt_two)
    | ⟨1, _⟩ => exact Fin.ext ((d.lhsIdx_val_of_single hlc _ _).trans (contrEquiv1_symm_val d K hr hs k))
  have hrr : d.rhsIdx (ix2 a b) ((contrEquiv1 d K hr hs).symm k) = ix2 k b := by
    funext ax
    match ax with
    | ⟨0, _⟩ => exact Fin.ext ((d.rhsIdx_val_of_single hrc _ _).trans (contrEquiv1_symm_val d K hr hs k))
    | ⟨1, _⟩ => exact Fin.ext (rhsIdx_val_nonContr d hlb hrb hln hrn _ _ Nat.one_lt_two)
  rw [hl, hrr]

/-- Transposed-left product: the contraction sum at (a, b) is the sum over k of l (k, a) · r (k, b). -/
theorem sum_cols_cols {M K N : Nat} (d : DotDims ⟨2, ![K, M]⟩ ⟨2, ![K, N]⟩ ⟨2, ![M, N]⟩)
    (hlb : d.lhsBatch = []) (hrb : d.rhsBatch = []) (hlc : d.lhsContracting = [0]) (hrc : d.rhsContracting = [0])
    (hln : d.lhsNonContracting = [1]) (hrn : d.rhsNonContracting = [1])
    (l : (⟨2, ![K, M]⟩ : Shape).Idx → EReal) (r : (⟨2, ![K, N]⟩ : Shape).Idx → EReal) (a : Fin M) (b : Fin N) :
    (∑ k : d.contr.Idx, l (d.lhsIdx (ix2 a b) k) * r (d.rhsIdx (ix2 a b) k)) = ∑ k : Fin K, l (ix2 k a) * r (ix2 k b) := by
  have hr : d.contr.rank = 1 := contr_rank_one d hlc
  have hs : d.contr.size ⟨0, by omega⟩ = K := contr_size_zero d hlc
  rw [← Equiv.sum_comp (contrEquiv1 d K hr hs).symm]
  refine Finset.sum_congr rfl fun k _ => ?_
  -- the left operand's first axis is the contracted one, its second axis carries the result's row
  have hl : d.lhsIdx (ix2 a b) ((contrEquiv1 d K hr hs).symm k) = ix2 k a := by
    funext ax
    match ax with
    | ⟨0, _⟩ => exact Fin.ext ((d.lhsIdx_val_of_single hlc _ _).trans (contrEquiv1_symm_val d K hr hs k))
    | ⟨1, _⟩ => exact Fin.ext (lhsIdx_val_nonContr d hlb hln _ _ Nat.zero_lt_two)
  have hrr : d.rhsIdx (ix2 a b) ((contrEquiv1 d K hr hs).symm k) = ix2 k b := by
    funext ax
    match ax with
    | ⟨0, _⟩ => exact Fin.ext ((d.rhsIdx_val_of_single hrc _ _).trans (contrEquiv1_symm_val d K hr hs k))
    | ⟨1, _⟩ => exact Fin.ext (rhsIdx_val_nonContr d hlb hrb hln hrn _ _ Nat.one_lt_two)
  rw [hl, hrr]

/-! ## The two products at an index -/

/-- The host's product, rows times columns, at an index. -/
theorem dotGeneral_rows_cols {M K N : Nat} {φ₁ φ₂ : FTy} (d : DotDims ⟨2, ![M, K]⟩ ⟨2, ![K, N]⟩ ⟨2, ![M, N]⟩)
    (hlb : d.lhsBatch = []) (hrb : d.rhsBatch = []) (hlc : d.lhsContracting = [1]) (hrc : d.rhsContracting = [0])
    (hln : d.lhsNonContracting = [0]) (hrn : d.rhsNonContracting = [1])
    (prec : Option ContractPrecision) (sched : HostSchedule)
    (l : FVec Ideal ⟨2, ![M, K]⟩ φ₁) (r : FVec Ideal ⟨2, ![K, N]⟩ φ₂) (a : Fin M) (b : Fin N) :
    FloatOps.dotGeneral d prec sched l r (ix2 a b) = ∑ k : Fin K, l (ix2 a k) * r (ix2 k b) :=
  (Ideal.dotGeneral_apply d prec sched l r (ix2 a b)).trans (sum_rows_cols d hlb hrb hlc hrc hln hrn l r a b)

/-- The kernel's product into the zero accumulator, rows times columns, at an index. -/
theorem matmul_zero_rows_cols {M K N : Nat} {φ₁ φ₂ : FTy} (d : DotDims ⟨2, ![M, K]⟩ ⟨2, ![K, N]⟩ ⟨2, ![M, N]⟩)
    (hlb : d.lhsBatch = []) (hrb : d.rhsBatch = []) (hlc : d.lhsContracting = [1]) (hrc : d.rhsContracting = [0])
    (hln : d.lhsNonContracting = [0]) (hrn : d.rhsNonContracting = [1])
    (prec : Option ContractPrecision)
    (l : FVec Ideal ⟨2, ![M, K]⟩ φ₁) (r : FVec Ideal ⟨2, ![K, N]⟩ φ₂) (a : Fin M) (b : Fin N) :
    FloatOps.matmul d prec l r (constant ⟨2, ![M, N]⟩ .f32 0x00000000#32) (ix2 a b) = ∑ k : Fin K, l (ix2 a k) * r (ix2 k b) :=
  (Ideal.matmul_constant_zero_apply d prec l r (ix2 a b)).trans (sum_rows_cols d hlb hrb hlc hrc hln hrn l r a b)

/-- The kernel's transposed-left product into the zero accumulator, at an index. -/
theorem matmul_zero_cols_cols {M K N : Nat} {φ₁ φ₂ : FTy} (d : DotDims ⟨2, ![K, M]⟩ ⟨2, ![K, N]⟩ ⟨2, ![M, N]⟩)
    (hlb : d.lhsBatch = []) (hrb : d.rhsBatch = []) (hlc : d.lhsContracting = [0]) (hrc : d.rhsContracting = [0])
    (hln : d.lhsNonContracting = [1]) (hrn : d.rhsNonContracting = [1])
    (prec : Option ContractPrecision)
    (l : FVec Ideal ⟨2, ![K, M]⟩ φ₁) (r : FVec Ideal ⟨2, ![K, N]⟩ φ₂) (a : Fin M) (b : Fin N) :
    FloatOps.matmul d prec l r (constant ⟨2, ![M, N]⟩ .f32 0x00000000#32) (ix2 a b) = ∑ k : Fin K, l (ix2 k a) * r (ix2 k b) :=
  (Ideal.matmul_constant_zero_apply d prec l r (ix2 a b)).trans (sum_cols_cols d hlb hrb hlc hrc hln hrn l r a b)

end Cert.DotPlain

end
-- ==== Proof.LibKeepdims.lean ====
/- Layout operations and one-axis reductions of small ranks read at an index written by coordinates.

   What a row-wise kernel with `keepdims` sums meets: a column [a] viewed as [a, 1]; a matrix [a, c] viewed as
   [a, 1, c]; the broadcasts [a, 1, c] → [a, b, c] and [a, 1] → [a, b]; a sum or a maximum over the last axis of a
   rank-3 or rank-2 vector, and a sum over the first axis of a rank-2 vector, each as a sum or fold over that axis's
   coordinate; the host's reductions over the last axis of a rank-2 array likewise. Every shape fact is a variable,
   so a lemma applies whatever proof term a program carries for it. -/
import Idealize.ShloMosaic.Lib.Pipeline.Value
import Idealize.ShloMosaic.Lib.ValueIdx
import Idealize.ShloMosaic.PureOps.Ideal.Laws

noncomputable section

open scoped BigOperators

namespace Cert.Keepdims

open Idealize.ShloMosaic Idealize.ShloMosaic.ValueIdx

variable {α : Type}

/-- A column [a] viewed as [a, 1] reads, at (r, u), the column at r. -/
theorem shapeCast_a_a1_apply {a : ℕ} (x : (⟨1, ![a]⟩ : Shape).Idx → α)
    (h : (⟨1, ![a]⟩ : Shape).ShapeCasts ⟨2, ![a, 1]⟩) (r : Fin a) (u : Fin 1) :
    shapeCast ⟨2, ![a, 1]⟩ x h (ix2 r u) = x (ix1 r) :=
  shapeCast_apply x h _ _ (by
    have hu : u.val = 0 := by omega
    rw [Shape.rowMajor_val_two, Shape.rowMajor_val_one]
    show r.val = r.val * 1 + u.val
    rw [hu, Nat.mul_one, Nat.add_zero])

/-- A matrix [a, c] viewed as [a, 1, c] reads, at (r, u, q), the matrix at (r, q). -/
theorem shapeCast_ac_a1c_apply {a c : ℕ} (x : (⟨2, ![a, c]⟩ : Shape).Idx → α)
    (h : (⟨2, ![a, c]⟩ : Shape).ShapeCasts ⟨3, ![a, 1, c]⟩) (r : Fin a) (u : Fin 1) (q : Fin c) :
    shapeCast ⟨3, ![a, 1, c]⟩ x h (ix3 r u q) = x (ix2 r q) :=
  shapeCast_apply x h _ _ (by
    have hu : u.val = 0 := by omega
    rw [Shape.rowMajor_val_three, Shape.rowMajor_val_two]
    show r.val * c + q.val = (r.val * 1 + u.val) * c + q.val
    rw [hu, Nat.mul_one, Nat.add_zero])

/-- [a, 1, c] broadcast along its middle axis reads, at (r, k, q), the operand at (r, 0, q). -/
theorem broadcastTo_a1c_abc_apply {a b c : ℕ} (x : (⟨3, ![a, 1, c]⟩ : Shape).Idx → α)
    (h : (⟨3, ![a, 1, c]⟩ : Shape).Broadcasts ⟨3, ![a, b, c]⟩) (r : Fin a) (k : Fin b) (q : Fin c) :
    broadcastTo ⟨3, ![a, b, c]⟩ x h (ix3 r k q) = x (ix3 r (0 : Fin 1) q) :=
  broadcastTo_apply x h _ _ (fun ax => match ax with
    | ⟨0, _⟩ => by
      have := r.isLt
      show r.val = if a = 1 then 0 else r.val
      split <;> omega
    | ⟨1, _⟩ => by
      show 0 = if (1 : ℕ) = 1 then 0 else k.val
      rw [if_pos rfl]
    | ⟨2, _⟩ => by
      have := q.isLt
      show q.val = if c = 1 then 0 else q.val
      split <;> omega)

/-- A column [a, 1] broadcast along its unit axis reads, at (r, k), the column at (r, 0). -/
theorem broadcastTo_a1_ab_apply {a b : ℕ} (x : (⟨2, ![a, 1]⟩ : Shape).Idx → α)
    (h : (⟨2, ![a, 1]⟩ : Shape).Broadcasts ⟨2, ![a, b]⟩) (r : Fin a) (k : Fin b) :
    broadcastTo ⟨2, ![a, b]⟩ x h (ix2 r k) = x (ix2 r (0 : Fin 1)) :=
  broadcastTo_apply x h _ _ (fun ax => match ax with
    | ⟨0, _⟩ => by
      have := r.isLt
      show r.val = if a = 1 then 0 else r.val
      split <;> omega
    | ⟨1, _⟩ => by
      show 0 = if (1 : ℕ) = 1 then 0 else k.val
      rw [if_pos rfl])

/-- The index over (r, k) with q inserted on the last of three axes is (r, k, q). -/
theorem lift_last3 {a b c : ℕ} (h : (⟨3, ![a, b, c]⟩ : Shape).Reduces [2] ⟨2, ![a, b]⟩) (r : Fin a) (k : Fin b) (q : Fin c) :
    h.lift (ix2 r k) q = ix3 r k q :=
  funext fun ax => Fin.ext (by match ax with | ⟨0, _⟩ => rfl | ⟨1, _⟩ => rfl | ⟨2, _⟩ => rfl)

/-- The index over (r) with k inserted on the last of two axes is (r, k). -/
theorem lift_last2 {a b : ℕ} (h : (⟨2, ![a, b]⟩ : Shape).Reduces [1] ⟨1, ![a]⟩) (r : Fin a) (k : Fin b) :
    h.lift (ix1 r) k = ix2 r k :=
  funext fun ax => Fin.ext (by match ax with | ⟨0, _⟩ => rfl | ⟨1, _⟩ => rfl)

/-- The index over (q) with r inserted on the first of two axes is (r, q). -/
theorem lift_first2 {a b : ℕ} (h : (⟨2, ![a, b]⟩ : Shape).Reduces [0] ⟨1, ![b]⟩) (r : Fin a) (q : Fin b) :
    h.lift (ix1 q) r = ix2 r q :=
  funext fun ax => Fin.ext (by match ax with | ⟨0, _⟩ => rfl | ⟨1, _⟩ => rfl)

variable {φ : FTy}

/-- A sum over the last of three axes, at (r, k): the sum over q of the source at (r, k, q). -/
theorem sum_last3_apply {a b c : ℕ} (src : FVec Ideal ⟨3, ![a, b, c]⟩ φ) (acc : BitVec φ.bits)
    (h : (⟨3, ![a, b, c]⟩ : Shape).Reduces [2] ⟨2, ![a, b]⟩) (hφ : FKind.Formats φ) (hacc : acc = FKind.add.neutral φ hφ)
    (r : Fin a) (k : Fin b) :
    multiReduction .add [2] ⟨2, ![a, b]⟩ src acc h hφ hacc (ix2 r k) = ∑ q : Fin c, src (ix3 r k q) :=
  (Ideal.multiReduction_add_single src acc h hφ hacc (ix2 r k)).trans
    (Finset.sum_congr rfl fun q _ => congrArg src (lift_last3 h r k q))

/-- A sum over the last of two axes, at (r): the sum over k of the source at (r, k). -/
theorem sum_last2_apply {a b : ℕ} (src : FVec Ideal ⟨2, ![a, b]⟩ φ) (acc : BitVec φ.bits)
    (h : (⟨2, ![a, b]⟩ : Shape).Reduces [1] ⟨1, ![a]⟩) (hφ : FKind.Formats φ) (hacc : acc = FKind.add.neutral φ hφ)
    (r : Fin a) :
    multiReduction .add [1] ⟨1, ![a]⟩ src acc h hφ hacc (ix1 r) = ∑ k : Fin b, src (ix2 r k) :=
  (Ideal.multiReduction_add_single src acc h hφ hacc (ix1 r)).trans
    (Finset.sum_congr rfl fun k _ => congrArg src (lift_last2 h r k))

/-- A sum over the first of two axes, at (q): the sum over r of the source at (r, q). -/
theorem sum_first2_apply {a b : ℕ} (src : FVec Ideal ⟨2, ![a, b]⟩ φ) (acc : BitVec φ.bits)
    (h : (⟨2, ![a, b]⟩ : Shape).Reduces [0] ⟨1, ![b]⟩) (hφ : FKind.Formats φ) (hacc : acc = FKind.add.neutral φ hφ)
    (q : Fin b) :
    multiReduction .add [0] ⟨1, ![b]⟩ src acc h hφ hacc (ix1 q) = ∑ r : Fin a, src (ix2 r q) :=
  (Ideal.multiReduction_add_single src acc h hφ hacc (ix1 q)).trans
    (Finset.sum_congr rfl fun r _ => congrArg src (lift_first2 h r q))

/-- A maximum over the last of two axes, at (r): the fold of max, from the accumulator's value, over k of the
    source at (r, k). -/
theorem max_last2_apply {a b : ℕ} (src : FVec Ideal ⟨2, ![a, b]⟩ φ) (acc : BitVec φ.bits)
    (h : (⟨2, ![a, b]⟩ : Shape).Reduces [1] ⟨1, ![a]⟩) (hφ : FKind.Formats φ) (hacc : acc = FKind.maximumf.neutral φ hφ)
    (r : Fin a) :
    multiReduction .maximumf [1] ⟨1, ![a]⟩ src acc h hφ hacc (ix1 r)
      = (Finset.univ : Finset (Fin b)).fold max (Ideal.ofBits φ acc) (fun k => src (ix2 r k)) :=
  (Ideal.multiReduction_maximumf_single src acc h hφ hacc (ix1 r)).trans
    (congrArg (fun g => (Finset.univ : Finset (Fin b)).fold max (Ideal.ofBits φ acc) g)
      (funext fun k => congrArg src (lift_last2 h r k)))

/-- The host's maximum over the last of two axes, at (r): the same fold, from the initial value's element. -/
theorem host_max_last2_apply {a b : ℕ} {u : Shape} (x : (⟨2, ![a, b]⟩ : Shape).Idx → EReal) (init : u.Idx → EReal)
    (h' : (⟨2, ![a, b]⟩ : Shape).ReducesTo [1] ⟨1, ![a]⟩) (h : (⟨2, ![a, b]⟩ : Shape).Reduces [1] ⟨1, ![a]⟩)
    (hu : 0 < u.numel) (r : Fin a) :
    Host.reduce (FloatOps.maximumf (F := Ideal) (φ := φ)) x init h' hu (ix1 r)
      = (Finset.univ : Finset (Fin b)).fold max (init (Shape.Idx.first hu)) (fun k => x (ix2 r k)) :=
  (Host.reduce_eq_fold_single (FloatOps.maximumf (F := Ideal) (φ := φ)) x init h' h hu (ix1 r)).trans
    (congrArg (fun g => (Finset.univ : Finset (Fin b)).fold max (init (Shape.Idx.first hu)) g)
      (funext fun k => congrArg x (lift_last2 h r k)))

end Cert.Keepdims

end
-- ==== Proof.Region0.lean ====
/- The first layer's kernel region: what its output array holds after the region has run, as one function of the arrays the region reads. -/
import proofs.«108251_j23055384445756_1_alg».proof.Proof.Gen.KernelIdeal.Frame
import proofs.«108251_j23055384445756_1_alg».proof.Proof.Spec
import proofs.«108251_j23055384445756_1_alg».proof.Proof.LibDotPlain
import proofs.«108251_j23055384445756_1_alg».proof.Proof.LibKeepdims
import Idealize.ShloMosaic.Lib.Pipeline.Value
import Idealize.ShloMosaic.Lib.ValueIdx
import Idealize.ShloMosaic.Lib.ValueLayout
import Idealize.ShloMosaic.PureOps.Ideal.Laws

set_option maxRecDepth 16384

noncomputable section

namespace Cert.KernelIdeal.Region0

open Cert.KernelIdeal Cert.KernelIdeal.Gen Idealize.ShloMosaic Idealize.ShloMosaic.TcCoe Idealize.ShloMosaic.ValueIdx
open Idealize.SL Idealize.SL.Sem
open Idealize.ShloMosaic.Pipeline (Dat Cfg Window)
open scoped BigOperators

/-! ## The body's arithmetic at one index -/

theorem zero_offsets2 : (![0, 0] : Fin 2 → Nat) = fun _ => 0 := funext fun a => by fin_cases a <;> rfl

theorem zero_offsets1 : (![0] : Fin 1 → Nat) = fun _ => 0 := funext fun a => by fin_cases a; rfl

/-- The body's value at row r, output feature q of its block: the block's mean row against the neighbour weights plus
    the block's feature row against the own-feature weights, plus the bias at q, clamped below at zero. Rounding to the
    narrower format is the identity on exact values, the casts between equal shapes are identities, each product into
    the zero accumulator is a sum over the contracted coordinate, and the bias, viewed as one row and repeated down the
    rows, reads at (r, q) its entry q. -/
theorem payload_apply (x0 x1 : Vec Ideal S1000x256 .f32) (x2 x4 : Vec Ideal S256x256 .f32) (x3 : Vec Ideal S256 .f32)
    (r : Fin 1000) (q : Fin 256) :
    (k0_pay1 (F := Ideal) x0 x1 x2 x4 x3) (ix2 r q)
      = max (((∑ k : Fin 256, x0 (ix2 r k) * x2 (ix2 k q)) + ∑ k : Fin 256, x1 (ix2 r k) * x4 (ix2 k q)) + x3 (ix1 q))
          (Ideal.ofBits .f32 0x00000000#32) := by
  have hm : ∀ (l : FVec Ideal S1000x256 .bf16) (w : FVec Ideal S256x256 .bf16),
      matmul dot_S1000x256_S256x256_S1000x256_1_0_0_1_n_n none l w (constant (F := Ideal) S1000x256 .f32 0x00000000#32) (ix2 r q)
        = ∑ k : Fin 256, l (ix2 r k) * w (ix2 k q) :=
    fun l w => Cert.DotPlain.matmul_zero_rows_cols dot_S1000x256_S256x256_S1000x256_1_0_0_1_n_n rfl rfl rfl rfl rfl rfl none l w r q
  unfold k0_pay1
  simp only [shapeCast_self]
  rw [maximumf_apply, addf_apply, addf_apply, broadcast_apply, hm, hm]
  simp only [truncf_apply]
  rw [broadcastTo_1b_ab_apply, shapeCast_a_1a_apply]
  rfl

/-! ## Each window's block at a grid point, as part of its array -/

/-- The index maps at grid point t: the row-blocked windows (mean, features, output) are at block (t, 0), the windows
    over a whole array (the two weight matrices and the bias) at block 0. -/
theorem idx_facts : ∀ t : Fin cfg0.N,
    win0_0.index t (0 : Fin 2) = t.val ∧ win0_0.index t (1 : Fin 2) = 0
  ∧ win0_1.index t (0 : Fin 2) = t.val ∧ win0_1.index t (1 : Fin 2) = 0
  ∧ win0_2.index t (0 : Fin 2) = 0 ∧ win0_2.index t (1 : Fin 2) = 0
  ∧ win0_3.index t (0 : Fin 1) = 0
  ∧ win0_4.index t (0 : Fin 2) = 0 ∧ win0_4.index t (1 : Fin 2) = 0
  ∧ win0_5.index t (0 : Fin 2) = t.val ∧ win0_5.index t (1 : Fin 2) = 0 :=
  (by decide +kernel : ∀ t : Fin grid0.N, _)

section Blocks

variable (V : (c : Dev nD) → (b : Ref sig .tc) → Buf (Elt Ideal) ((c : Thread nD τ).loc b))

/-- The neighbour-mean window's block at point t is rows 1000·t … 1000·t + 999 of its array. -/
theorem mean_block (c : Dev nD) (t : Fin cfg0.N) (r : Fin 1000) (k : Fin 256) (i : Fin 50000)
    (hi : i.val = t.val * 1000 + r.val) :
    (iblk0 (F := Ideal) V c 0 t : Vec Ideal S1000x256 .f32) (ix2 r k) = (V c main_v30 : S50000x256.Idx → EReal) (ix2 i k) := by
  unfold iblk0
  rw [View.read_apply]
  show V c main_v30 _ = V c main_v30 _
  congr 1
  funext a; apply Fin.ext
  match a with
  | ⟨0, _⟩ => show win0_0.index t (0 : Fin 2) * 1000 + 1 * r.val = i.val; rw [(idx_facts t).1, hi]; omega
  | ⟨1, _⟩ => show win0_0.index t (1 : Fin 2) * 256 + 1 * k.val = k.val; rw [(idx_facts t).2.1]; omega

/-- The feature window's block at point t is the same rows of its array. -/
theorem self_block (c : Dev nD) (t : Fin cfg0.N) (r : Fin 1000) (k : Fin 256) (i : Fin 50000)
    (hi : i.val = t.val * 1000 + r.val) :
    (iblk0 (F := Ideal) V c 1 t : Vec Ideal S1000x256 .f32) (ix2 r k) = (V c main_arg0 : S50000x256.Idx → EReal) (ix2 i k) := by
  unfold iblk0
  rw [View.read_apply]
  show V c main_arg0 _ = V c main_arg0 _
  congr 1
  funext a; apply Fin.ext
  match a with
  | ⟨0, _⟩ => show win0_1.index t (0 : Fin 2) * 1000 + 1 * r.val = i.val; rw [(idx_facts t).2.2.1, hi]; omega
  | ⟨1, _⟩ => show win0_1.index t (1 : Fin 2) * 256 + 1 * k.val = k.val; rw [(idx_facts t).2.2.2.1]; omega

/-- The neighbour weight window's block at any point is its whole array. -/
theorem wl_block (c : Dev nD) (t : Fin cfg0.N) (k q : Fin 256) :
    (iblk0 (F := Ideal) V c 2 t : Vec Ideal S256x256 .f32) (ix2 k q) = (V c main_v12 : S256x256.Idx → EReal) (ix2 k q) := by
  unfold iblk0
  rw [View.read_apply]
  show V c main_v12 _ = V c main_v12 _
  congr 1
  funext a; apply Fin.ext
  match a with
  | ⟨0, _⟩ => show win0_2.index t (0 : Fin 2) * 256 + 1 * k.val = k.val; rw [(idx_facts t).2.2.2.2.1]; omega
  | ⟨1, _⟩ => show win0_2.index t (1 : Fin 2) * 256 + 1 * q.val = q.val; rw [(idx_facts t).2.2.2.2.2.1]; omega

/-- The bias window's block at any point is its whole array. -/
theorem bias_block (c : Dev nD) (t : Fin cfg0.N) (q : Fin 256) :
    (iblk0 (F := Ideal) V c 3 t : Vec Ideal S256 .f32) (ix1 q) = (V c main_arg3 : S256.Idx → EReal) (ix1 q) := by
  unfold iblk0
  rw [View.read_apply]
  show V c main_arg3 _ = V c main_arg3 _
  congr 1
  funext a; apply Fin.ext
  match a with
  | ⟨0, _⟩ => show win0_3.index t (0 : Fin 1) * 256 + 1 * q.val = q.val; rw [(idx_facts t).2.2.2.2.2.2.1]; omega

/-- The own-feature weight window's block at any point is its whole array. -/
theorem wr_block (c : Dev nD) (t : Fin cfg0.N) (k q : Fin 256) :
    (iblk0 (F := Ideal) V c 4 t : Vec Ideal S256x256 .f32) (ix2 k q) = (V c main_v13 : S256x256.Idx → EReal) (ix2 k q) := by
  unfold iblk0
  rw [View.read_apply]
  show V c main_v13 _ = V c main_v13 _
  congr 1
  funext a; apply Fin.ext
  match a with
  | ⟨0, _⟩ => show win0_4.index t (0 : Fin 2) * 256 + 1 * k.val = k.val; rw [(idx_facts t).2.2.2.2.2.2.2.1]; omega
  | ⟨1, _⟩ => show win0_4.index t (1 : Fin 2) * 256 + 1 * q.val = q.val; rw [(idx_facts t).2.2.2.2.2.2.2.2.1]; omega

/-! ## From the blocks to the array -/

/-- The body's value on point t's blocks, at row r of the block, is the hidden layer at row 1000·t + r of the arrays. -/
theorem body_block (c : Dev nD) (t : Fin cfg0.N) (r : Fin 1000) (q : Fin 256) (i : Fin 50000)
    (hi : i.val = t.val * 1000 + r.val) :
    k0_pay1 (F := Ideal) (iblk0 V c 0 t) (iblk0 V c 1 t) (iblk0 V c 2 t) (iblk0 V c 4 t) (iblk0 V c 3 t) (ix2 r q)
      = Cert.Sage.hidden (V c main_v30) (V c main_arg0) (V c main_v12) (V c main_v13) (V c main_arg3) (ix2 i q) := by
  rw [payload_apply, Cert.Sage.hidden_apply]
  unfold Cert.Sage.linAt
  rw [bias_block V c t q]
  simp only [mean_block V c t r _ i hi, self_block V c t r _ i hi, wl_block V c t, wr_block V c t]

/-- The same, at any index of the block and any index of the array in that row and the same column. -/
theorem body_block_idx (c : Dev nD) (t : Fin cfg0.N) (j : S1000x256.Idx) (i : S50000x256.Idx)
    (h0 : (i 0).val = t.val * 1000 + (j 0).val) (h1 : (i 1).val = (j 1).val) :
    k0_pay1 (F := Ideal) (iblk0 V c 0 t) (iblk0 V c 1 t) (iblk0 V c 2 t) (iblk0 V c 4 t) (iblk0 V c 3 t) j
      = Cert.Sage.hidden (V c main_v30) (V c main_arg0) (V c main_v12) (V c main_v13) (V c main_arg3) i := by
  obtain ⟨r, q, rfl⟩ : ∃ (r : Fin 1000) (q : Fin 256), j = ix2 r q := ⟨j 0, j 1, eq_ix2 j⟩
  obtain ⟨a, b, rfl⟩ : ∃ (a : Fin 50000) (b : Fin 256), i = ix2 a b := ⟨i 0, i 1, eq_ix2 i⟩
  obtain rfl : b = q := Fin.ext h1
  exact body_block V c t r b a h0

/-- What point t writes back is block t of the hidden layer of the arrays as the region finds them: the one store
    through the whole staging buffer leaves the body's value, whose loads through whole buffers read the blocks. -/
theorem flushed_eq (c : Dev nD) (t : Fin cfg0.N) :
    (dat0 (F := Ideal) V c).flushed 5 t
      = ((cfg0.win 5).blk t).view.read (Elt Ideal)
          (Cert.Sage.hidden (V c main_v30) (V c main_arg0) (V c main_v12) (V c main_v13) (V c main_arg3)) := by
  show (cfg0.win 5).cut (grid0.coords t) ((dat0 V c).after 5 t) = _
  rw [after0_5]
  unfold out0_5
  rw [View.canon_unit_zero zero_offsets2]
  simp only [View.ld_unit_zero (S := S1000x256) zero_offsets2, View.ld_unit_zero (S := S256x256) zero_offsets2,
    View.ld_unit_zero (S := S256) zero_offsets1]
  funext j
  show k0_pay1 (F := Ideal) (iblk0 V c 0 t) (iblk0 V c 1 t) (iblk0 V c 2 t) (iblk0 V c 4 t) (iblk0 V c 3 t) j
      = Cert.Sage.hidden (V c main_v30) (V c main_arg0) (V c main_v12) (V c main_v13) (V c main_arg3)
          (((cfg0.win 5).blk t).view.emb j)
  -- an element of the block sits in the array at block index × block size + its own coordinate, axis by axis
  refine body_block_idx V c t j _ ?_ ?_
  · show win0_5.index t (0 : Fin 2) * 1000 + 1 * (j 0).val = t.val * 1000 + (j 0).val
    rw [(idx_facts t).2.2.2.2.2.2.2.2.2.1]; omega
  · show win0_5.index t (1 : Fin 2) * 256 + 1 * (j 1).val = (j 1).val
    rw [(idx_facts t).2.2.2.2.2.2.2.2.2.2]; omega

end Blocks

/-- An index of the output array is in point t's block iff each coordinate is in the block's range on its axis. -/
theorem mem_blk (t : Fin cfg0.N) (i : S50000x256.Idx) :
    i ∈ ((cfg0.win 5).blk t).view.set ↔ ∀ a : Fin 2, win0_5.index t a * S1000x256.size a ≤ (i a).val
      ∧ (i a).val < win0_5.index t a * S1000x256.size a + S1000x256.size a := by
  show i ∈ ((View.whole main_v31).slice (win0_5.rect t)).set ↔ _
  rw [View.set_slice_whole, Rect.mem_set_unit]
  exact Iff.rfl

/-- Every index of the output array lies in the block of the point numbered by its row's quotient by 1000, and that
    point writes its block back. -/
theorem cover (i : S50000x256.Idx) :
    ∃ t : Fin cfg0.N, (cfg0.win 5).flush t = true ∧ i ∈ ((cfg0.win 5).blk t).view.set := by
  have hi0 : (i 0).val < 50000 := (i 0).isLt
  have hi1 : (i 1).val < 256 := (i 1).isLt
  have hN : cfg0.N = 50 := N_0
  refine ⟨⟨(i 0).val / 1000, by rw [hN]; omega⟩, flush0_5 _, ?_⟩
  rw [mem_blk]
  intro a
  match a with
  | ⟨0, _⟩ =>
    show win0_5.index _ (0 : Fin 2) * 1000 ≤ (i 0).val ∧ (i 0).val < win0_5.index _ (0 : Fin 2) * 1000 + 1000
    rw [(idx_facts _).2.2.2.2.2.2.2.2.2.1]
    show (i 0).val / 1000 * 1000 ≤ (i 0).val ∧ (i 0).val < (i 0).val / 1000 * 1000 + 1000
    omega
  | ⟨1, _⟩ =>
    show win0_5.index _ (1 : Fin 2) * 256 ≤ (i 1).val ∧ (i 1).val < win0_5.index _ (1 : Fin 2) * 256 + 256
    rw [(idx_facts _).2.2.2.2.2.2.2.2.2.2]
    omega

/-- The array the region's output window ends holding, whatever contents `V` the region is entered with. -/
theorem value (V : (c : Dev nD) → (b : Ref sig .tc) → Buf (Elt Ideal) ((c : Thread nD τ).loc b)) (c : Dev nD) :
    (dat0 (F := Ideal) V c).arrAt 5 cfg0.N
      = Cert.Sage.hidden (V c main_v30) (V c main_arg0) (V c main_v12) (V c main_v13) (V c main_arg3) :=
  (dat0 (F := Ideal) V c).arrAt_eq_of_cover 5 _ (fun t _ => flushed_eq V c t) cover

end Cert.KernelIdeal.Region0

end
-- ==== Proof.Region1.lean ====
/- The second layer's kernel region: what its output array holds after the region has run, as one function of the arrays the region reads. -/
import proofs.«108251_j23055384445756_1_alg».proof.Proof.Gen.KernelIdeal.Frame
import proofs.«108251_j23055384445756_1_alg».proof.Proof.Spec
import proofs.«108251_j23055384445756_1_alg».proof.Proof.LibDotPlain
import proofs.«108251_j23055384445756_1_alg».proof.Proof.LibKeepdims
import Idealize.ShloMosaic.Lib.Pipeline.Value
import Idealize.ShloMosaic.Lib.ValueIdx
import Idealize.ShloMosaic.Lib.ValueLayout
import Idealize.ShloMosaic.PureOps.Ideal.Laws

set_option maxRecDepth 16384

noncomputable section

namespace Cert.KernelIdeal.Region1

open Cert.KernelIdeal Cert.KernelIdeal.Gen Idealize.ShloMosaic Idealize.ShloMosaic.TcCoe Idealize.ShloMosaic.ValueIdx
open Idealize.SL Idealize.SL.Sem
open Idealize.ShloMosaic.Pipeline (Dat Cfg Window)
open scoped BigOperators

/-! ## The body's arithmetic at one index -/

theorem zero_offsets2 : (![0, 0] : Fin 2 → Nat) = fun _ => 0 := funext fun a => by fin_cases a <;> rfl

theorem zero_offsets1 : (![0] : Fin 1 → Nat) = fun _ => 0 := funext fun a => by fin_cases a; rfl

/-- The body's value at row r, output feature q of its block: the block's mean row against the neighbour weights plus
    the block's feature row against the own-feature weights, plus the bias at q, clamped below at zero. Rounding to the
    narrower format is the identity on exact values, the casts between equal shapes (here on both row-blocked operands
    and both weight matrices) are identities, each product into the zero accumulator is a sum over the contracted
    coordinate, and the bias, viewed as one row and repeated down the rows, reads at (r, q) its entry q. -/
theorem payload_apply (x0 x1 : Vec Ideal S1000x256 .f32) (x2 x4 : Vec Ideal S256x256 .f32) (x3 : Vec Ideal S256 .f32)
    (r : Fin 1000) (q : Fin 256) :
    (k1_pay1 (F := Ideal) x0 x1 x2 x4 x3) (ix2 r q)
      = max (((∑ k : Fin 256, x0 (ix2 r k) * x2 (ix2 k q)) + ∑ k : Fin 256, x1 (ix2 r k) * x4 (ix2 k q)) + x3 (ix1 q))
          (Ideal.ofBits .f32 0x00000000#32) := by
  have hm : ∀ (l : FVec Ideal S1000x256 .bf16) (w : FVec Ideal S256x256 .bf16),
      matmul dot_S1000x256_S256x256_S1000x256_1_0_0_1_n_n none l w (constant (F := Ideal) S1000x256 .f32 0x00000000#32) (ix2 r q)
        = ∑ k : Fin 256, l (ix2 r k) * w (ix2 k q) :=
    fun l w => Cert.DotPlain.matmul_zero_rows_cols dot_S1000x256_S256x256_S1000x256_1_0_0_1_n_n rfl rfl rfl rfl rfl rfl none l w r q
  unfold k1_pay1
  simp only [shapeCast_self]
  rw [maximumf_apply, addf_apply, addf_apply, broadcast_apply, hm, hm]
  simp only [truncf_apply]
  rw [broadcastTo_1b_ab_apply, shapeCast_a_1a_apply]
  rfl

/-! ## Each window's block at a grid point, as part of its array -/

/-- The index maps at grid point t: the row-blocked windows (mean, features, output) are at block (t, 0), the windows
    over a whole array (the two weight matrices and the bias) at block 0. -/
theorem idx_facts : ∀ t : Fin cfg1.N,
    win1_0.index t (0 : Fin 2) = t.val ∧ win1_0.index t (1 : Fin 2) = 0
  ∧ win1_1.index t (0 : Fin 2) = t.val ∧ win1_1.index t (1 : Fin 2) = 0
  ∧ win1_2.index t (0 : Fin 2) = 0 ∧ win1_2.index t (1 : Fin 2) = 0
  ∧ win1_3.index t (0 : Fin 1) = 0
  ∧ win1_4.index t (0 : Fin 2) = 0 ∧ win1_4.index t (1 : Fin 2) = 0
  ∧ win1_5.index t (0 : Fin 2) = t.val ∧ win1_5.index t (1 : Fin 2) = 0 :=
  (by decide +kernel : ∀ t : Fin grid1.N, _)

section Blocks

variable (V : (c : Dev nD) → (b : Ref sig .tc) → Buf (Elt Ideal) ((c : Thread nD τ).loc b))

/-- The neighbour-mean window's block at point t is rows 1000·t … 1000·t + 999 of its array. -/
theorem mean_block (c : Dev nD) (t : Fin cfg1.N) (r : Fin 1000) (k : Fin 256) (i : Fin 50000)
    (hi : i.val = t.val * 1000 + r.val) :
    (iblk1 (F := Ideal) V c 0 t : Vec Ideal S1000x256 .f32) (ix2 r k) = (V c main_v44 : S50000x256.Idx → EReal) (ix2 i k) := by
  unfold iblk1
  rw [View.read_apply]
  show V c main_v44 _ = V c main_v44 _
  congr 1
  funext a; apply Fin.ext
  match a with
  | ⟨0, _⟩ => show win1_0.index t (0 : Fin 2) * 1000 + 1 * r.val = i.val; rw [(idx_facts t).1, hi]; omega
  | ⟨1, _⟩ => show win1_0.index t (1 : Fin 2) * 256 + 1 * k.val = k.val; rw [(idx_facts t).2.1]; omega

/-- The feature window's block at point t is the same rows of its array. -/
theorem self_block (c : Dev nD) (t : Fin cfg1.N) (r : Fin 1000) (k : Fin 256) (i : Fin 50000)
    (hi : i.val = t.val * 1000 + r.val) :
    (iblk1 (F := Ideal) V c 1 t : Vec Ideal S1000x256 .f32) (ix2 r k) = (V c main_v31 : S50000x256.Idx → EReal) (ix2 i k) := by
  unfold iblk1
  rw [View.read_apply]
  show V c main_v31 _ = V c main_v31 _
  congr 1
  funext a; apply Fin.ext
  match a with
  | ⟨0, _⟩ => show win1_1.index t (0 : Fin 2) * 1000 + 1 * r.val = i.val; rw [(idx_facts t).2.2.1, hi]; omega
  | ⟨1, _⟩ => show win1_1.index t (1 : Fin 2) * 256 + 1 * k.val = k.val; rw [(idx_facts t).2.2.2.1]; omega

/-- The neighbour weight window's block at any point is its whole array. -/
theorem wl_block (c : Dev nD) (t : Fin cfg1.N) (k q : Fin 256) :
    (iblk1 (F := Ideal) V c 2 t : Vec Ideal S256x256 .f32) (ix2 k q) = (V c main_v14 : S256x256.Idx → EReal) (ix2 k q) := by
  unfold iblk1
  rw [View.read_apply]
  show V c main_v14 _ = V c main_v14 _
  congr 1
  funext a; apply Fin.ext
  match a with
  | ⟨0, _⟩ => show win1_2.index t (0 : Fin 2) * 256 + 1 * k.val = k.val; rw [(idx_facts t).2.2.2.2.1]; omega
  | ⟨1, _⟩ => show win1_2.index t (1 : Fin 2) * 256 + 1 * q.val = q.val; rw [(idx_facts t).2.2.2.2.2.1]; omega

/-- The bias window's block at any point is its whole array. -/
theorem bias_block (c : Dev nD) (t : Fin cfg1.N) (q : Fin 256) :
    (iblk1 (F := Ideal) V c 3 t : Vec Ideal S256 .f32) (ix1 q) = (V c main_arg6 : S256.Idx → EReal) (ix1 q) := by
  unfold iblk1
  rw [View.read_apply]
  show V c main_arg6 _ = V c main_arg6 _
  congr 1
  funext a; apply Fin.ext
  match a with
  | ⟨0, _⟩ => show win1_3.index t (0 : Fin 1) * 256 + 1 * q.val = q.val; rw [(idx_facts t).2.2.2.2.2.2.1]; omega

/-- The own-feature weight window's block at any point is its whole array. -/
theorem wr_block (c : Dev nD) (t : Fin cfg1.N) (k q : Fin 256) :
    (iblk1 (F := Ideal) V c 4 t : Vec Ideal S256x256 .f32) (ix2 k q) = (V c main_v15 : S256x256.Idx → EReal) (ix2 k q) := by
  unfold iblk1
  rw [View.read_apply]
  show V c main_v15 _ = V c main_v15 _
  congr 1
  funext a; apply Fin.ext
  match a with
  | ⟨0, _⟩ => show win1_4.index t (0 : Fin 2) * 256 + 1 * k.val = k.val; rw [(idx_facts t).2.2.2.2.2.2.2.1]; omega
  | ⟨1, _⟩ => show win1_4.index t (1 : Fin 2) * 256 + 1 * q.val = q.val; rw [(idx_facts t).2.2.2.2.2.2.2.2.1]; omega

/-! ## From the blocks to the array -/

/-- The body's value on point t's blocks, at row r of the block, is the hidden layer at row 1000·t + r of the arrays. -/
theorem body_block (c : Dev nD) (t : Fin cfg1.N) (r : Fin 1000) (q : Fin 256) (i : Fin 50000)
    (hi : i.val = t.val * 1000 + r.val) :
    k1_pay1 (F := Ideal) (iblk1 V c 0 t) (iblk1 V c 1 t) (iblk1 V c 2 t) (iblk1 V c 4 t) (iblk1 V c 3 t) (ix2 r q)
      = Cert.Sage.hidden (V c main_v44) (V c main_v31) (V c main_v14) (V c main_v15) (V c main_arg6) (ix2 i q) := by
  rw [payload_apply, Cert.Sage.hidden_apply]
  unfold Cert.Sage.linAt
  rw [bias_block V c t q]
  simp only [mean_block V c t r _ i hi, self_block V c t r _ i hi, wl_block V c t, wr_block V c t]

/-- The same, at any index of the block and any index of the array in that row and the same column. -/
theorem body_block_idx (c : Dev nD) (t : Fin cfg1.N) (j : S1000x256.Idx) (i : S50000x256.Idx)
    (h0 : (i 0).val = t.val * 1000 + (j 0).val) (h1 : (i 1).val = (j 1).val) :
    k1_pay1 (F := Ideal) (iblk1 V c 0 t) (iblk1 V c 1 t) (iblk1 V c 2 t) (iblk1 V c 4 t) (iblk1 V c 3 t) j
      = Cert.Sage.hidden (V c main_v44) (V c main_v31) (V c main_v14) (V c main_v15) (V c main_arg6) i := by
  obtain ⟨r, q, rfl⟩ : ∃ (r : Fin 1000) (q : Fin 256), j = ix2 r q := ⟨j 0, j 1, eq_ix2 j⟩
  obtain ⟨a, b, rfl⟩ : ∃ (a : Fin 50000) (b : Fin 256), i = ix2 a b := ⟨i 0, i 1, eq_ix2 i⟩
  obtain rfl : b = q := Fin.ext h1
  exact body_block V c t r b a h0

/-- What point t writes back is block t of the hidden layer of the arrays as the region finds them: the one store
    through the whole staging buffer leaves the body's value, whose loads through whole buffers read the blocks. -/
theorem flushed_eq (c : Dev nD) (t : Fin cfg1.N) :
    (dat1 (F := Ideal) V c).flushed 5 t
      = ((cfg1.win 5).blk t).view.read (Elt Ideal)
          (Cert.Sage.hidden (V c main_v44) (V c main_v31) (V c main_v14) (V c main_v15) (V c main_arg6)) := by
  show (cfg1.win 5).cut (grid1.coords t) ((dat1 V c).after 5 t) = _
  rw [after1_5]
  unfold out1_5
  rw [View.canon_unit_zero zero_offsets2]
  simp only [View.ld_unit_zero (S := S1000x256) zero_offsets2, View.ld_unit_zero (S := S256x256) zero_offsets2,
    View.ld_unit_zero (S := S256) zero_offsets1]
  funext j
  show k1_pay1 (F := Ideal) (iblk1 V c 0 t) (iblk1 V c 1 t) (iblk1 V c 2 t) (iblk1 V c 4 t) (iblk1 V c 3 t) j
      = Cert.Sage.hidden (V c main_v44) (V c main_v31) (V c main_v14) (V c main_v15) (V c main_arg6)
          (((cfg1.win 5).blk t).view.emb j)
  -- an element of the block sits in the array at block index × block size + its own coordinate, axis by axis
  refine body_block_idx V c t j _ ?_ ?_
  · show win1_5.index t (0 : Fin 2) * 1000 + 1 * (j 0).val = t.val * 1000 + (j 0).val
    rw [(idx_facts t).2.2.2.2.2.2.2.2.2.1]; omega
  · show win1_5.index t (1 : Fin 2) * 256 + 1 * (j 1).val = (j 1).val
    rw [(idx_facts t).2.2.2.2.2.2.2.2.2.2]; omega

end Blocks

/-- An index of the output array is in point t's block iff each coordinate is in the block's range on its axis. -/
theorem mem_blk (t : Fin cfg1.N) (i : S50000x256.Idx) :
    i ∈ ((cfg1.win 5).blk t).view.set ↔ ∀ a : Fin 2, win1_5.index t a * S1000x256.size a ≤ (i a).val
      ∧ (i a).val < win1_5.index t a * S1000x256.size a + S1000x256.size a := by
  show i ∈ ((View.whole main_v45).slice (win1_5.rect t)).set ↔ _
  rw [View.set_slice_whole, Rect.mem_set_unit]
  exact Iff.rfl

/-- Every index of the output array lies in the block of the point numbered by its row's quotient by 1000, and that
    point writes its block back. -/
theorem cover (i : S50000x256.Idx) :
    ∃ t : Fin cfg1.N, (cfg1.win 5).flush t = true ∧ i ∈ ((cfg1.win 5).blk t).view.set := by
  have hi0 : (i 0).val < 50000 := (i 0).isLt
  have hi1 : (i 1).val < 256 := (i 1).isLt
  have hN : cfg1.N = 50 := N_1
  refine ⟨⟨(i 0).val / 1000, by rw [hN]; omega⟩, flush1_5 _, ?_⟩
  rw [mem_blk]
  intro a
  match a with
  | ⟨0, _⟩ =>
    show win1_5.index _ (0 : Fin 2) * 1000 ≤ (i 0).val ∧ (i 0).val < win1_5.index _ (0 : Fin 2) * 1000 + 1000
    rw [(idx_facts _).2.2.2.2.2.2.2.2.2.1]
    show (i 0).val / 1000 * 1000 ≤ (i 0).val ∧ (i 0).val < (i 0).val / 1000 * 1000 + 1000
    omega
  | ⟨1, _⟩ =>
    show win1_5.index _ (1 : Fin 2) * 256 ≤ (i 1).val ∧ (i 1).val < win1_5.index _ (1 : Fin 2) * 256 + 256
    rw [(idx_facts _).2.2.2.2.2.2.2.2.2.2]
    omega

/-- The array the region's output window ends holding, whatever contents `V` the region is entered with. -/
theorem value (V : (c : Dev nD) → (b : Ref sig .tc) → Buf (Elt Ideal) ((c : Thread nD τ).loc b)) (c : Dev nD) :
    (dat1 (F := Ideal) V c).arrAt 5 cfg1.N
      = Cert.Sage.hidden (V c main_v44) (V c main_v31) (V c main_v14) (V c main_v15) (V c main_arg6) :=
  (dat1 (F := Ideal) V c).arrAt_eq_of_cover 5 _ (fun t _ => flushed_eq V c t) cover

end Cert.KernelIdeal.Region1

end
-- ==== Proof.Region2.lean ====
/- The last layer's kernel region: what its output array holds after the region has run, as one function of the arrays the region reads. -/
import proofs.«108251_j23055384445756_1_alg».proof.Proof.Gen.KernelIdeal.Frame
import proofs.«108251_j23055384445756_1_alg».proof.Proof.Spec
import proofs.«108251_j23055384445756_1_alg».proof.Proof.LibDotPlain
import proofs.«108251_j23055384445756_1_alg».proof.Proof.LibKeepdims
import Idealize.ShloMosaic.Lib.Pipeline.Value
import Idealize.ShloMosaic.Lib.ValueIdx
import Idealize.ShloMosaic.Lib.ValueLayout
import Idealize.ShloMosaic.PureOps.Ideal.Laws

set_option maxRecDepth 16384

noncomputable section

namespace Cert.KernelIdeal.Region2

open Cert.KernelIdeal Cert.KernelIdeal.Gen Idealize.ShloMosaic Idealize.ShloMosaic.TcCoe Idealize.ShloMosaic.ValueIdx
open Idealize.SL Idealize.SL.Sem
open Idealize.ShloMosaic.Pipeline (Dat Cfg Window)
open scoped BigOperators

/-- The affine part of the layer on one block of rows, as the body forms it: the two products into zero accumulators
    added, then the bias as a row over every row. -/
def affV (x0 x1 : Vec Ideal S1000x256 .f32) (x2 x4 : Vec Ideal S256x47 .f32) (x3 : Vec Ideal S47 .f32) :
    FVec Ideal S1000x47 .f32 :=
  addf (F := Ideal)
    (addf (F := Ideal)
      (matmul (F := Ideal) dot_S1000x256_S256x47_S1000x47_1_0_0_1_n_n none (truncf (F := Ideal) .bf16 x0 bitsLt_bf16_f32)
        (truncf (F := Ideal) .bf16 x2 bitsLt_bf16_f32) (constant (F := Ideal) S1000x47 .f32 0x00000000#32))
      (matmul (F := Ideal) dot_S1000x256_S256x47_S1000x47_1_0_0_1_n_n none (truncf (F := Ideal) .bf16 x1 bitsLt_bf16_f32)
        (truncf (F := Ideal) .bf16 x4 bitsLt_bf16_f32) (constant (F := Ideal) S1000x47 .f32 0x00000000#32)))
    (broadcastTo S1000x47 (shapeCast S1x47 x3 shapeCasts_S47_S1x47) broadcasts_S1x47_S1000x47)

/-- Row-wise log-softmax of one block, as the body forms it: the row maximum kept as a column and spread over the row,
    subtracted; the exponentials summed along the row, the sum's logarithm kept as a column, spread and subtracted. -/
def lsmV (o : FVec Ideal S1000x47 .f32) : FVec Ideal S1000x47 .f32 :=
  subf (F := Ideal)
    (subf (F := Ideal) o
      (broadcastTo S1000x47
        (shapeCast S1000x1
          (multiReduction (F := Ideal) .maximumf [1] S1000 o 0xFF800000#32 reduces_S1000x47_S1000 (.inl rfl) rfl)
          shapeCasts_S1000_S1000x1)
        broadcasts_S1000x1_S1000x47))
    (broadcastTo S1000x47
      (log (F := Ideal)
        (shapeCast S1000x1
          (multiReduction (F := Ideal) .add [1] S1000
            (exp (F := Ideal)
              (subf (F := Ideal) o
                (broadcastTo S1000x47
                  (shapeCast S1000x1
                    (multiReduction (F := Ideal) .maximumf [1] S1000 o 0xFF800000#32 reduces_S1000x47_S1000 (.inl rfl) rfl)
                    shapeCasts_S1000_S1000x1)
                  broadcasts_S1000x1_S1000x47)))
            0x00000000#32 reduces_S1000x47_S1000 (.inl rfl) rfl)
          shapeCasts_S1000_S1000x1))
      broadcasts_S1000x1_S1000x47)

/-- The body's payload is the block log-softmax of the block's affine part. -/
theorem pay_eq (x0 x1 : Vec Ideal S1000x256 .f32) (x2 x4 : Vec Ideal S256x47 .f32) (x3 : Vec Ideal S47 .f32) :
    k2_pay1 (F := Ideal) x0 x1 x2 x4 x3 = lsmV (affV x0 x1 x2 x4 x3) := by
  unfold k2_pay1
  simp only [shapeCast_self]
  rfl

/-- The block's affine part at row r, column c: the two sums over the 256 features, then the bias. -/
theorem affV_apply (x0 x1 : Vec Ideal S1000x256 .f32) (x2 x4 : Vec Ideal S256x47 .f32) (x3 : Vec Ideal S47 .f32)
    (r : Fin 1000) (c : Fin 47) :
    affV x0 x1 x2 x4 x3 (ix2 r c)
      = ((∑ k : Fin 256, x0 (ix2 r k) * x2 (ix2 k c)) + ∑ k : Fin 256, x1 (ix2 r k) * x4 (ix2 k c)) + x3 (ix1 c) := by
  have h1 := Cert.DotPlain.matmul_zero_rows_cols dot_S1000x256_S256x47_S1000x47_1_0_0_1_n_n rfl rfl rfl rfl rfl rfl none
    (truncf (F := Ideal) .bf16 x0 bitsLt_bf16_f32) (truncf (F := Ideal) .bf16 x2 bitsLt_bf16_f32) r c
  have h2 := Cert.DotPlain.matmul_zero_rows_cols dot_S1000x256_S256x47_S1000x47_1_0_0_1_n_n rfl rfl rfl rfl rfl rfl none
    (truncf (F := Ideal) .bf16 x1 bitsLt_bf16_f32) (truncf (F := Ideal) .bf16 x4 bitsLt_bf16_f32) r c
  have hb : broadcastTo S1000x47 (shapeCast S1x47 x3 shapeCasts_S47_S1x47) broadcasts_S1x47_S1000x47 (ix2 r c) = x3 (ix1 c) :=
    (broadcastTo_1b_ab_apply _ _ r c).trans (shapeCast_a_1a_apply x3 _ 0 c)
  exact congrArg₂ (· + ·) (congrArg₂ (· + ·) h1 h2) hb

/-- The maximum of row r of a block, folded from minus infinity. -/
def rowMaxB (o : FVec Ideal S1000x47 .f32) (r : Fin 1000) : EReal :=
  (Finset.univ : Finset (Fin 47)).fold max (Ideal.ofBits .f32 0xFF800000#32) (fun k => o (ix2 r k))

/-- The row maximum kept as a column and spread over the row reads, anywhere in row r, that row's maximum. -/
theorem maxCol_apply (o : FVec Ideal S1000x47 .f32) (r : Fin 1000) (k : Fin 47) :
    broadcastTo S1000x47
        (shapeCast S1000x1
          (multiReduction (F := Ideal) .maximumf [1] S1000 o 0xFF800000#32 reduces_S1000x47_S1000 (.inl rfl) rfl)
          shapeCasts_S1000_S1000x1)
        broadcasts_S1000x1_S1000x47 (ix2 r k) = rowMaxB o r :=
  (Cert.Keepdims.broadcastTo_a1_ab_apply _ _ r k).trans
    ((Cert.Keepdims.shapeCast_a_a1_apply _ _ r 0).trans (Cert.Keepdims.max_last2_apply o _ _ _ _ r))

/-- The block log-softmax at row r, column c. -/
theorem lsmV_apply (o : FVec Ideal S1000x47 .f32) (r : Fin 1000) (c : Fin 47) :
    lsmV o (ix2 r c)
      = (o (ix2 r c) - rowMaxB o r) - Ideal.log (∑ k : Fin 47, Ideal.exp (o (ix2 r k) - rowMaxB o r)) := by
  unfold lsmV
  rw [subf_apply, subf_apply, maxCol_apply]
  refine congrArg (fun z => (o (ix2 r c) - rowMaxB o r) - z) ?_
  refine (Cert.Keepdims.broadcastTo_a1_ab_apply _ _ r c).trans ?_
  show Ideal.log (shapeCast S1000x1 _ shapeCasts_S1000_S1000x1 (ix2 r (0 : Fin 1))) = _
  refine congrArg Ideal.log ?_
  refine (Cert.Keepdims.shapeCast_a_a1_apply _ _ r 0).trans ?_
  refine (Cert.Keepdims.sum_last2_apply _ _ _ _ _ r).trans ?_
  refine Finset.sum_congr rfl fun k _ => ?_
  show Ideal.exp (o (ix2 r k) - _) = _
  rw [maxCol_apply]

/-! ## One block of the output as rows of the whole array's log-softmax -/

/-- If a block's two row-blocked inputs are rows n·1000 … of the arrays and its weights and bias are the whole arrays,
    the block log-softmax of its affine part at (r, c) is the whole array's at (n·1000 + r, c). -/
theorem block_lsm (mean h : S50000x256.Idx → EReal) (wl wr : S256x47.Idx → EReal) (b : S47.Idx → EReal)
    (x0 x1 : Vec Ideal S1000x256 .f32) (x2 x4 : Vec Ideal S256x47 .f32) (x3 : Vec Ideal S47 .f32) (n : ℕ)
    (h0 : ∀ (r : Fin 1000) (k : Fin 256) (i : Fin 50000), i.val = n * 1000 + r.val → x0 (ix2 r k) = mean (ix2 i k))
    (h1 : ∀ (r : Fin 1000) (k : Fin 256) (i : Fin 50000), i.val = n * 1000 + r.val → x1 (ix2 r k) = h (ix2 i k))
    (h2 : x2 = wl) (h4 : x4 = wr) (h3 : x3 = b)
    (r : Fin 1000) (c : Fin 47) (i : Fin 50000) (hi : i.val = n * 1000 + r.val) :
    lsmV (affV x0 x1 x2 x4 x3) (ix2 r c) = Cert.Sage.logSoftmax (Cert.Sage.lin mean h wl wr b) (ix2 i c) := by
  subst h2 h4 h3
  -- the affine part of the block's row r is the array's row i
  have haff : ∀ k : Fin 47, affV x0 x1 x2 x4 x3 (ix2 r k) = Cert.Sage.lin mean h x2 x4 x3 (ix2 i k) := fun k => by
    rw [affV_apply, Cert.Sage.lin_apply]
    unfold Cert.Sage.linAt
    congr 2
    · exact Finset.sum_congr rfl fun q _ => by rw [h0 r q i hi]
    · exact Finset.sum_congr rfl fun q _ => by rw [h1 r q i hi]
  have hmax : rowMaxB (affV x0 x1 x2 x4 x3) r = Cert.Sage.rowMax (Cert.Sage.lin mean h x2 x4 x3) i := by
    unfold rowMaxB Cert.Sage.rowMax
    exact congrArg (fun g => (Finset.univ : Finset (Fin 47)).fold max (Ideal.ofBits .f32 0xFF800000#32) g) (funext haff)
  rw [lsmV_apply, Cert.Sage.logSoftmax_apply]
  unfold Cert.Sage.lsmAt
  rw [hmax]
  simp only [haff]

/-! ## The blocks a point reads and writes -/

/-- The windows' block indices at every point of the grid: point t's blocks of the two row-blocked inputs and of the
    output are block (t, 0); the weights' and the bias's block is the whole array. -/
theorem idx_facts : ∀ t : Fin cfg2.N,
    win2_0.index t (0 : Fin 2) = t.val ∧ win2_0.index t (1 : Fin 2) = 0
    ∧ win2_1.index t (0 : Fin 2) = t.val ∧ win2_1.index t (1 : Fin 2) = 0
    ∧ win2_2.index t (0 : Fin 2) = 0 ∧ win2_2.index t (1 : Fin 2) = 0
    ∧ win2_3.index t (0 : Fin 1) = 0
    ∧ win2_4.index t (0 : Fin 2) = 0 ∧ win2_4.index t (1 : Fin 2) = 0
    ∧ win2_5.index t (0 : Fin 2) = t.val ∧ win2_5.index t (1 : Fin 2) = 0 :=
  (by decide +kernel : ∀ t : Fin grid2.N, _)

section Blocks

variable (V : (c : Dev nD) → (b : Ref sig .tc) → Buf (Elt Ideal) ((c : Thread nD τ).loc b)) (c : Dev nD)

/-- Point t's block of the neighbour means is rows 1000·t … 1000·t + 999 of the array. -/
theorem iblk_mean_apply (t : Fin cfg2.N) (r : Fin 1000) (k : Fin 256) (i : Fin 50000) (hi : i.val = t.val * 1000 + r.val) :
    (iblk2 (F := Ideal) V c 0 t : Vec Ideal S1000x256 .f32) (ix2 r k)
      = (V c main_v58 : S50000x256.Idx → EReal) (ix2 i k) := by
  obtain ⟨e0, e1, -⟩ := idx_facts t
  unfold iblk2
  rw [View.read_apply]
  show V c main_v58 _ = V c main_v58 _
  congr 1
  funext a
  apply Fin.ext
  match a with
  | ⟨0, _⟩ => show win2_0.index t (0 : Fin 2) * 1000 + 1 * r.val = i.val; omega
  | ⟨1, _⟩ => show win2_0.index t (1 : Fin 2) * 256 + 1 * k.val = k.val; omega

/-- Point t's block of the node features is rows 1000·t … 1000·t + 999 of the array. -/
theorem iblk_feat_apply (t : Fin cfg2.N) (r : Fin 1000) (k : Fin 256) (i : Fin 50000) (hi : i.val = t.val * 1000 + r.val) :
    (iblk2 (F := Ideal) V c 1 t : Vec Ideal S1000x256 .f32) (ix2 r k)
      = (V c main_v45 : S50000x256.Idx → EReal) (ix2 i k) := by
  obtain ⟨-, -, e0, e1, -⟩ := idx_facts t
  unfold iblk2
  rw [View.read_apply]
  show V c main_v45 _ = V c main_v45 _
  congr 1
  funext a
  apply Fin.ext
  match a with
  | ⟨0, _⟩ => show win2_1.index t (0 : Fin 2) * 1000 + 1 * r.val = i.val; omega
  | ⟨1, _⟩ => show win2_1.index t (1 : Fin 2) * 256 + 1 * k.val = k.val; omega

/-- Every point's block of the neighbour weights is the whole matrix. -/
theorem iblk_wl_eq (t : Fin cfg2.N) :
    (iblk2 (F := Ideal) V c 2 t : Vec Ideal S256x47 .f32) = (V c main_v16 : S256x47.Idx → EReal) := by
  obtain ⟨-, -, -, -, e0, e1, -⟩ := idx_facts t
  funext y
  unfold iblk2
  rw [View.read_apply]
  show V c main_v16 _ = V c main_v16 _
  congr 1
  funext a
  apply Fin.ext
  match a with
  | ⟨0, _⟩ => show win2_2.index t (0 : Fin 2) * 256 + 1 * (y 0).val = (y 0).val; omega
  | ⟨1, _⟩ => show win2_2.index t (1 : Fin 2) * 47 + 1 * (y 1).val = (y 1).val; omega

/-- Every point's block of the bias is the whole vector. -/
theorem iblk_bias_eq (t : Fin cfg2.N) :
    (iblk2 (F := Ideal) V c 3 t : Vec Ideal S47 .f32) = (V c main_arg9 : S47.Idx → EReal) := by
  obtain ⟨-, -, -, -, -, -, e0, -⟩ := idx_facts t
  funext y
  unfold iblk2
  rw [View.read_apply]
  show V c main_arg9 _ = V c main_arg9 _
  congr 1
  funext a
  apply Fin.ext
  match a with
  | ⟨0, _⟩ => show win2_3.index t (0 : Fin 1) * 47 + 1 * (y 0).val = (y 0).val; omega

/-- Every point's block of the own-feature weights is the whole matrix. -/
theorem iblk_wr_eq (t : Fin cfg2.N) :
    (iblk2 (F := Ideal) V c 4 t : Vec Ideal S256x47 .f32) = (V c main_v17 : S256x47.Idx → EReal) := by
  obtain ⟨-, -, -, -, -, -, -, e0, e1, -⟩ := idx_facts t
  funext y
  unfold iblk2
  rw [View.read_apply]
  show V c main_v17 _ = V c main_v17 _
  congr 1
  funext a
  apply Fin.ext
  match a with
  | ⟨0, _⟩ => show win2_4.index t (0 : Fin 2) * 256 + 1 * (y 0).val = (y 0).val; omega
  | ⟨1, _⟩ => show win2_4.index t (1 : Fin 2) * 47 + 1 * (y 1).val = (y 1).val; omega

/-! ## What a point writes back, and the array after the last point -/

theorem zeros2 : (![0, 0] : Fin 2 → Nat) = fun _ => 0 := funext fun a => by fin_cases a <;> rfl
theorem zeros1 : (![0] : Fin 1 → Nat) = fun _ => 0 := funext fun a => by fin_cases a; rfl

/-- What point t writes back is block t of the whole array's log-softmax of the affine part. -/
theorem flushed_eq (t : Fin cfg2.N) :
    (dat2 (F := Ideal) V c).flushed 5 t = ((cfg2.win 5).blk t).view.read (Elt Ideal)
      (Cert.Sage.logSoftmax (Cert.Sage.lin (V c main_v58) (V c main_v45) (V c main_v16) (V c main_v17) (V c main_arg9))) := by
  show (cfg2.win 5).cut (grid2.coords t) ((dat2 V c).after 5 t) = _
  rw [after2_5]
  unfold out2_5
  rw [View.canon_unit_zero zeros2]
  simp only [View.ld_unit_zero (S := S1000x256) zeros2, View.ld_unit_zero (S := S256x47) zeros2,
    View.ld_unit_zero (S := S47) zeros1]
  rw [pay_eq]
  obtain ⟨-, -, -, -, -, -, -, -, -, e0, e1⟩ := idx_facts t
  have ht : t.val < 50 := t.isLt
  funext j
  have hj0 : (j 0).val < 1000 := (j 0).isLt
  have hj1 : (j 1).val < 47 := (j 1).isLt
  -- the block's index j as coordinates, inside the block and inside the array
  have ej : (cfg2.win 5).xinj (grid2.coords t) j = ix2 (⟨(j 0).val, hj0⟩ : Fin 1000) (⟨(j 1).val, hj1⟩ : Fin 47) :=
    funext fun a => Fin.ext (by match a with | ⟨0, _⟩ => rfl | ⟨1, _⟩ => rfl)
  have hemb : ((cfg2.win 5).blk t).view.emb j
      = ix2 (⟨t.val * 1000 + (j 0).val, by omega⟩ : Fin 50000) (⟨(j 1).val, hj1⟩ : Fin 47) := by
    funext a
    apply Fin.ext
    match a with
    | ⟨0, _⟩ => show win2_5.index t (0 : Fin 2) * 1000 + 1 * (j 0).val = t.val * 1000 + (j 0).val; omega
    | ⟨1, _⟩ => show win2_5.index t (1 : Fin 2) * 47 + 1 * (j 1).val = (j 1).val; omega
  show lsmV (affV (iblk2 V c 0 t) (iblk2 V c 1 t) (iblk2 V c 2 t) (iblk2 V c 4 t) (iblk2 V c 3 t))
      ((cfg2.win 5).xinj (grid2.coords t) j)
    = Cert.Sage.logSoftmax (Cert.Sage.lin (V c main_v58) (V c main_v45) (V c main_v16) (V c main_v17) (V c main_arg9))
      (((cfg2.win 5).blk t).view.emb j)
  rw [ej, hemb]
  exact block_lsm _ _ _ _ _ _ _ _ _ _ t.val (fun r k i hi => iblk_mean_apply V c t r k i hi)
    (fun r k i hi => iblk_feat_apply V c t r k i hi) (iblk_wl_eq V c t) (iblk_wr_eq V c t) (iblk_bias_eq V c t) _ _ _ rfl

/-- An index of the array is in point t's block iff each coordinate is in the block's range on its axis. -/
theorem mem_blk (t : Fin cfg2.N) (i : S50000x47.Idx) :
    i ∈ ((cfg2.win 5).blk t).view.set
      ↔ ∀ a : Fin 2, win2_5.index t a * S1000x47.size a ≤ (i a).val
          ∧ (i a).val < win2_5.index t a * S1000x47.size a + S1000x47.size a := by
  show i ∈ ((View.whole main_v59).slice (win2_5.rect t)).set ↔ _
  rw [View.set_slice_whole, Rect.mem_set_unit]
  exact Iff.rfl

/-- Row i lies in the block of point i / 1000, which writes back. -/
theorem cover (i : S50000x47.Idx) :
    ∃ t : Fin cfg2.N, (cfg2.win 5).flush t = true ∧ i ∈ ((cfg2.win 5).blk t).view.set := by
  have hi0 : (i 0).val < 50000 := (i 0).isLt
  have hi1 : (i 1).val < 47 := (i 1).isLt
  have hN : cfg2.N = 50 := N_2
  have ht : (i 0).val / 1000 < cfg2.N := by rw [hN]; omega
  refine ⟨⟨(i 0).val / 1000, ht⟩, flush2_5 _, ?_⟩
  obtain ⟨-, -, -, -, -, -, -, -, -, e0, e1⟩ := idx_facts ⟨(i 0).val / 1000, ht⟩
  have e0' : win2_5.index ⟨(i 0).val / 1000, ht⟩ (0 : Fin 2) = (i 0).val / 1000 := e0
  rw [mem_blk]
  intro a
  match a with
  | ⟨0, _⟩ =>
    show win2_5.index ⟨(i 0).val / 1000, ht⟩ (0 : Fin 2) * 1000 ≤ (i 0).val
      ∧ (i 0).val < win2_5.index ⟨(i 0).val / 1000, ht⟩ (0 : Fin 2) * 1000 + 1000
    omega
  | ⟨1, _⟩ =>
    show win2_5.index ⟨(i 0).val / 1000, ht⟩ (1 : Fin 2) * 47 ≤ (i 1).val
      ∧ (i 1).val < win2_5.index ⟨(i 0).val / 1000, ht⟩ (1 : Fin 2) * 47 + 47
    omega

end Blocks

/-- The array the region's output window ends holding, whatever contents `V` the region is entered with. -/
theorem value (V : (c : Dev nD) → (b : Ref sig .tc) → Buf (Elt Ideal) ((c : Thread nD τ).loc b)) (c : Dev nD) :
    (dat2 (F := Ideal) V c).arrAt 5 cfg2.N
      = Cert.Sage.logSoftmax (Cert.Sage.lin (V c main_v58) (V c main_v45) (V c main_v16) (V c main_v17) (V c main_arg9)) :=
  (dat2 (F := Ideal) V c).arrAt_eq_of_cover 5 _ (fun t _ => flushed_eq V c t) cover

end Cert.KernelIdeal.Region2

end
-- ==== Proof.WChain.lean ====
/- The kernel program's result array, followed through @main: three stretches of host operations and three kernel
   regions. Each stretch's results are its operations applied to what the stretch found; each region leaves its output
   array at its layer's function of the arrays it reads and every other array as it found it. Read back from the last
   boundary to the launch memory, the result is the program's whole function of the eleven arguments. -/
import proofs.«108251_j23055384445756_1_alg».proof.Proof.Gen.KernelIdeal.Frame
import proofs.«108251_j23055384445756_1_alg».proof.Proof.KStages
import proofs.«108251_j23055384445756_1_alg».proof.Proof.Region0
import proofs.«108251_j23055384445756_1_alg».proof.Proof.Region1
import proofs.«108251_j23055384445756_1_alg».proof.Proof.Region2
import Idealize.ShloMosaic.Lib.StableHlo.Run

set_option maxRecDepth 16384

noncomputable section

namespace Cert.KernelIdeal.WChain

open Cert.KernelIdeal Cert.KernelIdeal.Gen Idealize.ShloMosaic Idealize.ShloMosaic.TcCoe
open Idealize.SL Idealize.SL.Sem Idealize.ShloMosaic.StableHlo

/-! ## A stretch between two regions, at any contents it may find

Each of the two later stretches forms the neighbour mean of the previous layer's output from four arrays it finds: the
edges' sources and destinations, the reciprocal in-degree, and that output. It writes none of the arrays that later
regions and stretches read. -/

/-- The neighbour mean from the flat sources `s`, the flat destinations `d`, the reciprocal in-degree and the features. -/
def meanOf (s d : (⟨S800000, .i32⟩ : BufTy).Contents (Elt Ideal)) (inv : (⟨S50000, .f32⟩ : BufTy).Contents (Elt Ideal))
    (h : (⟨S50000x256, .f32⟩ : BufTy).Contents (Elt Ideal)) : (⟨S50000x256, .f32⟩ : BufTy).Contents (Elt Ideal) :=
  mulf (F := Ideal) (φ := .f32)
    (Host.scatterAdd (F := Ideal) scatter_S50000x256_S800000x1_S800000x256_1_0_0_1
      (broadcastInDim S50000x256 ![] bcast_S_S50000x256 (constant (F := Ideal) S_ .f32 0x00000000#32))
      (broadcastInDim S800000x1 ![0] bcast_S800000_S800000x1_0 d)
      (Host.gather gather_S50000x256_S800000x1_S800000x256_1_0_n_n_0_1_1256 h
        (broadcastInDim S800000x1 ![0] bcast_S800000_S800000x1_0
          (select (cmpi .slt s (broadcastInDim S800000 ![] bcast_S_S800000 (constantI S_ 32 0#32)))
            (addi s (broadcastInDim S800000 ![] bcast_S_S800000 (constantI S_ 32 50000#32))) s))))
    (broadcastInDim S50000x256 ![0, 1] bcast_S50000x1_S50000x256_0_1 (broadcastInDim S50000x1 ![0] bcast_S50000_S50000x1_0 inv))

/-- The program's neighbour mean is that, at the edge list's two rows and its reciprocal in-degree. -/
theorem meanK_eq (e : (⟨S2x800000, .i32⟩ : BufTy).Contents (Elt Ideal)) (h : (⟨S50000x256, .f32⟩ : BufTy).Contents (Elt Ideal)) :
    Stages.meanK e h = meanOf (Stages.srcFlat e) (Stages.dstFlat e) (Stages.invDeg e) h := rfl

variable (Wv : Valuation τ sig (Elt Ideal))

/-- The second stretch writes the mean of what it finds. -/
theorem ops1_mean : StableHlo.after (hostOps1 (F := Ideal)) Wv (Proc.devRef .tc main_v44)
    = meanOf (Wv (Proc.devRef .tc main_v1)) (Wv (Proc.devRef .tc main_v3)) (Wv (Proc.devRef .tc main_v11)) (Wv (Proc.devRef .tc main_v31)) := by
  dsimp only [hostOps1]; after_results_simp; rfl

/-- The third stretch writes the mean of what it finds. -/
theorem ops2_mean : StableHlo.after (hostOps2 (F := Ideal)) Wv (Proc.devRef .tc main_v58)
    = meanOf (Wv (Proc.devRef .tc main_v1)) (Wv (Proc.devRef .tc main_v3)) (Wv (Proc.devRef .tc main_v11)) (Wv (Proc.devRef .tc main_v45)) := by
  dsimp only [hostOps2]; after_results_simp; rfl

theorem ops1_keep_main_v1 : StableHlo.after (hostOps1 (F := Ideal)) Wv (Proc.devRef .tc main_v1) = Wv (Proc.devRef .tc main_v1) := by
  dsimp only [hostOps1]; after_results_simp
theorem ops1_keep_main_v3 : StableHlo.after (hostOps1 (F := Ideal)) Wv (Proc.devRef .tc main_v3) = Wv (Proc.devRef .tc main_v3) := by
  dsimp only [hostOps1]; after_results_simp
theorem ops1_keep_main_v11 : StableHlo.after (hostOps1 (F := Ideal)) Wv (Proc.devRef .tc main_v11) = Wv (Proc.devRef .tc main_v11) := by
  dsimp only [hostOps1]; after_results_simp
theorem ops1_keep_main_v31 : StableHlo.after (hostOps1 (F := Ideal)) Wv (Proc.devRef .tc main_v31) = Wv (Proc.devRef .tc main_v31) := by
  dsimp only [hostOps1]; after_results_simp
theorem ops1_keep_main_v14 : StableHlo.after (hostOps1 (F := Ideal)) Wv (Proc.devRef .tc main_v14) = Wv (Proc.devRef .tc main_v14) := by
  dsimp only [hostOps1]; after_results_simp
theorem ops1_keep_main_v15 : StableHlo.after (hostOps1 (F := Ideal)) Wv (Proc.devRef .tc main_v15) = Wv (Proc.devRef .tc main_v15) := by
  dsimp only [hostOps1]; after_results_simp
theorem ops1_keep_main_arg6 : StableHlo.after (hostOps1 (F := Ideal)) Wv (Proc.devRef .tc main_arg6) = Wv (Proc.devRef .tc main_arg6) := by
  dsimp only [hostOps1]; after_results_simp
theorem ops1_keep_main_v16 : StableHlo.after (hostOps1 (F := Ideal)) Wv (Proc.devRef .tc main_v16) = Wv (Proc.devRef .tc main_v16) := by
  dsimp only [hostOps1]; after_results_simp
theorem ops1_keep_main_v17 : StableHlo.after (hostOps1 (F := Ideal)) Wv (Proc.devRef .tc main_v17) = Wv (Proc.devRef .tc main_v17) := by
  dsimp only [hostOps1]; after_results_simp
theorem ops1_keep_main_arg9 : StableHlo.after (hostOps1 (F := Ideal)) Wv (Proc.devRef .tc main_arg9) = Wv (Proc.devRef .tc main_arg9) := by
  dsimp only [hostOps1]; after_results_simp
theorem ops2_keep_main_v45 : StableHlo.after (hostOps2 (F := Ideal)) Wv (Proc.devRef .tc main_v45) = Wv (Proc.devRef .tc main_v45) := by
  dsimp only [hostOps2]; after_results_simp
theorem ops2_keep_main_v16 : StableHlo.after (hostOps2 (F := Ideal)) Wv (Proc.devRef .tc main_v16) = Wv (Proc.devRef .tc main_v16) := by
  dsimp only [hostOps2]; after_results_simp
theorem ops2_keep_main_v17 : StableHlo.after (hostOps2 (F := Ideal)) Wv (Proc.devRef .tc main_v17) = Wv (Proc.devRef .tc main_v17) := by
  dsimp only [hostOps2]; after_results_simp
theorem ops2_keep_main_arg9 : StableHlo.after (hostOps2 (F := Ideal)) Wv (Proc.devRef .tc main_arg9) = Wv (Proc.devRef .tc main_arg9) := by
  dsimp only [hostOps2]; after_results_simp

/-! ## The boundaries' contents, from the launch memory -/

variable (m : (ℓ : Loc nD τ sig) → Buf (Elt Ideal) ℓ) (ρ : Dev nD → PrngReg) (c : Dev nD)

/-! ### After the first stretch -/

theorem W1_main_v30 : W1 m ρ c (Proc.devRef .tc main_v30) = Stages.meanK (m ((c.tc : Thread nD τ).loc main_arg1)) (m ((c.tc : Thread nD τ).loc main_arg0)) := by
  show StableHlo.after hostOps0 (W0 m ρ c) (Proc.devRef .tc main_v30) = _
  dsimp only [hostOps0]; after_results_simp <;> rfl
theorem W1_main_arg0 : W1 m ρ c (Proc.devRef .tc main_arg0) = (m ((c.tc : Thread nD τ).loc main_arg0)) := by
  show StableHlo.after hostOps0 (W0 m ρ c) (Proc.devRef .tc main_arg0) = _
  dsimp only [hostOps0]; after_results_simp <;> rfl
theorem W1_main_arg3 : W1 m ρ c (Proc.devRef .tc main_arg3) = (m ((c.tc : Thread nD τ).loc main_arg3)) := by
  show StableHlo.after hostOps0 (W0 m ρ c) (Proc.devRef .tc main_arg3) = _
  dsimp only [hostOps0]; after_results_simp <;> rfl
theorem W1_main_v12 : W1 m ρ c (Proc.devRef .tc main_v12) = Stages.tr256 (m ((c.tc : Thread nD τ).loc main_arg2)) := by
  show StableHlo.after hostOps0 (W0 m ρ c) (Proc.devRef .tc main_v12) = _
  dsimp only [hostOps0]; after_results_simp <;> rfl
theorem W1_main_v13 : W1 m ρ c (Proc.devRef .tc main_v13) = Stages.tr256 (m ((c.tc : Thread nD τ).loc main_arg4)) := by
  show StableHlo.after hostOps0 (W0 m ρ c) (Proc.devRef .tc main_v13) = _
  dsimp only [hostOps0]; after_results_simp <;> rfl
theorem W1_main_v1 : W1 m ρ c (Proc.devRef .tc main_v1) = Stages.srcFlat (m ((c.tc : Thread nD τ).loc main_arg1)) := by
  show StableHlo.after hostOps0 (W0 m ρ c) (Proc.devRef .tc main_v1) = _
  dsimp only [hostOps0]; after_results_simp <;> rfl
theorem W1_main_v3 : W1 m ρ c (Proc.devRef .tc main_v3) = Stages.dstFlat (m ((c.tc : Thread nD τ).loc main_arg1)) := by
  show StableHlo.after hostOps0 (W0 m ρ c) (Proc.devRef .tc main_v3) = _
  dsimp only [hostOps0]; after_results_simp <;> rfl
theorem W1_main_v11 : W1 m ρ c (Proc.devRef .tc main_v11) = Stages.invDeg (m ((c.tc : Thread nD τ).loc main_arg1)) := by
  show StableHlo.after hostOps0 (W0 m ρ c) (Proc.devRef .tc main_v11) = _
  dsimp only [hostOps0]; after_results_simp <;> rfl
theorem W1_main_v14 : W1 m ρ c (Proc.devRef .tc main_v14) = Stages.tr256 (m ((c.tc : Thread nD τ).loc main_arg5)) := by
  show StableHlo.after hostOps0 (W0 m ρ c) (Proc.devRef .tc main_v14) = _
  dsimp only [hostOps0]; after_results_simp <;> rfl
theorem W1_main_v15 : W1 m ρ c (Proc.devRef .tc main_v15) = Stages.tr256 (m ((c.tc : Thread nD τ).loc main_arg7)) := by
  show StableHlo.after hostOps0 (W0 m ρ c) (Proc.devRef .tc main_v15) = _
  dsimp only [hostOps0]; after_results_simp <;> rfl
theorem W1_main_arg6 : W1 m ρ c (Proc.devRef .tc main_arg6) = (m ((c.tc : Thread nD τ).loc main_arg6)) := by
  show StableHlo.after hostOps0 (W0 m ρ c) (Proc.devRef .tc main_arg6) = _
  dsimp only [hostOps0]; after_results_simp <;> rfl
theorem W1_main_v16 : W1 m ρ c (Proc.devRef .tc main_v16) = Stages.tr47 (m ((c.tc : Thread nD τ).loc main_arg8)) := by
  show StableHlo.after hostOps0 (W0 m ρ c) (Proc.devRef .tc main_v16) = _
  dsimp only [hostOps0]; after_results_simp <;> rfl
theorem W1_main_v17 : W1 m ρ c (Proc.devRef .tc main_v17) = Stages.tr47 (m ((c.tc : Thread nD τ).loc main_arg10)) := by
  show StableHlo.after hostOps0 (W0 m ρ c) (Proc.devRef .tc main_v17) = _
  dsimp only [hostOps0]; after_results_simp <;> rfl
theorem W1_main_arg9 : W1 m ρ c (Proc.devRef .tc main_arg9) = (m ((c.tc : Thread nD τ).loc main_arg9)) := by
  show StableHlo.after hostOps0 (W0 m ρ c) (Proc.devRef .tc main_arg9) = _
  dsimp only [hostOps0]; after_results_simp <;> rfl

/-! ### After the first region: its output array at the first layer's function; what it does not stage, as before -/

theorem W2_main_v31 : W2 m ρ c (Proc.devRef .tc main_v31) = (Stages.h1 (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4))) := by
  refine (W2_arr m ρ c 5).trans ((Region0.value (V1 m ρ) c).trans ?_)
  show Cert.Sage.hidden (W1 m ρ c (Proc.devRef .tc main_v30)) (W1 m ρ c (Proc.devRef .tc main_arg0)) (W1 m ρ c (Proc.devRef .tc main_v12)) (W1 m ρ c (Proc.devRef .tc main_v13)) (W1 m ρ c (Proc.devRef .tc main_arg3)) = _
  rw [W1_main_v30, W1_main_arg0, W1_main_v12, W1_main_v13, W1_main_arg3]; rfl
theorem W2_main_v1 : W2 m ρ c (Proc.devRef .tc main_v1) = Stages.srcFlat (m ((c.tc : Thread nD τ).loc main_arg1)) := (W2_of_ne m ρ c main_v1 (by decide)).trans (W1_main_v1 m ρ c)
theorem W2_main_v3 : W2 m ρ c (Proc.devRef .tc main_v3) = Stages.dstFlat (m ((c.tc : Thread nD τ).loc main_arg1)) := (W2_of_ne m ρ c main_v3 (by decide)).trans (W1_main_v3 m ρ c)
theorem W2_main_v11 : W2 m ρ c (Proc.devRef .tc main_v11) = Stages.invDeg (m ((c.tc : Thread nD τ).loc main_arg1)) := (W2_of_ne m ρ c main_v11 (by decide)).trans (W1_main_v11 m ρ c)
theorem W2_main_v14 : W2 m ρ c (Proc.devRef .tc main_v14) = Stages.tr256 (m ((c.tc : Thread nD τ).loc main_arg5)) := (W2_of_ne m ρ c main_v14 (by decide)).trans (W1_main_v14 m ρ c)
theorem W2_main_v15 : W2 m ρ c (Proc.devRef .tc main_v15) = Stages.tr256 (m ((c.tc : Thread nD τ).loc main_arg7)) := (W2_of_ne m ρ c main_v15 (by decide)).trans (W1_main_v15 m ρ c)
theorem W2_main_arg6 : W2 m ρ c (Proc.devRef .tc main_arg6) = (m ((c.tc : Thread nD τ).loc main_arg6)) := (W2_of_ne m ρ c main_arg6 (by decide)).trans (W1_main_arg6 m ρ c)
theorem W2_main_v16 : W2 m ρ c (Proc.devRef .tc main_v16) = Stages.tr47 (m ((c.tc : Thread nD τ).loc main_arg8)) := (W2_of_ne m ρ c main_v16 (by decide)).trans (W1_main_v16 m ρ c)
theorem W2_main_v17 : W2 m ρ c (Proc.devRef .tc main_v17) = Stages.tr47 (m ((c.tc : Thread nD τ).loc main_arg10)) := (W2_of_ne m ρ c main_v17 (by decide)).trans (W1_main_v17 m ρ c)
theorem W2_main_arg9 : W2 m ρ c (Proc.devRef .tc main_arg9) = (m ((c.tc : Thread nD τ).loc main_arg9)) := (W2_of_ne m ρ c main_arg9 (by decide)).trans (W1_main_arg9 m ρ c)

/-! ### After the second stretch -/

theorem W3_main_v44 : W3 m ρ c (Proc.devRef .tc main_v44) = Stages.meanK (m ((c.tc : Thread nD τ).loc main_arg1)) (Stages.h1 (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4))) := by
  refine (ops1_mean (W2 m ρ c)).trans ?_
  rw [W2_main_v1, W2_main_v3, W2_main_v11, W2_main_v31, meanK_eq]
theorem W3_main_v31 : W3 m ρ c (Proc.devRef .tc main_v31) = (Stages.h1 (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4))) := (ops1_keep_main_v31 (W2 m ρ c)).trans (W2_main_v31 m ρ c)
theorem W3_main_v1 : W3 m ρ c (Proc.devRef .tc main_v1) = Stages.srcFlat (m ((c.tc : Thread nD τ).loc main_arg1)) := (ops1_keep_main_v1 (W2 m ρ c)).trans (W2_main_v1 m ρ c)
theorem W3_main_v3 : W3 m ρ c (Proc.devRef .tc main_v3) = Stages.dstFlat (m ((c.tc : Thread nD τ).loc main_arg1)) := (ops1_keep_main_v3 (W2 m ρ c)).trans (W2_main_v3 m ρ c)
theorem W3_main_v11 : W3 m ρ c (Proc.devRef .tc main_v11) = Stages.invDeg (m ((c.tc : Thread nD τ).loc main_arg1)) := (ops1_keep_main_v11 (W2 m ρ c)).trans (W2_main_v11 m ρ c)
theorem W3_main_v14 : W3 m ρ c (Proc.devRef .tc main_v14) = Stages.tr256 (m ((c.tc : Thread nD τ).loc main_arg5)) := (ops1_keep_main_v14 (W2 m ρ c)).trans (W2_main_v14 m ρ c)
theorem W3_main_v15 : W3 m ρ c (Proc.devRef .tc main_v15) = Stages.tr256 (m ((c.tc : Thread nD τ).loc main_arg7)) := (ops1_keep_main_v15 (W2 m ρ c)).trans (W2_main_v15 m ρ c)
theorem W3_main_arg6 : W3 m ρ c (Proc.devRef .tc main_arg6) = (m ((c.tc : Thread nD τ).loc main_arg6)) := (ops1_keep_main_arg6 (W2 m ρ c)).trans (W2_main_arg6 m ρ c)
theorem W3_main_v16 : W3 m ρ c (Proc.devRef .tc main_v16) = Stages.tr47 (m ((c.tc : Thread nD τ).loc main_arg8)) := (ops1_keep_main_v16 (W2 m ρ c)).trans (W2_main_v16 m ρ c)
theorem W3_main_v17 : W3 m ρ c (Proc.devRef .tc main_v17) = Stages.tr47 (m ((c.tc : Thread nD τ).loc main_arg10)) := (ops1_keep_main_v17 (W2 m ρ c)).trans (W2_main_v17 m ρ c)
theorem W3_main_arg9 : W3 m ρ c (Proc.devRef .tc main_arg9) = (m ((c.tc : Thread nD τ).loc main_arg9)) := (ops1_keep_main_arg9 (W2 m ρ c)).trans (W2_main_arg9 m ρ c)

/-! ### After the second region -/

theorem W4_main_v45 : W4 m ρ c (Proc.devRef .tc main_v45) = (Stages.h2 (Stages.h1 (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4))) (m ((c.tc : Thread nD τ).loc main_arg1)) (m ((c.tc : Thread nD τ).loc main_arg5)) (m ((c.tc : Thread nD τ).loc main_arg6)) (m ((c.tc : Thread nD τ).loc main_arg7))) := by
  refine (W4_arr m ρ c 5).trans ((Region1.value (V3 m ρ) c).trans ?_)
  show Cert.Sage.hidden (W3 m ρ c (Proc.devRef .tc main_v44)) (W3 m ρ c (Proc.devRef .tc main_v31)) (W3 m ρ c (Proc.devRef .tc main_v14)) (W3 m ρ c (Proc.devRef .tc main_v15)) (W3 m ρ c (Proc.devRef .tc main_arg6)) = _
  rw [W3_main_v44, W3_main_v31, W3_main_v14, W3_main_v15, W3_main_arg6]; rfl
theorem W4_main_v1 : W4 m ρ c (Proc.devRef .tc main_v1) = Stages.srcFlat (m ((c.tc : Thread nD τ).loc main_arg1)) := (W4_of_ne m ρ c main_v1 (by decide)).trans (W3_main_v1 m ρ c)
theorem W4_main_v3 : W4 m ρ c (Proc.devRef .tc main_v3) = Stages.dstFlat (m ((c.tc : Thread nD τ).loc main_arg1)) := (W4_of_ne m ρ c main_v3 (by decide)).trans (W3_main_v3 m ρ c)
theorem W4_main_v11 : W4 m ρ c (Proc.devRef .tc main_v11) = Stages.invDeg (m ((c.tc : Thread nD τ).loc main_arg1)) := (W4_of_ne m ρ c main_v11 (by decide)).trans (W3_main_v11 m ρ c)
theorem W4_main_v16 : W4 m ρ c (Proc.devRef .tc main_v16) = Stages.tr47 (m ((c.tc : Thread nD τ).loc main_arg8)) := (W4_of_ne m ρ c main_v16 (by decide)).trans (W3_main_v16 m ρ c)
theorem W4_main_v17 : W4 m ρ c (Proc.devRef .tc main_v17) = Stages.tr47 (m ((c.tc : Thread nD τ).loc main_arg10)) := (W4_of_ne m ρ c main_v17 (by decide)).trans (W3_main_v17 m ρ c)
theorem W4_main_arg9 : W4 m ρ c (Proc.devRef .tc main_arg9) = (m ((c.tc : Thread nD τ).loc main_arg9)) := (W4_of_ne m ρ c main_arg9 (by decide)).trans (W3_main_arg9 m ρ c)

/-! ### After the third stretch -/

theorem W5_main_v58 : W5 m ρ c (Proc.devRef .tc main_v58) = Stages.meanK (m ((c.tc : Thread nD τ).loc main_arg1)) (Stages.h2 (Stages.h1 (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4))) (m ((c.tc : Thread nD τ).loc main_arg1)) (m ((c.tc : Thread nD τ).loc main_arg5)) (m ((c.tc : Thread nD τ).loc main_arg6)) (m ((c.tc : Thread nD τ).loc main_arg7))) := by
  refine (ops2_mean (W4 m ρ c)).trans ?_
  rw [W4_main_v1, W4_main_v3, W4_main_v11, W4_main_v45, meanK_eq]
theorem W5_main_v45 : W5 m ρ c (Proc.devRef .tc main_v45) = (Stages.h2 (Stages.h1 (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4))) (m ((c.tc : Thread nD τ).loc main_arg1)) (m ((c.tc : Thread nD τ).loc main_arg5)) (m ((c.tc : Thread nD τ).loc main_arg6)) (m ((c.tc : Thread nD τ).loc main_arg7))) := (ops2_keep_main_v45 (W4 m ρ c)).trans (W4_main_v45 m ρ c)
theorem W5_main_v16 : W5 m ρ c (Proc.devRef .tc main_v16) = Stages.tr47 (m ((c.tc : Thread nD τ).loc main_arg8)) := (ops2_keep_main_v16 (W4 m ρ c)).trans (W4_main_v16 m ρ c)
theorem W5_main_v17 : W5 m ρ c (Proc.devRef .tc main_v17) = Stages.tr47 (m ((c.tc : Thread nD τ).loc main_arg10)) := (ops2_keep_main_v17 (W4 m ρ c)).trans (W4_main_v17 m ρ c)
theorem W5_main_arg9 : W5 m ρ c (Proc.devRef .tc main_arg9) = (m ((c.tc : Thread nD τ).loc main_arg9)) := (ops2_keep_main_arg9 (W4 m ρ c)).trans (W4_main_arg9 m ρ c)

/-! ### After the third region -/

/-- The result array at the last boundary is the program's function of the launch contents of the arguments. -/
theorem kernel_value :
    W6 (F := Ideal) m ρ c (Proc.devRef .tc main_v59)
      = Cert.KernelIdeal.Stages.outK (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) (m ((c.tc : Thread nD τ).loc main_arg8)) (m ((c.tc : Thread nD τ).loc main_arg9)) (m ((c.tc : Thread nD τ).loc main_arg10)) := by
  refine (W6_arr m ρ c 5).trans ((Region2.value (V5 m ρ) c).trans ?_)
  show Cert.Sage.logSoftmax (Cert.Sage.lin (W5 m ρ c (Proc.devRef .tc main_v58)) (W5 m ρ c (Proc.devRef .tc main_v45)) (W5 m ρ c (Proc.devRef .tc main_v16)) (W5 m ρ c (Proc.devRef .tc main_v17)) (W5 m ρ c (Proc.devRef .tc main_arg9))) = _
  rw [W5_main_v58, W5_main_v45, W5_main_v16, W5_main_v17, W5_main_arg9]; rfl

end Cert.KernelIdeal.WChain

end
-- ==== Proof.RefLaws.lean ====
/- The reference program's stages in its own spelling, and each one's equality with the kernel program's stage.

   Three places differ. The reference divides the aggregate by the clamped in-degree where the kernel's program
   multiplies by its reciprocal: x / d = x · (1 / d) for every extended real x once d ≠ 0, and a maximum with one is at
   least one. The reference adds the bias between the two matrix products, the kernel's program after both: addition of
   extended reals is commutative and associative. And the reference's log-softmax takes one more maximum with minus
   infinity, below which no fold of maxima from minus infinity lies. A matrix product with one contracted axis, on the
   host or in a kernel, is the sum over that axis of the products of the entries. -/
import proofs.«108251_j23055384445756_1_alg».proof.ReferenceIdeal
import proofs.«108251_j23055384445756_1_alg».proof.Proof.Gen.ReferenceIdeal
import proofs.«108251_j23055384445756_1_alg».proof.Proof.KStages
import proofs.«108251_j23055384445756_1_alg».proof.Proof.Spec
import proofs.«108251_j23055384445756_1_alg».proof.Proof.LibDotPlain
import proofs.«108251_j23055384445756_1_alg».proof.Proof.LibKeepdims
import Idealize.ShloMosaic.Lib.Pipeline.Value
import Idealize.ShloMosaic.Lib.ValueIdx
import Idealize.ShloMosaic.Lib.ValueLayout
import Idealize.ShloMosaic.Lib.IdealHost
import Idealize.ShloMosaic.PureOps.Ideal.Laws

set_option maxRecDepth 16384

noncomputable section

namespace Cert.RefLaws

open Cert.ReferenceIdeal Cert.ReferenceIdeal.Gen Idealize.ShloMosaic Idealize.ShloMosaic.TcCoe Idealize.ShloMosaic.ValueIdx
open scoped BigOperators

/-- Every edge's destination, as the reference spells it: row 1 of the edge list, as a column of index vectors. -/
def dstIxR (e : (⟨S2x800000, .i32⟩ : BufTy).Contents (Elt Ideal)) : (⟨S800000x1, .i32⟩ : BufTy).Contents (Elt Ideal) :=
  broadcastInDim S800000x1 ![0] bcast_S800000_S800000x1_0
    (shapeCast _ (extractStridedSlice S1x800000 ![1, 0] e slices_S2x800000_S1x800000_1_0) shapeCasts_S1x800000_S800000)

/-- Every edge's source, a negative one wrapped once by the node count, as the reference spells it. -/
def srcIxR (e : (⟨S2x800000, .i32⟩ : BufTy).Contents (Elt Ideal)) : (⟨S800000x1, .i32⟩ : BufTy).Contents (Elt Ideal) :=
  broadcastInDim S800000x1 ![0] bcast_S800000_S800000x1_0
    (select (cmpi .slt (shapeCast _ (extractStridedSlice S1x800000 ![0, 0] e slices_S2x800000_S1x800000_0_0) shapeCasts_S1x800000_S800000)
        (broadcastInDim S800000 ![] bcast_S_S800000 (constantI S_ 32 0#32)))
      (addi (shapeCast _ (extractStridedSlice S1x800000 ![0, 0] e slices_S2x800000_S1x800000_0_0) shapeCasts_S1x800000_S800000)
        (broadcastInDim S800000 ![] bcast_S_S800000 (constantI S_ 32 50000#32)))
      (shapeCast _ (extractStridedSlice S1x800000 ![0, 0] e slices_S2x800000_S1x800000_0_0) shapeCasts_S1x800000_S800000))

/-- The neighbour mean as the reference forms it: the aggregate divided by the clamped in-degree along rows. -/
def meanR (e : (⟨S2x800000, .i32⟩ : BufTy).Contents (Elt Ideal)) (h : (⟨S50000x256, .f32⟩ : BufTy).Contents (Elt Ideal)) :
    (⟨S50000x256, .f32⟩ : BufTy).Contents (Elt Ideal) :=
  Host.divf (F := Ideal) (φ := .f32)
    (Host.scatterAdd (F := Ideal) scatter_S50000x256_S800000x1_S800000x256_1_0_0_1
      (broadcastInDim S50000x256 ![] bcast_S_S50000x256 (constant (F := Ideal) S_ .f32 0x00000000#32)) (dstIxR e)
      (Host.gather gather_S50000x256_S800000x1_S800000x256_1_0_n_n_0_1_1256 h (srcIxR e)))
    (broadcastInDim S50000x256 ![0, 1] bcast_S50000x1_S50000x256_0_1 (broadcastInDim S50000x1 ![0] bcast_S50000_S50000x1_0
      (maximumf (F := Ideal) (φ := .f32) (Host.scatterAdd (F := Ideal) scatter_S50000_S800000x1_S800000_n_0_0_1
          (broadcastInDim S50000 ![] bcast_S_S50000 (constant (F := Ideal) S_ .f32 0x00000000#32)) (dstIxR e)
          (broadcastInDim S800000 ![] bcast_S_S800000 (constant (F := Ideal) S_ .f32 0x3F800000#32)))
        (broadcastInDim S50000 ![] bcast_S_S50000 (constant (F := Ideal) S_ .f32 0x3F800000#32)))))

/-- A hidden layer as the reference forms it, from a mean and the layer's input. -/
def hiddenR (mean h : (⟨S50000x256, .f32⟩ : BufTy).Contents (Elt Ideal)) (wl : (⟨S256x256, .f32⟩ : BufTy).Contents (Elt Ideal))
    (b : (⟨S256, .f32⟩ : BufTy).Contents (Elt Ideal)) (wr : (⟨S256x256, .f32⟩ : BufTy).Contents (Elt Ideal)) :
    (⟨S50000x256, .f32⟩ : BufTy).Contents (Elt Ideal) :=
  maximumf (F := Ideal) (φ := .f32)
    (addf (F := Ideal) (φ := .f32)
      (addf (F := Ideal) (φ := .f32)
        (Host.dotGeneral (F := Ideal) (φ₁ := .f32) (φ₂ := .f32) dot_S50000x256_S256x256_S50000x256_1_0_0_1_n_n none mean (transpose S256x256 [1, 0] wl transposes_S256x256_S256x256_1_0))
        (broadcastInDim S50000x256 ![0, 1] bcast_S1x256_S50000x256_0_1 (broadcastInDim S1x256 ![1] bcast_S256_S1x256_1 b)))
      (Host.dotGeneral (F := Ideal) (φ₁ := .f32) (φ₂ := .f32) dot_S50000x256_S256x256_S50000x256_1_0_0_1_n_n none h (transpose S256x256 [1, 0] wr transposes_S256x256_S256x256_1_0)))
    (broadcastInDim S50000x256 ![] bcast_S_S50000x256 (constant (F := Ideal) S_ .f32 0x00000000#32))

/-- The last layer's affine part as the reference forms it. -/
def linR (mean h : (⟨S50000x256, .f32⟩ : BufTy).Contents (Elt Ideal)) (wl : (⟨S47x256, .f32⟩ : BufTy).Contents (Elt Ideal))
    (b : (⟨S47, .f32⟩ : BufTy).Contents (Elt Ideal)) (wr : (⟨S47x256, .f32⟩ : BufTy).Contents (Elt Ideal)) :
    (⟨S50000x47, .f32⟩ : BufTy).Contents (Elt Ideal) :=
  addf (F := Ideal) (φ := .f32)
    (addf (F := Ideal) (φ := .f32)
      (Host.dotGeneral (F := Ideal) (φ₁ := .f32) (φ₂ := .f32) dot_S50000x256_S256x47_S50000x47_1_0_0_1_n_n none mean (transpose S256x47 [1, 0] wl transposes_S47x256_S256x47_1_0))
      (broadcastInDim S50000x47 ![0, 1] bcast_S1x47_S50000x47_0_1 (broadcastInDim S1x47 ![1] bcast_S47_S1x47_1 b)))
    (Host.dotGeneral (F := Ideal) (φ₁ := .f32) (φ₂ := .f32) dot_S50000x256_S256x47_S50000x47_1_0_0_1_n_n none h (transpose S256x47 [1, 0] wr transposes_S47x256_S256x47_1_0))

/-- Each row's maximum as the reference forms it: a reduction from minus infinity, then one more maximum with minus infinity. -/
def rowMaxR (o : (⟨S50000x47, .f32⟩ : BufTy).Contents (Elt Ideal)) : (⟨S50000, .f32⟩ : BufTy).Contents (Elt Ideal) :=
  maximumf (F := Ideal) (φ := .f32) (broadcastInDim S50000 ![] bcast_S_S50000 (constant (F := Ideal) S_ .f32 0xFF800000#32))
    (Host.reduce (FloatOps.maximumf (F := Ideal) (φ := .f32)) o (constant (F := Ideal) S_ .f32 0xFF800000#32) reducesTo_S50000x47_S50000_d1 h_S_)

/-- Each entry less its row's maximum, as the reference forms it. -/
def shiftR (o : (⟨S50000x47, .f32⟩ : BufTy).Contents (Elt Ideal)) : (⟨S50000x47, .f32⟩ : BufTy).Contents (Elt Ideal) :=
  subf (F := Ideal) (φ := .f32) o (broadcastInDim S50000x47 ![0, 1] bcast_S50000x1_S50000x47_0_1 (broadcastInDim S50000x1 ![0] bcast_S50000_S50000x1_0 (rowMaxR o)))

/-- Row-wise log-softmax as the reference forms it. -/
def lsmR (o : (⟨S50000x47, .f32⟩ : BufTy).Contents (Elt Ideal)) : (⟨S50000x47, .f32⟩ : BufTy).Contents (Elt Ideal) :=
  subf (F := Ideal) (φ := .f32) (shiftR o)
    (broadcastInDim S50000x47 ![0, 1] bcast_S50000x1_S50000x47_0_1
      (Host.log (F := Ideal) (φ := .f32) (broadcastInDim S50000x1 ![0] bcast_S50000_S50000x1_0
        (Host.reduceAdd (F := Ideal) (φ := .f32) (Host.exp (F := Ideal) (φ := .f32) (shiftR o)) (constant (F := Ideal) S_ .f32 0x00000000#32) reducesTo_S50000x47_S50000_d1 h_S_))))

/-! ## Reading the pieces at an index -/

/-- A bias over the 256 features, laid as one row and copied down the rows, reads at (r, c) the bias at c. -/
theorem bias256_apply (b : (⟨S256, .f32⟩ : BufTy).Contents (Elt Ideal)) (r : Fin 50000) (c : Fin 256) :
    broadcastInDim S50000x256 ![0, 1] bcast_S1x256_S50000x256_0_1 (broadcastInDim S1x256 ![1] bcast_S256_S1x256_1 b) (ix2 r c) = b (ix1 c) := by
  refine (broadcastInDim_apply _ _ _ (ix2 r c) (ix2 (0 : Fin 1) c) (fun a => match a with | ⟨0, _⟩ => rfl | ⟨1, _⟩ => rfl)).trans ?_
  exact broadcastInDim_apply _ _ _ (ix2 (0 : Fin 1) c) (ix1 c) (fun a => match a with | ⟨0, _⟩ => rfl)

/-- A bias over the 47 outputs, laid as one row and copied down the rows, reads at (r, c) the bias at c. -/
theorem bias47_apply (b : (⟨S47, .f32⟩ : BufTy).Contents (Elt Ideal)) (r : Fin 50000) (c : Fin 47) :
    broadcastInDim S50000x47 ![0, 1] bcast_S1x47_S50000x47_0_1 (broadcastInDim S1x47 ![1] bcast_S47_S1x47_1 b) (ix2 r c) = b (ix1 c) := by
  refine (broadcastInDim_apply _ _ _ (ix2 r c) (ix2 (0 : Fin 1) c) (fun a => match a with | ⟨0, _⟩ => rfl | ⟨1, _⟩ => rfl)).trans ?_
  exact broadcastInDim_apply _ _ _ (ix2 (0 : Fin 1) c) (ix1 c) (fun a => match a with | ⟨0, _⟩ => rfl)

/-- The product of a nodes × 256 array with a 256 × 256 matrix at (r, c): the sum over k of the products of the entries. -/
theorem dot256_apply (l : (⟨S50000x256, .f32⟩ : BufTy).Contents (Elt Ideal)) (w : (⟨S256x256, .f32⟩ : BufTy).Contents (Elt Ideal))
    (r : Fin 50000) (c : Fin 256) :
    Host.dotGeneral (F := Ideal) (φ₁ := .f32) (φ₂ := .f32) dot_S50000x256_S256x256_S50000x256_1_0_0_1_n_n none l w (ix2 r c)
      = ∑ k : Fin 256, l (ix2 r k) * w (ix2 k c) :=
  Cert.DotPlain.dotGeneral_rows_cols dot_S50000x256_S256x256_S50000x256_1_0_0_1_n_n rfl rfl rfl rfl rfl rfl none .single l w r c

/-- The product of a nodes × 256 array with a 256 × 47 matrix at (r, c): the sum over k of the products of the entries. -/
theorem dot47_apply (l : (⟨S50000x256, .f32⟩ : BufTy).Contents (Elt Ideal)) (w : (⟨S256x47, .f32⟩ : BufTy).Contents (Elt Ideal))
    (r : Fin 50000) (c : Fin 47) :
    Host.dotGeneral (F := Ideal) (φ₁ := .f32) (φ₂ := .f32) dot_S50000x256_S256x47_S50000x47_1_0_0_1_n_n none l w (ix2 r c)
      = ∑ k : Fin 256, l (ix2 r k) * w (ix2 k c) :=
  Cert.DotPlain.dotGeneral_rows_cols dot_S50000x256_S256x47_S50000x47_1_0_0_1_n_n rfl rfl rfl rfl rfl rfl none .single l w r c

/-- The zero constant copied over nodes × 256 reads that constant everywhere. -/
theorem zero256_apply (j : S50000x256.Idx) :
    broadcastInDim S50000x256 ![] bcast_S_S50000x256 (constant (F := Ideal) S_ .f32 0x00000000#32) j = Ideal.ofBits .f32 0x00000000#32 :=
  broadcastInDim_scalar_apply _ _ j

/-- A column over the nodes, viewed as nodes × 1 and copied along 256 features, reads at (r, c) the column at r. -/
theorem col256_apply (d : (⟨S50000, .f32⟩ : BufTy).Contents (Elt Ideal)) (r : Fin 50000) (c : Fin 256) :
    broadcastInDim S50000x256 ![0, 1] bcast_S50000x1_S50000x256_0_1 (broadcastInDim S50000x1 ![0] bcast_S50000_S50000x1_0 d) (ix2 r c) = d (ix1 r) := by
  refine (broadcastInDim_apply _ _ _ (ix2 r c) (ix2 r (0 : Fin 1)) (fun a => match a with | ⟨0, _⟩ => rfl | ⟨1, _⟩ => rfl)).trans ?_
  exact broadcastInDim_apply _ _ _ (ix2 r (0 : Fin 1)) (ix1 r) (fun a => match a with | ⟨0, _⟩ => rfl)

/-! ## The aggregate and the clamped in-degree are one function in both programs

Each program names its own shape records; the records hold the same lists, so the gather and the two scatter-sums are
the same functions, carried whole. -/

/-- The reference's aggregate is the kernel program's. -/
theorem aggR_eq (e : (⟨S2x800000, .i32⟩ : BufTy).Contents (Elt Ideal)) (h : (⟨S50000x256, .f32⟩ : BufTy).Contents (Elt Ideal)) :
    Host.scatterAdd (F := Ideal) scatter_S50000x256_S800000x1_S800000x256_1_0_0_1
      (broadcastInDim S50000x256 ![] bcast_S_S50000x256 (constant (F := Ideal) S_ .f32 0x00000000#32)) (dstIxR e)
      (Host.gather gather_S50000x256_S800000x1_S800000x256_1_0_n_n_0_1_1256 h (srcIxR e)) = Cert.KernelIdeal.Stages.agg e h := rfl

/-- The reference's clamped in-degree is the kernel program's. -/
theorem degR_eq (e : (⟨S2x800000, .i32⟩ : BufTy).Contents (Elt Ideal)) :
    maximumf (F := Ideal) (φ := .f32) (Host.scatterAdd (F := Ideal) scatter_S50000_S800000x1_S800000_n_0_0_1
          (broadcastInDim S50000 ![] bcast_S_S50000 (constant (F := Ideal) S_ .f32 0x00000000#32)) (dstIxR e)
          (broadcastInDim S800000 ![] bcast_S_S800000 (constant (F := Ideal) S_ .f32 0x3F800000#32)))
        (broadcastInDim S50000 ![] bcast_S_S50000 (constant (F := Ideal) S_ .f32 0x3F800000#32)) = Cert.KernelIdeal.Stages.degClamped e := rfl

/-- A maximum with one is at least one. -/
theorem one_le_degClamped (e : (⟨S2x800000, .i32⟩ : BufTy).Contents (Elt Ideal)) (r : Fin 50000) :
    (1 : EReal) ≤ Cert.KernelIdeal.Stages.degClamped e (ix1 r) := by
  unfold Cert.KernelIdeal.Stages.degClamped
  rw [maximumf_apply]
  refine le_max_of_le_right (le_of_eq ?_)
  refine Eq.symm ((broadcastInDim_scalar_apply _ _ _).trans ?_)
  exact Ideal.ofBits_one_f32

/-- The two programs spell the destination indices alike. -/
theorem dstIxR_eq (e : (⟨S2x800000, .i32⟩ : BufTy).Contents (Elt Ideal)) : dstIxR e = Cert.KernelIdeal.Stages.dstIx e := by
  rfl

/-- The two programs spell the source indices alike. -/
theorem srcIxR_eq (e : (⟨S2x800000, .i32⟩ : BufTy).Contents (Elt Ideal)) : srcIxR e = Cert.KernelIdeal.Stages.srcIx e := by
  rfl

/-- Dividing by the clamped in-degree is multiplying by its reciprocal. -/
theorem meanR_eq (e : (⟨S2x800000, .i32⟩ : BufTy).Contents (Elt Ideal)) (h : (⟨S50000x256, .f32⟩ : BufTy).Contents (Elt Ideal)) :
    meanR e h = Cert.KernelIdeal.Stages.meanK e h := by
  funext j
  obtain ⟨r, c, rfl⟩ : ∃ (r : Fin 50000) (c : Fin 256), j = ix2 r c := ⟨j 0, j 1, eq_ix2 j⟩
  unfold meanR Cert.KernelIdeal.Stages.meanK
  rw [aggR_eq, degR_eq, hostDivf_apply, mulf_apply, col256_apply]
  refine Eq.trans ?_ (congrArg (fun t => Cert.KernelIdeal.Stages.agg e h (ix2 r c) * t) (col256_apply (Cert.KernelIdeal.Stages.invDeg e) r c).symm)
  -- the divisor is at least one, so it is not zero
  have hne : Cert.KernelIdeal.Stages.degClamped e (ix1 r) ≠ 0 := by
    intro h0
    have h1 := one_le_degClamped e r
    rw [h0] at h1
    exact absurd h1 (by simp)
  show _ = Cert.KernelIdeal.Stages.agg e h (ix2 r c) * Cert.KernelIdeal.Stages.invDeg e (ix1 r)
  unfold Cert.KernelIdeal.Stages.invDeg
  rw [hostDivf_apply, broadcastInDim_scalar_apply, constant_apply, Ideal.ofBits_one_f32]
  -- x / d = x · (1 / d) at a divisor that is not zero
  exact (Ideal.mul_one_div hne).symm

/-- The reference's hidden layer is the layer function of the transposed weights. -/
theorem hiddenR_eq (mean h : (⟨S50000x256, .f32⟩ : BufTy).Contents (Elt Ideal)) (wl : (⟨S256x256, .f32⟩ : BufTy).Contents (Elt Ideal))
    (b : (⟨S256, .f32⟩ : BufTy).Contents (Elt Ideal)) (wr : (⟨S256x256, .f32⟩ : BufTy).Contents (Elt Ideal)) :
    hiddenR mean h wl b wr = Cert.Sage.hidden mean h (Cert.KernelIdeal.Stages.tr256 wl) (Cert.KernelIdeal.Stages.tr256 wr) b := by
  funext j
  obtain ⟨r, c, rfl⟩ : ∃ (r : Fin 50000) (c : Fin 256), j = ix2 r c := ⟨j 0, j 1, eq_ix2 j⟩
  rw [Cert.Sage.hidden_apply]
  unfold hiddenR Cert.Sage.linAt
  rw [maximumf_apply, addf_apply, addf_apply, bias256_apply, dot256_apply, dot256_apply, zero256_apply]
  -- (a + b) + c = (a + c) + b under the clamp
  exact congrArg (fun t => max t (Ideal.ofBits .f32 0x00000000#32)) (add_right_comm _ _ _)

/-- The reference's last affine part is the layer's affine function of the transposed weights. -/
theorem linR_eq (mean h : (⟨S50000x256, .f32⟩ : BufTy).Contents (Elt Ideal)) (wl : (⟨S47x256, .f32⟩ : BufTy).Contents (Elt Ideal))
    (b : (⟨S47, .f32⟩ : BufTy).Contents (Elt Ideal)) (wr : (⟨S47x256, .f32⟩ : BufTy).Contents (Elt Ideal)) :
    linR mean h wl b wr = Cert.Sage.lin mean h (Cert.KernelIdeal.Stages.tr47 wl) (Cert.KernelIdeal.Stages.tr47 wr) b := by
  funext j
  obtain ⟨r, c, rfl⟩ : ∃ (r : Fin 50000) (c : Fin 47), j = ix2 r c := ⟨j 0, j 1, eq_ix2 j⟩
  rw [Cert.Sage.lin_apply]
  unfold linR Cert.Sage.linAt
  rw [addf_apply, addf_apply, bias47_apply, dot47_apply, dot47_apply]
  -- (a + b) + c = (a + c) + b
  exact add_right_comm _ _ _

/-! ## The log-softmax's pieces at an index -/

/-- A column over the nodes, viewed as nodes × 1 and copied along the 47 outputs, reads at (r, c) the column at r. -/
theorem col47_apply (d : (⟨S50000, .f32⟩ : BufTy).Contents (Elt Ideal)) (r : Fin 50000) (c : Fin 47) :
    broadcastInDim S50000x47 ![0, 1] bcast_S50000x1_S50000x47_0_1 (broadcastInDim S50000x1 ![0] bcast_S50000_S50000x1_0 d) (ix2 r c) = d (ix1 r) := by
  refine (broadcastInDim_apply _ _ _ (ix2 r c) (ix2 r (0 : Fin 1)) (fun a => match a with | ⟨0, _⟩ => rfl | ⟨1, _⟩ => rfl)).trans ?_
  exact broadcastInDim_apply _ _ _ (ix2 r (0 : Fin 1)) (ix1 r) (fun a => match a with | ⟨0, _⟩ => rfl)

/-- The host's row sums from a zero initial value: at r, the sum over the 47 columns of the row's entries. -/
theorem hostSum47_apply (x : (⟨S50000x47, .f32⟩ : BufTy).Contents (Elt Ideal)) (r : Fin 50000) :
    Host.reduceAdd (F := Ideal) (φ := .f32) x (constant (F := Ideal) S_ .f32 0x00000000#32) reducesTo_S50000x47_S50000_d1 h_S_ (ix1 r)
      = ∑ k : Fin 47, x (ix2 r k) := by
  have h : S50000x47.Reduces [1] S50000 := by decide
  rw [hostReduceAdd_apply, Ideal.hostReduceAdd_single reducesTo_S50000x47_S50000_d1 h, constant_apply, Ideal.ofBits_zero_f32, zero_add]
  exact Finset.sum_congr rfl fun k _ => congrArg x (Cert.Keepdims.lift_last2 h r k)

/-- The reference's row maximum is the fold of maxima from minus infinity: the extra maximum with the fold's own
    starting value changes nothing, since a fold of maxima is at least its starting value. -/
theorem rowMaxR_apply (o : (⟨S50000x47, .f32⟩ : BufTy).Contents (Elt Ideal)) (r : Fin 50000) :
    rowMaxR o (ix1 r) = Cert.Sage.rowMax o r := by
  have h : S50000x47.Reduces [1] S50000 := by decide
  unfold rowMaxR Cert.Sage.rowMax
  rw [maximumf_apply, broadcastInDim_scalar_apply, constant_apply,
    Cert.Keepdims.host_max_last2_apply (φ := .f32) o _ reducesTo_S50000x47_S50000_d1 h h_S_ r, constant_apply]
  exact max_eq_right ((Finset.le_fold_max _).mpr (Or.inl le_rfl))

/-- The host's logarithm at an index is the logarithm of the entry. -/
theorem hostLog_apply {s : Shape} (x : FVec Ideal s .f32) (i : s.Idx) :
    Host.log (F := Ideal) (φ := .f32) x i = Ideal.log (x i) := rfl

/-- The host's exponential at an index is the exponential of the entry. -/
theorem hostExp_apply {s : Shape} (x : FVec Ideal s .f32) (i : s.Idx) :
    Host.exp (F := Ideal) (φ := .f32) x i = Ideal.exp (x i) := rfl

/-- An entry less its row's maximum. -/
theorem shiftR_apply (o : (⟨S50000x47, .f32⟩ : BufTy).Contents (Elt Ideal)) (r : Fin 50000) (c : Fin 47) :
    shiftR o (ix2 r c) = o (ix2 r c) - Cert.Sage.rowMax o r := by
  unfold shiftR
  rw [subf_apply, col47_apply, rowMaxR_apply]

/-- The reference's log-softmax is the row-wise log-softmax. -/
theorem lsmR_eq (o : (⟨S50000x47, .f32⟩ : BufTy).Contents (Elt Ideal)) : lsmR o = Cert.Sage.logSoftmax o := by
  funext j
  obtain ⟨r, c, rfl⟩ : ∃ (r : Fin 50000) (c : Fin 47), j = ix2 r c := ⟨j 0, j 1, eq_ix2 j⟩
  rw [Cert.Sage.logSoftmax_apply]
  unfold lsmR Cert.Sage.lsmAt
  rw [subf_apply, shiftR_apply]
  refine congrArg (fun t => (o (ix2 r c) - Cert.Sage.rowMax o r) - t) ?_
  -- the logarithm of the row's sum of exponentials, read through the two copies along the row
  refine (broadcastInDim_apply _ _ _ (ix2 r c) (ix2 r (0 : Fin 1)) (fun a => match a with | ⟨0, _⟩ => rfl | ⟨1, _⟩ => rfl)).trans ?_
  refine (hostLog_apply _ _).trans (congrArg Ideal.log ?_)
  refine (broadcastInDim_apply _ _ _ (ix2 r (0 : Fin 1)) (ix1 r) (fun a => match a with | ⟨0, _⟩ => rfl)).trans ?_
  rw [hostSum47_apply]
  refine Finset.sum_congr rfl fun k _ => ?_
  rw [hostExp_apply, shiftR_apply]

end Cert.RefLaws

end
-- ==== Proof.LibTypedRead.lean ====
/-
  Host operations on typed references, read back at the value's type.

  A module-local function's operations are stated over typed references (`TRef sig T`: a buffer with a proof that its type
  is `T`), and read and write the buffer through the transport along that proof. Reading a buffer back through the same
  transport (`rd x W`: the contents `W` holds at `x`'s buffer, at the type `T`) undoes it: after a typed operation the
  result reference reads as the operation's function of its operands' typed reads, with no transport left, and every
  other reference reads as before. These are the operations' `result` facts restated for typed reads, for any function
  `f` — so that evaluating a list of typed operations never has to compare a transported term with an untransported one.
-/
import Idealize.ShloMosaic.Lib.StableHlo.Run

noncomputable section

namespace Idealize.ShloMosaic.StableHlo.TRef

open Idealize.ShloMosaic Idealize.ShloMosaic.StableHlo

variable {τ : Topo} {sig : RefSig} {Val : EltTy → Type}
variable {T Tx Ta Tb Tc Ty : BufTy}

/-- The contents `W` holds at a typed reference's buffer, at the value's type. -/
def rd (x : TRef sig T) (W : Valuation τ sig Val) : T.Contents Val := x.ofBuf (W (Proc.devRef .tc x.ref))

/-- Writing at the value's type and reading back is the identity. -/
theorem ofBuf_toBuf (x : TRef sig T) (z : T.Contents Val) : x.ofBuf (Val := Val) (x.toBuf z) = z := by
  obtain ⟨r, h, h2, h3⟩ := x
  subst h
  rfl

/-- A constant: its reference reads as the constant … -/
theorem rd_nullary (y : TRef sig Ty) (v : Ty.Contents Val) (W : Valuation τ sig Val) :
    rd y ((no_index (TRef.nullary (τ := τ) y v)).result W) = v :=
  (congrArg y.ofBuf (nullary_result y.ref (y.toBuf v) y.dev W)).trans (ofBuf_toBuf y v)
/-- … and every other reference as before. -/
theorem rd_nullary_ne (y : TRef sig Ty) (v : Ty.Contents Val) (z : TRef sig T) (W : Valuation τ sig Val) (h : z.ref ≠ y.ref) :
    rd z ((no_index (TRef.nullary (τ := τ) y v)).result W) = rd z W :=
  congrArg z.ofBuf (nullary_result_ne y.ref (y.toBuf v) y.dev W h)

/-- A one-operand operation: its result reads as the function of the operand's read. -/
theorem rd_unary (x : TRef sig Tx) (y : TRef sig Ty) (f : Tx.Contents Val → Ty.Contents Val) (W : Valuation τ sig Val) :
    rd y ((no_index (TRef.unary (τ := τ) x y f)).result W) = f (rd x W) :=
  (congrArg y.ofBuf (unary_result x.ref y.ref (fun u => y.toBuf (f (x.ofBuf u))) x.dev y.dev W)).trans (ofBuf_toBuf y _)
theorem rd_unary_ne (x : TRef sig Tx) (y : TRef sig Ty) (f : Tx.Contents Val → Ty.Contents Val) (z : TRef sig T)
    (W : Valuation τ sig Val) (h : z.ref ≠ y.ref) :
    rd z ((no_index (TRef.unary (τ := τ) x y f)).result W) = rd z W :=
  congrArg z.ofBuf (unary_result_ne x.ref y.ref (fun u => y.toBuf (f (x.ofBuf u))) x.dev y.dev W h)

/-- A two-operand operation. -/
theorem rd_binary (a : TRef sig Ta) (b : TRef sig Tb) (y : TRef sig Ty) (f : Ta.Contents Val → Tb.Contents Val → Ty.Contents Val)
    (W : Valuation τ sig Val) :
    rd y ((no_index (TRef.binary (τ := τ) a b y f)).result W) = f (rd a W) (rd b W) :=
  (congrArg y.ofBuf (binary_result a.ref b.ref y.ref (fun u v => y.toBuf (f (a.ofBuf u) (b.ofBuf v))) a.dev b.dev y.dev W)).trans
    (ofBuf_toBuf y _)
theorem rd_binary_ne (a : TRef sig Ta) (b : TRef sig Tb) (y : TRef sig Ty) (f : Ta.Contents Val → Tb.Contents Val → Ty.Contents Val)
    (z : TRef sig T) (W : Valuation τ sig Val) (h : z.ref ≠ y.ref) :
    rd z ((no_index (TRef.binary (τ := τ) a b y f)).result W) = rd z W :=
  congrArg z.ofBuf (binary_result_ne a.ref b.ref y.ref (fun u v => y.toBuf (f (a.ofBuf u) (b.ofBuf v))) a.dev b.dev y.dev W h)

/-- A three-operand operation. -/
theorem rd_ternary (c : TRef sig Tc) (a : TRef sig Ta) (b : TRef sig Tb) (y : TRef sig Ty)
    (f : Tc.Contents Val → Ta.Contents Val → Tb.Contents Val → Ty.Contents Val) (W : Valuation τ sig Val) :
    rd y ((no_index (TRef.ternary (τ := τ) c a b y f)).result W) = f (rd c W) (rd a W) (rd b W) :=
  (congrArg y.ofBuf (ternary_result c.ref a.ref b.ref y.ref (fun w u v => y.toBuf (f (c.ofBuf w) (a.ofBuf u) (b.ofBuf v)))
    c.dev a.dev b.dev y.dev W)).trans (ofBuf_toBuf y _)
theorem rd_ternary_ne (c : TRef sig Tc) (a : TRef sig Ta) (b : TRef sig Tb) (y : TRef sig Ty)
    (f : Tc.Contents Val → Ta.Contents Val → Tb.Contents Val → Ty.Contents Val) (z : TRef sig T) (W : Valuation τ sig Val)
    (h : z.ref ≠ y.ref) :
    rd z ((no_index (TRef.ternary (τ := τ) c a b y f)).result W) = rd z W :=
  congrArg z.ofBuf (ternary_result_ne a.ref b.ref c.ref y.ref (fun w u v => y.toBuf (f (c.ofBuf w) (a.ofBuf u) (b.ofBuf v)))
    c.dev a.dev b.dev y.dev W h)

end Idealize.ShloMosaic.StableHlo.TRef

end
-- ==== Proof.Bridge.lean ====
/- The reference program's result, read from the fold of its 124 host operations chunk by chunk, is the kernel program's
   function of the same arguments.

   The operation list is cut at the layers' ends. Each chunk, at any contents it may find, writes its layer's output as
   the reference spells it and leaves the arrays that later chunks read as they were. The chunks' results compose to the
   three layers and the log-softmax in the reference's spelling; each stage is then the kernel program's stage: the mean
   by division is the mean by the reciprocal, a hidden layer is the layer function of the transposed weights, the last
   affine part and the log-softmax likewise. -/
import proofs.«108251_j23055384445756_1_alg».proof.Proof.RefRun
import proofs.«108251_j23055384445756_1_alg».proof.Proof.RefLaws
import proofs.«108251_j23055384445756_1_alg».proof.Proof.LibTypedRead
import proofs.«108251_j23055384445756_1_alg».proof.Proof.KStages
import proofs.«108251_j23055384445756_1_alg».proof.Proof.Spec
import Idealize.ShloMosaic.Lib.StableHlo.Run
import Idealize.ShloMosaic.Lib.Pipeline.Frame

set_option maxRecDepth 16384

noncomputable section

namespace Cert.Bridge

open Cert.ReferenceIdeal Cert.ReferenceIdeal.Gen Cert.ReferenceIdeal.ValueP Idealize.ShloMosaic Idealize.ShloMosaic.TcCoe
open Idealize.SL Idealize.SL.Sem Idealize.ShloMosaic.StableHlo

/-! ## The reference's stages over the two flat rows of the edge list -/

/-- Row `0` of the edge list as a flat vector. -/
def srcFlatR (e : (⟨S2x800000, .i32⟩ : BufTy).Contents (Elt Ideal)) : (⟨S800000, .i32⟩ : BufTy).Contents (Elt Ideal) :=
  shapeCast _ (extractStridedSlice S1x800000 ![0, 0] e slices_S2x800000_S1x800000_0_0) shapeCasts_S1x800000_S800000

/-- Row `1` of the edge list as a flat vector. -/
def dstFlatR (e : (⟨S2x800000, .i32⟩ : BufTy).Contents (Elt Ideal)) : (⟨S800000, .i32⟩ : BufTy).Contents (Elt Ideal) :=
  shapeCast _ (extractStridedSlice S1x800000 ![1, 0] e slices_S2x800000_S1x800000_1_0) shapeCasts_S1x800000_S800000

/-- The reference's neighbour mean from the flat sources and destinations: the aggregate over the clamped in-degree. -/
def meanOfR (s d : (⟨S800000, .i32⟩ : BufTy).Contents (Elt Ideal)) (h : (⟨S50000x256, .f32⟩ : BufTy).Contents (Elt Ideal)) :
    (⟨S50000x256, .f32⟩ : BufTy).Contents (Elt Ideal) :=
  Host.divf (F := Ideal) (φ := .f32)
    (Host.scatterAdd (F := Ideal) scatter_S50000x256_S800000x1_S800000x256_1_0_0_1
      (broadcastInDim S50000x256 ![] bcast_S_S50000x256 (constant (F := Ideal) S_ .f32 0x00000000#32))
      (broadcastInDim S800000x1 ![0] bcast_S800000_S800000x1_0 d)
      (Host.gather gather_S50000x256_S800000x1_S800000x256_1_0_n_n_0_1_1256 h
        (broadcastInDim S800000x1 ![0] bcast_S800000_S800000x1_0
          (select (cmpi .slt s (broadcastInDim S800000 ![] bcast_S_S800000 (constantI S_ 32 0#32)))
            (addi s (broadcastInDim S800000 ![] bcast_S_S800000 (constantI S_ 32 50000#32))) s))))
    (broadcastInDim S50000x256 ![0, 1] bcast_S50000x1_S50000x256_0_1 (broadcastInDim S50000x1 ![0] bcast_S50000_S50000x1_0
      (maximumf (F := Ideal) (φ := .f32) (Host.scatterAdd (F := Ideal) scatter_S50000_S800000x1_S800000_n_0_0_1
          (broadcastInDim S50000 ![] bcast_S_S50000 (constant (F := Ideal) S_ .f32 0x00000000#32))
          (broadcastInDim S800000x1 ![0] bcast_S800000_S800000x1_0 d)
          (broadcastInDim S800000 ![] bcast_S_S800000 (constant (F := Ideal) S_ .f32 0x3F800000#32)))
        (broadcastInDim S50000 ![] bcast_S_S50000 (constant (F := Ideal) S_ .f32 0x3F800000#32)))))

/-- At the edge list's two rows that is the reference's mean. -/
theorem meanOfR_eq (e : (⟨S2x800000, .i32⟩ : BufTy).Contents (Elt Ideal)) (h : (⟨S50000x256, .f32⟩ : BufTy).Contents (Elt Ideal)) :
    meanOfR (srcFlatR e) (dstFlatR e) h = Cert.RefLaws.meanR e h := rfl

/-! ## Reading and writing an array through a reference of its own type changes nothing -/

section Casts
variable (X : (⟨S50000x256, .f32⟩ : BufTy).Contents (Elt Ideal)) (Y : (⟨S50000x47, .f32⟩ : BufTy).Contents (Elt Ideal))
theorem ofBuf_main_v30 : (TRef.of (T := ⟨S50000x256, .f32⟩) main_v30).ofBuf (Val := Elt Ideal) X = X := rfl
theorem toBuf_main_v31 : (TRef.of (T := ⟨S50000x256, .f32⟩) main_v31).toBuf (Val := Elt Ideal) X = X := rfl
theorem ofBuf_main_v58 : (TRef.of (T := ⟨S50000x256, .f32⟩) main_v58).ofBuf (Val := Elt Ideal) X = X := rfl
theorem toBuf_main_v59 : (TRef.of (T := ⟨S50000x256, .f32⟩) main_v59).toBuf (Val := Elt Ideal) X = X := rfl
theorem ofBuf_main_v86 : (TRef.of (T := ⟨S50000x47, .f32⟩) main_v86).ofBuf (Val := Elt Ideal) Y = Y := rfl
theorem toBuf_main_v87 : (TRef.of (T := ⟨S50000x47, .f32⟩) main_v87).toBuf (Val := Elt Ideal) Y = Y := rfl
end Casts

/-! ## Each chunk at any contents it may find -/

variable (Wv : Valuation τ sig (Elt Ideal))

theorem c0_main_v31 : StableHlo.after (ops0 (F := Ideal)) Wv (Proc.devRef .tc main_v31)
    = Cert.RefLaws.hiddenR (meanOfR (srcFlatR (Wv (Proc.devRef .tc main_arg1))) (dstFlatR (Wv (Proc.devRef .tc main_arg1))) (Wv (Proc.devRef .tc main_arg0))) (Wv (Proc.devRef .tc main_arg0)) (Wv (Proc.devRef .tc main_arg2)) (Wv (Proc.devRef .tc main_arg3)) (Wv (Proc.devRef .tc main_arg4)) := by
  dsimp only [ops0]; after_results_simp
  simp only [TRef.ofBuf_toBuf, ofBuf_main_v30, toBuf_main_v31, ofBuf_main_v58, toBuf_main_v59, ofBuf_main_v86, toBuf_main_v87]
  rfl
theorem c0_main_v1 : StableHlo.after (ops0 (F := Ideal)) Wv (Proc.devRef .tc main_v1) = srcFlatR (Wv (Proc.devRef .tc main_arg1)) := by
  dsimp only [ops0]; after_results_simp; rfl
theorem c0_main_v3 : StableHlo.after (ops0 (F := Ideal)) Wv (Proc.devRef .tc main_v3) = dstFlatR (Wv (Proc.devRef .tc main_arg1)) := by
  dsimp only [ops0]; after_results_simp; rfl
theorem c0_main_arg5 : StableHlo.after (ops0 (F := Ideal)) Wv (Proc.devRef .tc main_arg5) = Wv (Proc.devRef .tc main_arg5) := by
  dsimp only [ops0]; after_results_simp
theorem c0_main_arg6 : StableHlo.after (ops0 (F := Ideal)) Wv (Proc.devRef .tc main_arg6) = Wv (Proc.devRef .tc main_arg6) := by
  dsimp only [ops0]; after_results_simp
theorem c0_main_arg7 : StableHlo.after (ops0 (F := Ideal)) Wv (Proc.devRef .tc main_arg7) = Wv (Proc.devRef .tc main_arg7) := by
  dsimp only [ops0]; after_results_simp
theorem c0_main_arg8 : StableHlo.after (ops0 (F := Ideal)) Wv (Proc.devRef .tc main_arg8) = Wv (Proc.devRef .tc main_arg8) := by
  dsimp only [ops0]; after_results_simp
theorem c0_main_arg9 : StableHlo.after (ops0 (F := Ideal)) Wv (Proc.devRef .tc main_arg9) = Wv (Proc.devRef .tc main_arg9) := by
  dsimp only [ops0]; after_results_simp
theorem c0_main_arg10 : StableHlo.after (ops0 (F := Ideal)) Wv (Proc.devRef .tc main_arg10) = Wv (Proc.devRef .tc main_arg10) := by
  dsimp only [ops0]; after_results_simp

theorem c1_main_v59 : StableHlo.after (ops1 (F := Ideal)) Wv (Proc.devRef .tc main_v59)
    = Cert.RefLaws.hiddenR (meanOfR (Wv (Proc.devRef .tc main_v1)) (Wv (Proc.devRef .tc main_v3)) (Wv (Proc.devRef .tc main_v31))) (Wv (Proc.devRef .tc main_v31)) (Wv (Proc.devRef .tc main_arg5)) (Wv (Proc.devRef .tc main_arg6)) (Wv (Proc.devRef .tc main_arg7)) := by
  dsimp only [ops1]; after_results_simp
  simp only [TRef.ofBuf_toBuf, ofBuf_main_v30, toBuf_main_v31, ofBuf_main_v58, toBuf_main_v59, ofBuf_main_v86, toBuf_main_v87]
  rfl
theorem c1_main_v1 : StableHlo.after (ops1 (F := Ideal)) Wv (Proc.devRef .tc main_v1) = Wv (Proc.devRef .tc main_v1) := by
  dsimp only [ops1]; after_results_simp
theorem c1_main_v3 : StableHlo.after (ops1 (F := Ideal)) Wv (Proc.devRef .tc main_v3) = Wv (Proc.devRef .tc main_v3) := by
  dsimp only [ops1]; after_results_simp
theorem c1_main_arg8 : StableHlo.after (ops1 (F := Ideal)) Wv (Proc.devRef .tc main_arg8) = Wv (Proc.devRef .tc main_arg8) := by
  dsimp only [ops1]; after_results_simp
theorem c1_main_arg9 : StableHlo.after (ops1 (F := Ideal)) Wv (Proc.devRef .tc main_arg9) = Wv (Proc.devRef .tc main_arg9) := by
  dsimp only [ops1]; after_results_simp
theorem c1_main_arg10 : StableHlo.after (ops1 (F := Ideal)) Wv (Proc.devRef .tc main_arg10) = Wv (Proc.devRef .tc main_arg10) := by
  dsimp only [ops1]; after_results_simp

theorem c2_main_v86 : StableHlo.after (ops2 (F := Ideal)) Wv (Proc.devRef .tc main_v86)
    = Cert.RefLaws.linR (meanOfR (Wv (Proc.devRef .tc main_v1)) (Wv (Proc.devRef .tc main_v3)) (Wv (Proc.devRef .tc main_v59))) (Wv (Proc.devRef .tc main_v59)) (Wv (Proc.devRef .tc main_arg8)) (Wv (Proc.devRef .tc main_arg9)) (Wv (Proc.devRef .tc main_arg10)) := by
  dsimp only [ops2]; after_results_simp; rfl

theorem c3_main_v87 : StableHlo.after (ops3 (F := Ideal)) Wv (Proc.devRef .tc main_v87) = Cert.RefLaws.lsmR (Wv (Proc.devRef .tc main_v86)) := by
  dsimp only [ops3]; after_results_simp
  simp only [TRef.ofBuf_toBuf, ofBuf_main_v30, toBuf_main_v31, ofBuf_main_v58, toBuf_main_v59, ofBuf_main_v86, toBuf_main_v87]
  rfl

/-! ## The fold from the launch memory -/

variable (m : (ℓ : Loc nD τ sig) → Buf (Elt Ideal) ℓ) (c : Dev nD)

/-- The first layer's output in the reference's spelling, from the launch memory. -/
def r1 : (⟨S50000x256, .f32⟩ : BufTy).Contents (Elt Ideal) :=
  Cert.RefLaws.hiddenR (Cert.RefLaws.meanR (m ((c.tc : Thread nD τ).loc main_arg1)) (m ((c.tc : Thread nD τ).loc main_arg0))) (m ((c.tc : Thread nD τ).loc main_arg0)) (m ((c.tc : Thread nD τ).loc main_arg2)) (m ((c.tc : Thread nD τ).loc main_arg3)) (m ((c.tc : Thread nD τ).loc main_arg4))

/-- The second layer's output in the reference's spelling. -/
def r2 : (⟨S50000x256, .f32⟩ : BufTy).Contents (Elt Ideal) :=
  Cert.RefLaws.hiddenR (Cert.RefLaws.meanR (m ((c.tc : Thread nD τ).loc main_arg1)) (r1 m c)) (r1 m c) (m ((c.tc : Thread nD τ).loc main_arg5)) (m ((c.tc : Thread nD τ).loc main_arg6)) (m ((c.tc : Thread nD τ).loc main_arg7))

/-- The fold at the result's reference is the reference's three layers and log-softmax. -/
theorem fold_value : StableHlo.after (ops (F := Ideal)) (launchContents m c) (Proc.devRef .tc main_v87)
    = Cert.RefLaws.lsmR (Cert.RefLaws.linR (Cert.RefLaws.meanR (m ((c.tc : Thread nD τ).loc main_arg1)) (r2 m c)) (r2 m c) (m ((c.tc : Thread nD τ).loc main_arg8)) (m ((c.tc : Thread nD τ).loc main_arg9)) (m ((c.tc : Thread nD τ).loc main_arg10))) := by
  rw [ops_split, StableHlo.after_append, StableHlo.after_append, StableHlo.after_append]
  rw [c3_main_v87, c2_main_v86]
  rw [c1_main_v59, c1_main_v1, c1_main_v3, c1_main_arg8, c1_main_arg9, c1_main_arg10]
  rw [c0_main_v31, c0_main_v1, c0_main_v3, c0_main_arg5, c0_main_arg6, c0_main_arg7, c0_main_arg8, c0_main_arg9, c0_main_arg10]
  rfl

/-- The kernel program's function of the same eleven arguments. -/
theorem ref_value : StableHlo.after (ops (F := Ideal)) (launchContents m c) (Proc.devRef .tc main_v87)
    = Cert.KernelIdeal.Stages.outK (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) (m ((c.tc : Thread nD τ).loc main_arg8)) (m ((c.tc : Thread nD τ).loc main_arg9)) (m ((c.tc : Thread nD τ).loc main_arg10)) := by
  rw [fold_value]
  unfold r2 r1
  rw [Cert.RefLaws.lsmR_eq, Cert.RefLaws.linR_eq, Cert.RefLaws.hiddenR_eq, Cert.RefLaws.hiddenR_eq,
    Cert.RefLaws.meanR_eq, Cert.RefLaws.meanR_eq, Cert.RefLaws.meanR_eq]
  rfl

end Cert.Bridge

end
-- ==== Proof.lean ====
/- Three stacked graph-convolution layers with mean aggregation, the last followed by a row-wise log-softmax: the
   kernel program (three row-blocked kernel regions among host gathers and scatter-sums) against the plain reference.

   Over the extended reals both compute, per layer, for node r and output feature c,
     (Σ_k mean(r,k) · Wl(c,k) + Σ_k h(r,k) · Wr(c,k)) + b(c),
   where mean is the scatter-sum at the edges' destinations of h's rows gathered at the edges' sources, scaled by the
   in-degree clamped below at one; hidden layers clamp at zero, and the last layer subtracts each row's maximum and the
   logarithm of the row's sum of exponentials. The kernel program scales by the reciprocal of the clamped in-degree, the
   reference divides by it: the same, because that divisor is at least one and so not zero. The kernel adds the bias after
   both matrix products, the reference between them: addition is commutative and associative. A change of float format
   is the identity here, and a matrix product, blocked by rows or whole, is the same sum over the contracted axis. The
   gather and the scatter-sum are the same functions of the same edge list on both sides and are never opened, so
   nothing depends on the edge indices' ranges or on the inputs' finiteness.

   The frames of the two kernel programs are the generated ones; the reference's frame is its run with the result
   dropped. The kernel program's result is read off the generated frame's boundary contents region by region
   (Region0, Region1, Region2, WChain); the reference's result off the fold of its host operations, chunk by chunk
   (Bridge, over the laws of RefLaws). -/
import proofs.«108251_j23055384445756_1_alg».proof.Defs
import proofs.«108251_j23055384445756_1_alg».proof.Proof.Gen.Kernel
import proofs.«108251_j23055384445756_1_alg».proof.Proof.Gen.Kernel.Skeleton
import proofs.«108251_j23055384445756_1_alg».proof.Proof.Gen.Kernel.Launch
import proofs.«108251_j23055384445756_1_alg».proof.Proof.Gen.Kernel.Points
import proofs.«108251_j23055384445756_1_alg».proof.Proof.Gen.Kernel.Frame
import proofs.«108251_j23055384445756_1_alg».proof.Proof.Gen.KernelIdeal
import proofs.«108251_j23055384445756_1_alg».proof.Proof.Gen.KernelIdeal.Skeleton
import proofs.«108251_j23055384445756_1_alg».proof.Proof.Gen.KernelIdeal.Launch
import proofs.«108251_j23055384445756_1_alg».proof.Proof.Gen.KernelIdeal.Points
import proofs.«108251_j23055384445756_1_alg».proof.Proof.Gen.KernelIdeal.Frame
import proofs.«108251_j23055384445756_1_alg».proof.Proof.Gen.ReferenceIdeal
import proofs.«108251_j23055384445756_1_alg».proof.Proof.Gen.Pre_finite_inputs
import proofs.«108251_j23055384445756_1_alg».proof.Proof.RefRun
import proofs.«108251_j23055384445756_1_alg».proof.Proof.RunValue
import proofs.«108251_j23055384445756_1_alg».proof.Proof.WChain
import proofs.«108251_j23055384445756_1_alg».proof.Proof.Bridge
import Idealize.ShloMosaic.Adequacy
import Idealize.ShloMosaic.Init

noncomputable section

namespace Cert.Proof

open Idealize.ShloMosaic Idealize.SL.Sem

/-- The kernel program runs and leaves its arguments as they were. -/
theorem frame_k : Cert.frame_Kernel := fun m ρ _ => Cert.Kernel.Gen.frame m ρ

/-- So does its idealization. -/
theorem frame_ki : Cert.frame_KernelIdeal := fun m ρ _ => Cert.KernelIdeal.Gen.frame m ρ

/-- The reference runs and leaves its arguments as they were: its run, the result dropped. -/
theorem frame_ri : Cert.frame_ReferenceIdeal := fun m ρ _ =>
  (θ_run Cert.ReferenceIdeal.defs _ _).mono (fun _ h c => (h c).2) (Cert.ReferenceIdeal.ValueP.run (F := Ideal) m ρ)

/-- Run from memories that agree on the arguments, both programs end with the same array: the kernel program's function
    of the arguments. -/
theorem algebraic : Cert.algebraic_KernelIdeal_ReferenceIdeal := by
  intro m ρ m' ρ' _ hagree
  refine ⟨fun c => Cert.KernelIdeal.Stages.outK (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)), ?_, ?_⟩
  · exact (θ_run Cert.KernelIdeal.defs _ _).mono
      (fun r h c => ⟨(h c).1.trans (Cert.KernelIdeal.WChain.kernel_value m ρ c), (h c).2⟩)
      (Cert.KernelIdeal.GenP.run_value (F := Ideal) m ρ)
  · refine (θ_run Cert.ReferenceIdeal.defs _ _).mono (fun r h c => ⟨(h c).1.trans ?_, (h c).2⟩)
      (Cert.ReferenceIdeal.ValueP.run (F := Ideal) m' ρ')
    obtain ⟨h0, h1, h2, h3, h4, h5, h6, h7, h8, h9, h10⟩ := hagree c
    rw [Cert.Bridge.ref_value m' c, h0, h1, h2, h3, h4, h5, h6, h7, h8, h9, h10]

theorem claim : Cert.Claim := ⟨Cert.Kernel.Gen.facts, Cert.KernelIdeal.Gen.facts, Cert.ReferenceIdeal.Gen.facts, Cert.Pre_finite_inputs.Gen.facts,
  frame_k, frame_ki, frame_ri, trivial, algebraic⟩

end Cert.Proof

end
